-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1200000x16 : Shape := ⟨2, ![1200000, 16]⟩
abbrev S100000x3 : Shape := ⟨2, ![100000, 3]⟩
abbrev S2x1200000 : Shape := ⟨2, ![2, 1200000]⟩
abbrev S32x64 : Shape := ⟨2, ![32, 64]⟩
abbrev S64 : Shape := ⟨1, ![64]⟩
abbrev S64x64 : Shape := ⟨2, ![64, 64]⟩
abbrev S145x64 : Shape := ⟨2, ![145, 64]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1200000x16 : S_.BroadcastsInDim S1200000x16 (![] : Fin 0 → Fin S1200000x16.rank)
  reducesTo_S1200000x16_S_d0_1 : S1200000x16.ReducesTo [0, 1] S_
  bcast_S_S100000x3 : S_.BroadcastsInDim S100000x3 (![] : Fin 0 → Fin S100000x3.rank)
  reducesTo_S100000x3_S_d0_1 : S100000x3.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S145x64 : S_.BroadcastsInDim S145x64 (![] : Fin 0 → Fin S145x64.rank)
  reducesTo_S145x64_S_d0_1 : S145x64.ReducesTo [0, 1] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x1200000 : S_.BroadcastsInDim S2x1200000 (![] : Fin 0 → Fin S2x1200000.rank)
  reducesTo_S2x1200000_S_d0_1 : S2x1200000.ReducesTo [0, 1] S_

variable [Facts]

def fn_part5 {F : FTy → Type} [FloatOps F] (main_arg3 : IVec S2x1200000 32) (main_arg19 : FVec F S1 .f32) (main_v83 : IVec S_ 1) (main_v84 : FVec F S64x1 .f32) (main_cst_32 : FVec F S_ .f32) : IVec S_ 1 :=
  let main_v85 : FVec F S64x1 .f32 := broadcastInDim S64x1 ![] bcast_S_S64x1 main_cst_32
  let main_v86 : IVec S64x1 1 := cmpf .olt main_v84 main_v85
  let main_c_33 : IVec S_ 1 := constantI S_ 1 1#1
  let main_v87 : IVec S_ 1 := (fun x v => Host.reduce IntOp.andi x v reducesTo_S64x1_S_d0_1 h_S_) main_v86 main_c_33
  let main_v88 : IVec S_ 1 := andi main_v83 main_v87
  let main_v89 : FVec F S1 .f32 := Host.absf main_arg19
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_c_36 : IVec S_ 32 := constantI S_ 32 0#32
  let main_v94 : IVec S2x1200000 32 := broadcastInDim S2x1200000 ![] bcast_S_S2x1200000 main_c_36
  let main_v95 : IVec S2x1200000 1 := cmpi .sge main_arg3 main_v94
  let main_c_37 : IVec S_ 1 := constantI S_ 1 1#1
  let main_v96 : IVec S_ 1 := (fun x v => Host.reduce IntOp.andi x v reducesTo_S2x1200000_S_d0_1 h_S_) main_v95 main_c_37
  let main_v97 : IVec S_ 1 := andi main_v93 main_v96
  let main_c_38 : IVec S_ 32 := constantI S_ 32 100000#32
  let main_v98 : IVec S2x1200000 32 := broadcastInDim S2x1200000 ![] bcast_S_S2x1200000 main_c_38
  let main_v99 : IVec S2x1200000 1 := cmpi .slt main_arg3 main_v98
  let main_c_39 : IVec S_ 1 := constantI S_ 1 1#1
  let main_v100 : IVec S_ 1 := (fun x v => Host.reduce IntOp.andi x v reducesTo_S2x1200000_S_d0_1 h_S_) main_v99 main_c_39
  let main_v101 : IVec S_ 1 := andi main_v97 main_v100
  main_v101

def fn_part4 {F : FTy → Type} [FloatOps F] (main_arg3 : IVec S2x1200000 32) (main_arg15 : FVec F S64 .f32) (main_arg16 : FVec F S64x64 .f32) (main_arg17 : FVec F S64 .f32) (main_arg18 : FVec F S64x1 .f32) (main_arg19 : FVec F S1 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg16
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x1 .f32 := Host.absf main_arg18
  let main_cst_32 : FVec F S_ .f32 := constant S_ .f32 0x7F800000#32
  fn_part5 (F := F) main_arg3 main_arg19 main_v83 main_v84 main_cst_32

def fn_part3 {F : FTy → Type} [FloatOps F] (main_arg3 : IVec S2x1200000 32) (main_arg12 : FVec F S128x64 .f32) (main_arg13 : FVec F S64 .f32) (main_arg14 : FVec F S64x64 .f32) (main_arg15 : FVec F S64 .f32) (main_arg16 : FVec F S64x64 .f32) (main_arg17 : FVec F S64 .f32) (main_arg18 : FVec F S64x1 .f32) (main_arg19 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg14
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg3 main_arg15 main_arg16 main_arg17 main_arg18 main_arg19 main_v63 main_v67

def fn_part2 {F : FTy → Type} [FloatOps F] (main_arg3 : IVec S2x1200000 32) (main_arg8 : FVec F S145x64 .f32) (main_arg9 : FVec F S64 .f32) (main_arg10 : FVec F S64x64 .f32) (main_arg11 : FVec F S64 .f32) (main_arg12 : FVec F S128x64 .f32) (main_arg13 : FVec F S64 .f32) (main_arg14 : FVec F S64x64 .f32) (main_arg15 : FVec F S64 .f32) (main_arg16 : FVec F S64x64 .f32) (main_arg17 : FVec F S64 .f32) (main_arg18 : FVec F S64x1 .f32) (main_arg19 : FVec F S1 .f32) (main_v33 : IVec S_ 1) : IVec S_ 1 :=
  let main_v34 : FVec F S145x64 .f32 := Host.absf main_arg8
  let main_cst_12 : FVec F S_ .f32 := constant S_ .f32 0x7F800000#32
  let main_v35 : FVec F S145x64 .f32 := broadcastInDim S145x64 ![] bcast_S_S145x64 main_cst_12
  let main_v36 : IVec S145x64 1 := cmpf .olt main_v34 main_v35
  let main_c_13 : IVec S_ 1 := constantI S_ 1 1#1
  let main_v37 : IVec S_ 1 := (fun x v => Host.reduce IntOp.andi x v reducesTo_S145x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg3 main_arg12 main_arg13 main_arg14 main_arg15 main_arg16 main_arg17 main_arg18 main_arg19 main_v48 main_v49 main_v50

def fn_part1 {F : FTy → Type} [FloatOps F] (main_arg3 : IVec S2x1200000 32) (main_arg5 : FVec F S64 .f32) (main_arg6 : FVec F S64x64 .f32) (main_arg7 : FVec F S64 .f32) (main_arg8 : FVec F S145x64 .f32) (main_arg9 : FVec F S64 .f32) (main_arg10 : FVec F S64x64 .f32) (main_arg11 : FVec F S64 .f32) (main_arg12 : FVec F S128x64 .f32) (main_arg13 : FVec F S64 .f32) (main_arg14 : FVec F S64x64 .f32) (main_arg15 : FVec F S64 .f32) (main_arg16 : FVec F S64x64 .f32) (main_arg17 : FVec F S64 .f32) (main_arg18 : FVec F S64x1 .f32) (main_arg19 : FVec F S1 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg3 main_arg8 main_arg9 main_arg10 main_arg11 main_arg12 main_arg13 main_arg14 main_arg15 main_arg16 main_arg17 main_arg18 main_arg19 main_v33

def fn {F : FTy → Type} [FloatOps F] (main_arg0 : FVec F S100000x32 .f32) (main_arg1 : FVec F S1200000x16 .f32) (main_arg2 : FVec F S100000x3 .f32) (main_arg3 : IVec S2x1200000 32) (main_arg4 : FVec F S32x64 .f32) (main_arg5 : FVec F S64 .f32) (main_arg6 : FVec F S64x64 .f32) (main_arg7 : FVec F S64 .f32) (main_arg8 : FVec F S145x64 .f32) (main_arg9 : FVec F S64 .f32) (main_arg10 : FVec F S64x64 .f32) (main_arg11 : FVec F S64 .f32) (main_arg12 : FVec F S128x64 .f32) (main_arg13 : FVec F S64 .f32) (main_arg14 : FVec F S64x64 .f32) (main_arg15 : FVec F S64 .f32) (main_arg16 : FVec F S64x64 .f32) (main_arg17 : FVec F S64 .f32) (main_arg18 : FVec F S64x1 .f32) (main_arg19 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1200000x16 .f32 := Host.absf main_arg1
  let main_cst_0 : FVec F S_ .f32 := constant S_ .f32 0x7F800000#32
  let main_v5 : FVec F S1200000x16 .f32 := broadcastInDim S1200000x16 ![] bcast_S_S1200000x16 main_cst_0
  let main_v6 : IVec S1200000x16 1 := cmpf .olt main_v4 main_v5
  let main_c_1 : IVec S_ 1 := constantI S_ 1 1#1
  let main_v7 : IVec S_ 1 := (fun x v => Host.reduce IntOp.andi x v reducesTo_S1200000x16_S_d0_1 h_S_) main_v6 main_c_1
  let main_v8 : IVec S_ 1 := andi main_v3 main_v7
  let main_v9 : FVec F S100000x3 .f32 := Host.absf main_arg2
  let main_cst_2 : FVec F S_ .f32 := constant S_ .f32 0x7F800000#32
  let main_v10 : FVec F S100000x3 .f32 := broadcastInDim S100000x3 ![] bcast_S_S100000x3 main_cst_2
  let main_v11 : IVec S100000x3 1 := cmpf .olt main_v9 main_v10
  let main_c_3 : IVec S_ 1 := constantI S_ 1 1#1
  let main_v12 : IVec S_ 1 := (fun x v => Host.reduce IntOp.andi x v reducesTo_S100000x3_S_d0_1 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg3 main_arg5 main_arg6 main_arg7 main_arg8 main_arg9 main_arg10 main_arg11 main_arg12 main_arg13 main_arg14 main_arg15 main_arg16 main_arg17 main_arg18 main_arg19 main_v13 main_v16
-- ==== Kernel.lean ====
abbrev S100000x32 : Shape := ⟨2, ![100000, 32]⟩
abbrev S1200000x16 : Shape := ⟨2, ![1200000, 16]⟩
abbrev S100000x3 : Shape := ⟨2, ![100000, 3]⟩
abbrev S2x1200000 : Shape := ⟨2, ![2, 1200000]⟩
abbrev S32x64 : Shape := ⟨2, ![32, 64]⟩
abbrev S64 : Shape := ⟨1, ![64]⟩
abbrev S64x64 : Shape := ⟨2, ![64, 64]⟩
abbrev S145x64 : Shape := ⟨2, ![145, 64]⟩
abbrev S128x64 : Shape := ⟨2, ![128, 64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S100000x64 : Shape := ⟨2, ![100000, 64]⟩
abbrev S10000x32 : Shape := ⟨2, ![10000, 32]⟩
abbrev S10000x64 : Shape := ⟨2, ![10000, 64]⟩
abbrev S1x64 : Shape := ⟨2, ![1, 64]⟩
abbrev S_ : Shape := ⟨0, ![]⟩
abbrev S1200000x1 : Shape := ⟨2, ![1200000, 1]⟩
abbrev S1x1 : Shape := ⟨2, ![1, 1]⟩
abbrev S1200000x64 : Shape := ⟨2, ![1200000, 64]⟩
abbrev S1200000x3 : Shape := ⟨2, ![1200000, 3]⟩
abbrev S1200000x147 : Shape := ⟨2, ![1200000, 147]⟩
abbrev S3000x147 : Shape := ⟨2, ![3000, 147]⟩
abbrev S3000x64 : Shape := ⟨2, ![3000, 64]⟩
abbrev S3000x3 : Shape := ⟨2, ![3000, 3]⟩
abbrev S3000x16 : Shape := ⟨2, ![3000, 16]⟩
abbrev S3000 : Shape := ⟨1, ![3000]⟩
abbrev S3000x1 : Shape := ⟨2, ![3000, 1]⟩
abbrev S3000x145 : Shape := ⟨2, ![3000, 145]⟩
abbrev S100000 : Shape := ⟨1, ![100000]⟩
abbrev S100000x1 : Shape := ⟨2, ![100000, 1]⟩
abbrev S5000x64 : Shape := ⟨2, ![5000, 64]⟩
abbrev S5000x128 : Shape := ⟨2, ![5000, 128]⟩

abbrev nBuf : Space → Nat
  | .hbm => 151
  | .vmem => 32
  | .smem => 0
  | _ => 0

abbrev hbmTy0_0 (i : Nat) : BufTy := match i % 128 with
  | 0 => ⟨S100000x32, .f32⟩
  | 1 => ⟨S1200000x16, .f32⟩
  | 2 => ⟨S100000x3, .f32⟩
  | 3 => ⟨S2x1200000, .i32⟩
  | 4 => ⟨S32x64, .f32⟩
  | 5 => ⟨S64, .f32⟩
  | 6 => ⟨S64x64, .f32⟩
  | 7 => ⟨S64, .f32⟩
  | 8 => ⟨S145x64, .f32⟩
  | 9 => ⟨S64, .f32⟩
  | 10 => ⟨S64x64, .f32⟩
  | 11 => ⟨S64, .f32⟩
  | 12 => ⟨S128x64, .f32⟩
  | 13 => ⟨S64, .f32⟩
  | 14 => ⟨S64x64, .f32⟩
  | 15 => ⟨S64, .f32⟩
  | 16 => ⟨S64x64, .f32⟩
  | 17 => ⟨S64, .f32⟩
  | 18 => ⟨S64x1, .f32⟩
  | 19 => ⟨S1, .f32⟩
  | 20 => ⟨S1x1200000, .i32⟩
  | 21 => ⟨S1200000, .i32⟩
  | 22 => ⟨S1x1200000, .i32⟩
  | 23 => ⟨S1200000, .i32⟩
  | 24 => ⟨S32x64, .bf16⟩
  | 25 => ⟨S100000x64, .f32⟩
  | 26 => ⟨S_, .i32⟩
  | 27 => ⟨S1200000, .i32⟩
  | 28 => ⟨S1200000, .i1⟩
  | 29 => ⟨S_, .i32⟩
  | 30 => ⟨S1200000, .i32⟩
  | 31 => ⟨S1200000, .i32⟩
  | 32 => ⟨S1200000, .i32⟩
  | 33 => ⟨S1200000x1, .i32⟩
  | 34 => ⟨S1, .i32⟩
  | 35 => ⟨S_, .i32⟩
  | 36 => ⟨S1200000x1, .i32⟩
  | 37 => ⟨S1200000x1, .i1⟩
  | 38 => ⟨S1x1, .i32⟩
  | 39 => ⟨S1200000x1, .i32⟩
  | 40 => ⟨S1200000x1, .i1⟩
  | 41 => ⟨S1200000x1, .i1⟩
  | 42 => ⟨S_, .i1⟩
  | 43 => ⟨S1200000, .i1⟩
  | 44 => ⟨S1200000x64, .f32⟩
  | 45 => ⟨S1200000x64, .i1⟩
  | 46 => ⟨S_, .f32⟩
  | 47 => ⟨S1200000x64, .f32⟩
  | 48 => ⟨S1200000x64, .f32⟩
  | 49 => ⟨S_, .i32⟩
  | 50 => ⟨S1200000, .i32⟩
  | 51 => ⟨S1200000, .i1⟩
  | 52 => ⟨S_, .i32⟩
  | 53 => ⟨S1200000, .i32⟩
  | 54 => ⟨S1200000, .i32⟩
  | 55 => ⟨S1200000, .i32⟩
  | 56 => ⟨S1200000x1, .i32⟩
  | 57 => ⟨S1, .i32⟩
  | 58 => ⟨S_, .i32⟩
  | 59 => ⟨S1200000x1, .i32⟩
  | 60 => ⟨S1200000x1, .i1⟩
  | 61 => ⟨S1x1, .i32⟩
  | 62 => ⟨S1200000x1, .i32⟩
  | 63 => ⟨S1200000x1, .i1⟩
  | 64 => ⟨S1200000x1, .i1⟩
  | 65 => ⟨S_, .i1⟩
  | 66 => ⟨S1200000, .i1⟩
  | 67 => ⟨S1200000x64, .f32⟩
  | 68 => ⟨S1200000x64, .i1⟩
  | 69 => ⟨S_, .f32⟩
  | 70 => ⟨S1200000x64, .f32⟩
  | 71 => ⟨S1200000x64, .f32⟩
  | 72 => ⟨S_, .i32⟩
  | 73 => ⟨S1200000, .i32⟩
  | 74 => ⟨S1200000, .i1⟩
  | 75 => ⟨S_, .i32⟩
  | 76 => ⟨S1200000, .i32⟩
  | 77 => ⟨S1200000, .i32⟩
  | 78 => ⟨S1200000, .i32⟩
  | 79 => ⟨S1200000x1, .i32⟩
  | 80 => ⟨S1, .i32⟩
  | 81 => ⟨S_, .i32⟩
  | 82 => ⟨S1200000x1, .i32⟩
  | 83 => ⟨S1200000x1, .i1⟩
  | 84 => ⟨S1x1, .i32⟩
  | 85 => ⟨S1200000x1, .i32⟩
  | 86 => ⟨S1200000x1, .i1⟩
  | 87 => ⟨S1200000x1, .i1⟩
  | 88 => ⟨S_, .i1⟩
  | 89 => ⟨S1200000, .i1⟩
  | 90 => ⟨S1200000x3, .f32⟩
  | 91 => ⟨S1200000x3, .i1⟩
  | 92 => ⟨S_, .f32⟩
  | 93 => ⟨S1200000x3, .f32⟩
  | 94 => ⟨S1200000x3, .f32⟩
  | 95 => ⟨S_, .i32⟩
  | 96 => ⟨S1200000, .i32⟩
  | 97 => ⟨S1200000, .i1⟩
  | 98 => ⟨S_, .i32⟩
  | 99 => ⟨S1200000, .i32⟩
  | 100 => ⟨S1200000, .i32⟩
  | 101 => ⟨S1200000, .i32⟩
  | 102 => ⟨S1200000x1, .i32⟩
  | 103 => ⟨S1, .i32⟩
  | 104 => ⟨S_, .i32⟩
  | 105 => ⟨S1200000x1, .i32⟩
  | 106 => ⟨S1200000x1, .i1⟩
  | 107 => ⟨S1x1, .i32⟩
  | 108 => ⟨S1200000x1, .i32⟩
  | 109 => ⟨S1200000x1, .i1⟩
  | 110 => ⟨S1200000x1, .i1⟩
  | 111 => ⟨S_, .i1⟩
  | 112 => ⟨S1200000, .i1⟩
  | 113 => ⟨S1200000x3, .f32⟩
  | 114 => ⟨S1200000x3, .i1⟩
  | 115 => ⟨S_, .f32⟩
  | 116 => ⟨S1200000x3, .f32⟩
  | 117 => ⟨S1200000x3, .f32⟩
  | 118 => ⟨S1200000x3, .f32⟩
  | 119 => ⟨S1200000x147, .f32⟩
  | 120 => ⟨S145x64, .bf16⟩
  | 121 => ⟨S64x64, .bf16⟩
  | 122 => ⟨S64x64, .bf16⟩
  | 123 => ⟨S64x1, .bf16⟩
  | 124 => ⟨S1200000x64, .f32⟩
  | 125 => ⟨S1200000x3, .f32⟩
  | 126 => ⟨S_, .f32⟩
  | 127 => ⟨S100000x3, .f32⟩
  | _ => ⟨S100000x32, .f32⟩

abbrev hbmTy0_1 (i : Nat) : BufTy := match i % 128 with
  | 0 => ⟨S1200000x1, .i32⟩
  | 1 => ⟨S100000x3, .f32⟩
  | 2 => ⟨S_, .f32⟩
  | 3 => ⟨S1200000, .f32⟩
  | 4 => ⟨S_, .f32⟩
  | 5 => ⟨S100000, .f32⟩
  | 6 => ⟨S1200000x1, .i32⟩
  | 7 => ⟨S100000, .f32⟩
  | 8 => ⟨S_, .f32⟩
  | 9 => ⟨S100000, .f32⟩
  | 10 => ⟨S100000, .f32⟩
  | 11 => ⟨S100000x1, .f32⟩
  | 12 => ⟨S100000x3, .f32⟩
  | 13 => ⟨S100000x3, .f32⟩
  | 14 => ⟨S100000x3, .f32⟩
  | 15 => ⟨S_, .f32⟩
  | 16 => ⟨S100000x64, .f32⟩
  | 17 => ⟨S1200000x1, .i32⟩
  | 18 => ⟨S100000x64, .f32⟩
  | 19 => ⟨S128x64, .bf16⟩
  | 20 => ⟨S64x64, .bf16⟩
  | 21 => ⟨S64x64, .bf16⟩
  | 22 => ⟨S100000x64, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S32x64, .bf16⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S3000x147, .f32⟩
  | .local _ .vmem, ⟨7, _⟩ => ⟨S3000x147, .f32⟩
  | .local _ .vmem, ⟨8, _⟩ => ⟨S145x64, .bf16⟩
  | .local _ .vmem, ⟨9, _⟩ => ⟨S64, .f32⟩
  | .local _ .vmem, ⟨10, _⟩ => ⟨S64x64, .bf16⟩
  | .local _ .vmem, ⟨11, _⟩ => ⟨S64, .f32⟩
  | .local _ .vmem, ⟨12, _⟩ => ⟨S64x64, .bf16⟩
  | .local _ .vmem, ⟨13, _⟩ => ⟨S64, .f32⟩
  | .local _ .vmem, ⟨14, _⟩ => ⟨S64x1, .bf16⟩
  | .local _ .vmem, ⟨15, _⟩ => ⟨S1, .f32⟩
  | .local _ .vmem, ⟨16, _⟩ => ⟨S3000x64, .f32⟩
  | .local _ .vmem, ⟨17, _⟩ => ⟨S3000x64, .f32⟩
  | .local _ .vmem, ⟨18, _⟩ => ⟨S3000x3, .f32⟩
  | .local _ .vmem, ⟨19, _⟩ => ⟨S3000x3, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S128x64, .bf16⟩
  | .local _ .vmem, ⟨25, _⟩ => ⟨S64, .f32⟩
  | .local _ .vmem, ⟨26, _⟩ => ⟨S64x64, .bf16⟩
  | .local _ .vmem, ⟨27, _⟩ => ⟨S64, .f32⟩
  | .local _ .vmem, ⟨28, _⟩ => ⟨S64x64, .bf16⟩
  | .local _ .vmem, ⟨29, _⟩ => ⟨S64, .f32⟩
  | .local _ .vmem, ⟨30, _⟩ => ⟨S5000x64, .f32⟩
  | .local _ .vmem, ⟨31, _⟩ => ⟨S5000x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v6 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v7 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_cst : Ref sig .tc := ⟨.hbm, 92, rfl⟩
abbrev main_call2_v15 : Ref sig .tc := ⟨.hbm, 93, rfl⟩
abbrev main_v8 : Ref sig .tc := ⟨.hbm, 94, rfl⟩
abbrev main_call3_c : Ref sig .tc := ⟨.hbm, 95, rfl⟩
abbrev main_call3_v0 : Ref sig .tc := ⟨.hbm, 96, rfl⟩
abbrev main_call3_v1 : Ref sig .tc := ⟨.hbm, 97, rfl⟩
abbrev main_call3_c_0 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_c_1 : Ref sig .tc := ⟨.hbm, 103, rfl⟩
abbrev main_call3_c_2 : Ref sig .tc := ⟨.hbm, 104, rfl⟩
abbrev main_call3_v6 : Ref sig .tc := ⟨.hbm, 105, rfl⟩
abbrev main_call3_v7 : Ref sig .tc := ⟨.hbm, 106, rfl⟩
abbrev main_call3_v8 : Ref sig .tc := ⟨.hbm, 107, rfl⟩
abbrev main_call3_v9 : Ref sig .tc := ⟨.hbm, 108, rfl⟩
abbrev main_call3_v10 : Ref sig .tc := ⟨.hbm, 109, rfl⟩
abbrev main_call3_v11 : Ref sig .tc := ⟨.hbm, 110, rfl⟩
abbrev main_call3_c_3 : Ref sig .tc := ⟨.hbm, 111, rfl⟩
abbrev main_call3_v12 : Ref sig .tc := ⟨.hbm, 112, rfl⟩
abbrev main_call3_v13 : Ref sig .tc := ⟨.hbm, 113, rfl⟩
abbrev main_call3_v14 : Ref sig .tc := ⟨.hbm, 114, rfl⟩
abbrev main_call3_cst : Ref sig .tc := ⟨.hbm, 115, rfl⟩
abbrev main_call3_v15 : Ref sig .tc := ⟨.hbm, 116, rfl⟩
abbrev main_v9 : Ref sig .tc := ⟨.hbm, 117, rfl⟩
abbrev main_v10 : Ref sig .tc := ⟨.hbm, 118, rfl⟩
abbrev main_v11 : Ref sig .tc := ⟨.hbm, 119, rfl⟩
abbrev main_v12 : Ref sig .tc := ⟨.hbm, 120, rfl⟩
abbrev main_v13 : Ref sig .tc := ⟨.hbm, 121, rfl⟩
abbrev main_v14 : Ref sig .tc := ⟨.hbm, 122, rfl⟩
abbrev main_v15 : Ref sig .tc := ⟨.hbm, 123, rfl⟩
abbrev main_v16_0 : Ref sig .tc := ⟨.hbm, 124, rfl⟩
abbrev main_v16_1 : Ref sig .tc := ⟨.hbm, 125, rfl⟩
abbrev main_cst : Ref sig .tc := ⟨.hbm, 126, rfl⟩
abbrev main_v17 : Ref sig .tc := ⟨.hbm, 127, rfl⟩
abbrev main_v18 : Ref sig .tc := ⟨.hbm, 128, rfl⟩
abbrev main_v19 : Ref sig .tc := ⟨.hbm, 129, rfl⟩
abbrev main_cst_0 : Ref sig .tc := ⟨.hbm, 130, rfl⟩
abbrev main_v20 : Ref sig .tc := ⟨.hbm, 131, rfl⟩
abbrev main_cst_1 : Ref sig .tc := ⟨.hbm, 132, rfl⟩
abbrev main_v21 : Ref sig .tc := ⟨.hbm, 133, rfl⟩
abbrev main_v22 : Ref sig .tc := ⟨.hbm, 134, rfl⟩
abbrev main_v23 : Ref sig .tc := ⟨.hbm, 135, rfl⟩
abbrev main_cst_2 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_cst_3 : Ref sig .tc := ⟨.hbm, 143, rfl⟩
abbrev main_v30 : Ref sig .tc := ⟨.hbm, 144, rfl⟩
abbrev main_v31 : Ref sig .tc := ⟨.hbm, 145, rfl⟩
abbrev main_v32 : Ref sig .tc := ⟨.hbm, 146, rfl⟩
abbrev main_v33 : Ref sig .tc := ⟨.hbm, 147, rfl⟩
abbrev main_v34 : Ref sig .tc := ⟨.hbm, 148, rfl⟩
abbrev main_v35 : Ref sig .tc := ⟨.hbm, 149, rfl⟩
abbrev main_v36 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg9_1 : Ref sig .tc := ⟨.vmem, 17, rfl⟩
abbrev cc1_stg10_0 : Ref sig .tc := ⟨.vmem, 18, rfl⟩
abbrev cc1_stg10_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg8_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17
abbrev cc1_sem10_0 : DmaSem sig := 18
abbrev cc1_sem10_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem8_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x147 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S145x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x1 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S3000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S3000x3 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bitsLt_bf16_f32 : FTy.bits .bf16 < FTy.bits .f32
  inb_S10000x32_S10000x32_0_0 : ∀ a, (![0, 0] : Fin 2 → Nat) a + S10000x32.size a ≤ S10000x32.size a
  h_S10000x32 : 0 < S10000x32.numel
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S1200000x1 : S_.BroadcastsInDim S1200000x1 (![] : Fin 0 → Fin S1200000x1.rank)
  bcast_S1_S1x1_1 : S1.BroadcastsInDim S1x1 (![1] : Fin 1 → Fin S1x1.rank)
  bcast_S1x1_S1200000x1_0_1 : S1x1.BroadcastsInDim S1200000x1 (![0, 1] : Fin 2 → Fin S1200000x1.rank)
  reducesTo_S1200000x1_S1200000_d1 : S1200000x1.ReducesTo [1] S1200000
  h_S_ : 0 < S_.numel
  bcast_S1200000_S1200000x64_0 : S1200000.BroadcastsInDim S1200000x64 (![0] : Fin 1 → Fin S1200000x64.rank)
  bcast_S_S1200000x64 : S_.BroadcastsInDim S1200000x64 (![] : Fin 0 → Fin S1200000x64.rank)
  bcast_S1200000_S1200000x3_0 : S1200000.BroadcastsInDim S1200000x3 (![0] : Fin 1 → Fin S1200000x3.rank)
  bcast_S_S1200000x3 : S_.BroadcastsInDim S1200000x3 (![] : Fin 0 → Fin S1200000x3.rank)
  concatenates_S1200000x64_S1200000x64_S1200000x3_S1200000x16_S1200000x147_d1 : Shape.Concatenates [S1200000x64, S1200000x64, S1200000x3, S1200000x16] S1200000x147 1
  inb_S3000x147_S3000x147_0_0 : ∀ a, (![0, 0] : Fin 2 → Nat) a + S3000x147.size a ≤ S3000x147.size a
  h_S3000x147 : 0 < S3000x147.numel
  shapeCasts_S3000x147_S3000x147 : S3000x147.ShapeCasts S3000x147
  slices_S3000x147_o0_0_S3000x64 : S3000x147.Slices ![0, 0] S3000x64
  slices_S3000x147_o0_64_S3000x64 : S3000x147.Slices ![0, 64] S3000x64
  slices_S3000x147_o0_128_S3000x3 : S3000x147.Slices ![0, 128] S3000x3
  slices_S3000x147_o0_131_S3000x16 : S3000x147.Slices ![0, 131] S3000x16
  reduces_S3000x3_S3000 : S3000x3.Reduces [1] S3000
  shapeCasts_S3000_S3000x1 : S3000.ShapeCasts S3000x1
  concatenates_S3000x64_S3000x64_S3000x1_S3000x16_S3000x145_d1 : Shape.Concatenates [S3000x64, S3000x64, S3000x1, S3000x16] S3000x145 1
  inb_S145x64_S145x64_0_0 : ∀ a, (![0, 0] : Fin 2 → Nat) a + S145x64.size a ≤ S145x64.size a
  h_S145x64 : 0 < S145x64.numel
  shapeCasts_S145x64_S145x64 : S145x64.ShapeCasts S145x64
  broadcasts_S1x64_S3000x64 : S1x64.Broadcasts S3000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1_S1_0 : ∀ a, (![0] : Fin 1 → Nat) a + S1.size a ≤ S1.size a
  h_S1 : 0 < S1.numel
  shapeCasts_S1_S1x1 : S1.ShapeCasts S1x1
  broadcasts_S1x1_S3000x1 : S1x1.Broadcasts S3000x1
  broadcasts_S3000x1_S3000x3 : S3000x1.Broadcasts S3000x3
  inb_S3000x64_S3000x64_0_0 : ∀ a, (![0, 0] : Fin 2 → Nat) a + S3000x64.size a ≤ S3000x64.size a
  h_S3000x64 : 0 < S3000x64.numel
  inb_S3000x3_S3000x3_0_0 : ∀ a, (![0, 0] : Fin 2 → Nat) a + S3000x3.size a ≤ S3000x3.size a
  h_S3000x3 : 0 < S3000x3.numel
  bcast_S_S100000x3 : S_.BroadcastsInDim S100000x3 (![] : Fin 0 → Fin S100000x3.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S5000x64 : S1x64.Broadcasts S5000x64
  dot_S10000x32_S32x64_S10000x64_1_0_0_1_n_n_wf : DotDims.WF S10000x32 S32x64 S10000x64 [1] [0] [0] [1] [] []
  gather_S100000x64_S1200000x1_S1200000x64_1_0_n_n_0_1_164_wf : GatherDims.WF S100000x64 S1200000x1 S1200000x64 [1] [0] [] [0] [] 1 ![1, 64]
  gather_S100000x3_S1200000x1_S1200000x3_1_0_n_n_0_1_13_wf : GatherDims.WF S100000x3 S1200000x1 S1200000x3 [1] [0] [] [0] [] 1 ![1, 3]
  dot_S3000x145_S145x64_S3000x64_1_0_0_1_n_n_wf : DotDims.WF S3000x145 S145x64 S3000x64 [1] [0] [0] [1] [] []
  dot_S3000x64_S64x64_S3000x64_1_0_0_1_n_n_wf : DotDims.WF S3000x64 S64x64 S3000x64 [1] [0] [0] [1] [] []
  dot_S3000x64_S64x1_S3000x1_1_0_0_1_n_n_wf : DotDims.WF S3000x64 S64x1 S3000x1 [1] [0] [0] [1] [] []
  scatter_S100000x3_S1200000x1_S1200000x3_1_0_0_1_wf : ScatterDims.WF S100000x3 S1200000x1 S1200000x3 [1] [0] [0] 1
  scatter_S100000_S1200000x1_S1200000_n_0_0_1_wf : ScatterDims.WF S100000 S1200000x1 S1200000 [] [0] [0] 1
  scatter_S100000x64_S1200000x1_S1200000x64_1_0_0_1_wf : ScatterDims.WF S100000x64 S1200000x1 S1200000x64 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .bf16 = 32 ∨ (Rect.block (s := S32x64) S32x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x147.size a ≤ S1200000x147.size a
  hwx1_0 : ∀ i : grid1.Coords, EltTy.bits .f32 = 32 ∨ (Rect.block (s := S1200000x147) S3000x147.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S145x64.size a ≤ S145x64.size a
  hwx1_1 : ∀ i : grid1.Coords, EltTy.bits .bf16 = 32 ∨ (Rect.block (s := S145x64) S145x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .bf16 = 32 ∨ (Rect.block (s := S64x64) S64x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x1.size a ≤ S64x1.size a
  hwx1_7 : ∀ i : grid1.Coords, EltTy.bits .bf16 = 32 ∨ (Rect.block (s := S64x1) S64x1.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1.size a ≤ S1.size a
  hwx1_8 : ∀ i : grid1.Coords, EltTy.bits .f32 = 32 ∨ (Rect.block (s := S1) S1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S3000x64.size a ≤ S1200000x64.size a
  hwx1_9 : ∀ i : grid1.Coords, EltTy.bits .f32 = 32 ∨ (Rect.block (s := S1200000x64) S3000x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S3000x3.size a ≤ S1200000x3.size a
  hwx1_10 : ∀ i : grid1.Coords, EltTy.bits .f32 = 32 ∨ (Rect.block (s := S1200000x3) S3000x3.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .bf16 = 32 ∨ (Rect.block (s := S128x64) S128x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .bf16 = 32 ∨ (Rect.block (s := S64x64) S64x64.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .bf16 = 32 ∨ (Rect.block (s := S64x64) S64x64.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64.size a ≤ S64.size a
  hwx2_7 : ∀ i : grid2.Coords, EltTy.bits .f32 = 32 ∨ (Rect.block (s := S64) S64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x64.size a ≤ S100000x64.size a
  hwx2_8 : ∀ i : grid2.Coords, EltTy.bits .f32 = 32 ∨ (Rect.block (s := S100000x64) S5000x64.size (cc2_transform_8 i) (hinb2_8 i)).WholeWords (EltTy.packing .f32)

variable [Facts₀]

def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def gather_S100000x3_S1200000x1_S1200000x3_1_0_n_n_0_1_13 : GatherDims S100000x3 S1200000x1 S1200000x3 where
  offsetDims := [1]
  collapsedSliceDims := [0]
  operandBatchingDims := []
  startIndicesBatchingDims := []
  startIndexMap := [0]
  indexVectorDim := 1
  sliceSizes := ![1, 3]
  wf := gather_S100000x3_S1200000x1_S1200000x3_1_0_n_n_0_1_13_wf
def dot_S3000x145_S145x64_S3000x64_1_0_0_1_n_n : DotDims S3000x145 S145x64 S3000x64 where
  lhsContracting := [1]
  rhsContracting := [0]
  lhsNonContracting := [0]
  rhsNonContracting := [1]
  lhsBatch := []
  rhsBatch := []
  wf := dot_S3000x145_S145x64_S3000x64_1_0_0_1_n_n_wf
def dot_S3000x64_S64x64_S3000x64_1_0_0_1_n_n : DotDims S3000x64 S64x64 S3000x64 where
  lhsContracting := [1]
  rhsContracting := [0]
  lhsNonContracting := [0]
  rhsNonContracting := [1]
  lhsBatch := []
  rhsBatch := []
  wf := dot_S3000x64_S64x64_S3000x64_1_0_0_1_n_n_wf
def dot_S3000x64_S64x1_S3000x1_1_0_0_1_n_n : DotDims S3000x64 S64x1 S3000x1 where
  lhsContracting := [1]
  rhsContracting := [0]
  lhsNonContracting := [0]
  rhsNonContracting := [1]
  lhsBatch := []
  rhsBatch := []
  wf := dot_S3000x64_S64x1_S3000x1_1_0_0_1_n_n_wf
def scatter_S100000x3_S1200000x1_S1200000x3_1_0_0_1 : ScatterDims S100000x3 S1200000x1 S1200000x3 where
  updateWindowDims := [1]
  insertedWindowDims := [0]
  scatterDimsToOperandDims := [0]
  indexVectorDim := 1
  wf := scatter_S100000x3_S1200000x1_S1200000x3_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S3000x147.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S145x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg17) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S64x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg19) S1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v16_0) S3000x64.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v16_1) S3000x3.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v5) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v35) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg7) S64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v36) S5000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x32 : Shape := ⟨2, ![100000, 32]⟩
abbrev S1200000x16 : Shape := ⟨2, ![1200000, 16]⟩
abbrev S100000x3 : Shape := ⟨2, ![100000, 3]⟩
abbrev S2x1200000 : Shape := ⟨2, ![2, 1200000]⟩
abbrev S32x64 : Shape := ⟨2, ![32, 64]⟩
abbrev S64 : Shape := ⟨1, ![64]⟩
abbrev S64x64 : Shape := ⟨2, ![64, 64]⟩
abbrev S145x64 : Shape := ⟨2, ![145, 64]⟩
abbrev S128x64 : Shape := ⟨2, ![128, 64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S100000x64 : Shape := ⟨2, ![100000, 64]⟩
abbrev S1x64 : Shape := ⟨2, ![1, 64]⟩
abbrev S_ : Shape := ⟨0, ![]⟩
abbrev S1200000x1 : Shape := ⟨2, ![1200000, 1]⟩
abbrev S1200000x3 : Shape := ⟨2, ![1200000, 3]⟩
abbrev S1200000x64 : Shape := ⟨2, ![1200000, 64]⟩
abbrev S1200000x145 : Shape := ⟨2, ![1200000, 145]⟩
abbrev S1x1 : Shape := ⟨2, ![1, 1]⟩
abbrev S100000 : Shape := ⟨1, ![100000]⟩
abbrev S100000x1 : Shape := ⟨2, ![100000, 1]⟩
abbrev S100000x128 : Shape := ⟨2, ![100000, 128]⟩

abbrev nBuf : Space → Nat
  | .hbm => 134
  | .vmem => 0
  | .smem => 0
  | _ => 0

abbrev hbmTy0_0 (i : Nat) : BufTy := match i % 128 with
  | 0 => ⟨S100000x32, .f32⟩
  | 1 => ⟨S1200000x16, .f32⟩
  | 2 => ⟨S100000x3, .f32⟩
  | 3 => ⟨S2x1200000, .i32⟩
  | 4 => ⟨S32x64, .f32⟩
  | 5 => ⟨S64, .f32⟩
  | 6 => ⟨S64x64, .f32⟩
  | 7 => ⟨S64, .f32⟩
  | 8 => ⟨S145x64, .f32⟩
  | 9 => ⟨S64, .f32⟩
  | 10 => ⟨S64x64, .f32⟩
  | 11 => ⟨S64, .f32⟩
  | 12 => ⟨S128x64, .f32⟩
  | 13 => ⟨S64, .f32⟩
  | 14 => ⟨S64x64, .f32⟩
  | 15 => ⟨S64, .f32⟩
  | 16 => ⟨S64x64, .f32⟩
  | 17 => ⟨S64, .f32⟩
  | 18 => ⟨S64x1, .f32⟩
  | 19 => ⟨S1, .f32⟩
  | 20 => ⟨S1x1200000, .i32⟩
  | 21 => ⟨S1200000, .i32⟩
  | 22 => ⟨S1x1200000, .i32⟩
  | 23 => ⟨S1200000, .i32⟩
  | 24 => ⟨S100000x64, .f32⟩
  | 25 => ⟨S1x64, .f32⟩
  | 26 => ⟨S100000x64, .f32⟩
  | 27 => ⟨S100000x64, .f32⟩
  | 28 => ⟨S_, .i32⟩
  | 29 => ⟨S1200000, .i32⟩
  | 30 => ⟨S1200000, .i1⟩
  | 31 => ⟨S_, .i32⟩
  | 32 => ⟨S1200000, .i32⟩
  | 33 => ⟨S1200000, .i32⟩
  | 34 => ⟨S1200000, .i32⟩
  | 35 => ⟨S1200000x1, .i32⟩
  | 36 => ⟨S1200000x3, .f32⟩
  | 37 => ⟨S_, .i32⟩
  | 38 => ⟨S1200000, .i32⟩
  | 39 => ⟨S1200000, .i1⟩
  | 40 => ⟨S_, .i32⟩
  | 41 => ⟨S1200000, .i32⟩
  | 42 => ⟨S1200000, .i32⟩
  | 43 => ⟨S1200000, .i32⟩
  | 44 => ⟨S1200000x1, .i32⟩
  | 45 => ⟨S1200000x3, .f32⟩
  | 46 => ⟨S1200000x3, .f32⟩
  | 47 => ⟨S1200000x3, .f32⟩
  | 48 => ⟨S_, .f32⟩
  | 49 => ⟨S1200000, .f32⟩
  | 50 => ⟨S1200000x1, .f32⟩
  | 51 => ⟨S_, .i32⟩
  | 52 => ⟨S1200000, .i32⟩
  | 53 => ⟨S1200000, .i1⟩
  | 54 => ⟨S_, .i32⟩
  | 55 => ⟨S1200000, .i32⟩
  | 56 => ⟨S1200000, .i32⟩
  | 57 => ⟨S1200000, .i32⟩
  | 58 => ⟨S1200000x1, .i32⟩
  | 59 => ⟨S1200000x64, .f32⟩
  | 60 => ⟨S_, .i32⟩
  | 61 => ⟨S1200000, .i32⟩
  | 62 => ⟨S1200000, .i1⟩
  | 63 => ⟨S_, .i32⟩
  | 64 => ⟨S1200000, .i32⟩
  | 65 => ⟨S1200000, .i32⟩
  | 66 => ⟨S1200000, .i32⟩
  | 67 => ⟨S1200000x1, .i32⟩
  | 68 => ⟨S1200000x64, .f32⟩
  | 69 => ⟨S1200000x145, .f32⟩
  | 70 => ⟨S1200000x64, .f32⟩
  | 71 => ⟨S1x64, .f32⟩
  | 72 => ⟨S1200000x64, .f32⟩
  | 73 => ⟨S1200000x64, .f32⟩
  | 74 => ⟨S_, .f32⟩
  | 75 => ⟨S1200000x64, .f32⟩
  | 76 => ⟨S1200000x64, .f32⟩
  | 77 => ⟨S1200000x64, .f32⟩
  | 78 => ⟨S1x64, .f32⟩
  | 79 => ⟨S1200000x64, .f32⟩
  | 80 => ⟨S1200000x64, .f32⟩
  | 81 => ⟨S_, .f32⟩
  | 82 => ⟨S1200000x64, .f32⟩
  | 83 => ⟨S1200000x64, .f32⟩
  | 84 => ⟨S1200000x64, .f32⟩
  | 85 => ⟨S1x64, .f32⟩
  | 86 => ⟨S1200000x64, .f32⟩
  | 87 => ⟨S1200000x64, .f32⟩
  | 88 => ⟨S_, .f32⟩
  | 89 => ⟨S1200000x64, .f32⟩
  | 90 => ⟨S1200000x64, .f32⟩
  | 91 => ⟨S1200000x1, .f32⟩
  | 92 => ⟨S1x1, .f32⟩
  | 93 => ⟨S1200000x1, .f32⟩
  | 94 => ⟨S1200000x1, .f32⟩
  | 95 => ⟨S1200000x3, .f32⟩
  | 96 => ⟨S1200000x3, .f32⟩
  | 97 => ⟨S_, .f32⟩
  | 98 => ⟨S100000x3, .f32⟩
  | 99 => ⟨S1200000x1, .i32⟩
  | 100 => ⟨S100000x3, .f32⟩
  | 101 => ⟨S_, .f32⟩
  | 102 => ⟨S1200000, .f32⟩
  | 103 => ⟨S_, .f32⟩
  | 104 => ⟨S100000, .f32⟩
  | 105 => ⟨S1200000x1, .i32⟩
  | 106 => ⟨S100000, .f32⟩
  | 107 => ⟨S_, .f32⟩
  | 108 => ⟨S100000, .f32⟩
  | 109 => ⟨S100000, .f32⟩
  | 110 => ⟨S100000x1, .f32⟩
  | 111 => ⟨S100000x3, .f32⟩
  | 112 => ⟨S100000x3, .f32⟩
  | 113 => ⟨S100000x3, .f32⟩
  | 114 => ⟨S_, .f32⟩
  | 115 => ⟨S100000x64, .f32⟩
  | 116 => ⟨S1200000x1, .i32⟩
  | 117 => ⟨S100000x64, .f32⟩
  | 118 => ⟨S100000x128, .f32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S100000x64, .f32⟩
  | 127 => ⟨S1x64, .f32⟩
  | _ => ⟨S100000x32, .f32⟩

abbrev hbmTy0_1 (i : Nat) : BufTy := match i % 128 with
  | 0 => ⟨S100000x64, .f32⟩
  | 1 => ⟨S100000x64, .f32⟩
  | 2 => ⟨S100000x64, .f32⟩
  | 3 => ⟨S1x64, .f32⟩
  | 4 => ⟨S100000x64, .f32⟩
  | 5 => ⟨S100000x64, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_1 : Ref sig .tc := ⟨.hbm, 37, rfl⟩
abbrev main_v15 : Ref sig .tc := ⟨.hbm, 38, rfl⟩
abbrev main_v16 : Ref sig .tc := ⟨.hbm, 39, rfl⟩
abbrev main_c_2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst : Ref sig .tc := ⟨.hbm, 48, rfl⟩
abbrev main_v24 : Ref sig .tc := ⟨.hbm, 49, rfl⟩
abbrev main_v25 : Ref sig .tc := ⟨.hbm, 50, rfl⟩
abbrev main_c_3 : Ref sig .tc := ⟨.hbm, 51, rfl⟩
abbrev main_v26 : Ref sig .tc := ⟨.hbm, 52, rfl⟩
abbrev main_v27 : Ref sig .tc := ⟨.hbm, 53, rfl⟩
abbrev main_c_4 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_5 : Ref sig .tc := ⟨.hbm, 60, rfl⟩
abbrev main_v33 : Ref sig .tc := ⟨.hbm, 61, rfl⟩
abbrev main_v34 : Ref sig .tc := ⟨.hbm, 62, rfl⟩
abbrev main_c_6 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_call0_cst : Ref sig .tc := ⟨.hbm, 74, rfl⟩
abbrev main_call0_v0 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call1_cst : Ref sig .tc := ⟨.hbm, 81, rfl⟩
abbrev main_call1_v0 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_call2_cst : Ref sig .tc := ⟨.hbm, 88, rfl⟩
abbrev main_call2_v0 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_7 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_8 : Ref sig .tc := ⟨.hbm, 101, rfl⟩
abbrev main_v65 : Ref sig .tc := ⟨.hbm, 102, rfl⟩
abbrev main_cst_9 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_10 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_11 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_call3_cst : Ref sig .tc := ⟨.hbm, 123, rfl⟩
abbrev main_call3_v0 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  reducesTo_S1200000x3_S1200000_d1 : S1200000x3.ReducesTo [1] S1200000
  h_S_ : 0 < S_.numel
  concatenates_S1200000x64_S1200000x64_S1200000x1_S1200000x16_S1200000x145_d1 : Shape.Concatenates [S1200000x64, S1200000x64, S1200000x1, S1200000x16] S1200000x145 1
  bcast_S1x64_S1200000x64_0_1 : S1x64.BroadcastsInDim S1200000x64 (![0, 1] : Fin 2 → Fin S1200000x64.rank)
  bcast_S_S1200000x64 : S_.BroadcastsInDim S1200000x64 (![] : Fin 0 → Fin S1200000x64.rank)
  bcast_S1_S1x1_1 : S1.BroadcastsInDim S1x1 (![1] : Fin 1 → Fin S1x1.rank)
  bcast_S1x1_S1200000x1_0_1 : S1x1.BroadcastsInDim S1200000x1 (![0, 1] : Fin 2 → Fin S1200000x1.rank)
  bcast_S1200000x1_S1200000x3_0_1 : S1200000x1.BroadcastsInDim S1200000x3 (![0, 1] : Fin 2 → Fin S1200000x3.rank)
  bcast_S_S100000x3 : S_.BroadcastsInDim S100000x3 (![] : Fin 0 → Fin S100000x3.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  bcast_S_S100000x64 : S_.BroadcastsInDim S100000x64 (![] : Fin 0 → Fin S100000x64.rank)
  concatenates_S100000x64_S100000x64_S100000x128_d1 : Shape.Concatenates [S100000x64, S100000x64] S100000x128 1
  dot_S100000x32_S32x64_S100000x64_1_0_0_1_n_n_wf : DotDims.WF S100000x32 S32x64 S100000x64 [1] [0] [0] [1] [] []
  gather_S100000x3_S1200000x1_S1200000x3_1_0_n_n_0_1_13_wf : GatherDims.WF S100000x3 S1200000x1 S1200000x3 [1] [0] [] [0] [] 1 ![1, 3]
  gather_S100000x64_S1200000x1_S1200000x64_1_0_n_n_0_1_164_wf : GatherDims.WF S100000x64 S1200000x1 S1200000x64 [1] [0] [] [0] [] 1 ![1, 64]
  dot_S1200000x145_S145x64_S1200000x64_1_0_0_1_n_n_wf : DotDims.WF S1200000x145 S145x64 S1200000x64 [1] [0] [0] [1] [] []
  dot_S1200000x64_S64x64_S1200000x64_1_0_0_1_n_n_wf : DotDims.WF S1200000x64 S64x64 S1200000x64 [1] [0] [0] [1] [] []
  dot_S1200000x64_S64x1_S1200000x1_1_0_0_1_n_n_wf : DotDims.WF S1200000x64 S64x1 S1200000x1 [1] [0] [0] [1] [] []
  scatter_S100000x3_S1200000x1_S1200000x3_1_0_0_1_wf : ScatterDims.WF S100000x3 S1200000x1 S1200000x3 [1] [0] [0] 1
  scatter_S100000_S1200000x1_S1200000_n_0_0_1_wf : ScatterDims.WF S100000 S1200000x1 S1200000 [] [0] [0] 1
  scatter_S100000x64_S1200000x1_S1200000x64_1_0_0_1_wf : ScatterDims.WF S100000x64 S1200000x1 S1200000x64 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x3_S1200000x1_S1200000x3_1_0_n_n_0_1_13 : GatherDims S100000x3 S1200000x1 S1200000x3 where
  offsetDims := [1]
  collapsedSliceDims := [0]
  operandBatchingDims := []
  startIndicesBatchingDims := []
  startIndexMap := [0]
  indexVectorDim := 1
  sliceSizes := ![1, 3]
  wf := gather_S100000x3_S1200000x1_S1200000x3_1_0_n_n_0_1_13_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S1200000x145_S145x64_S1200000x64_1_0_0_1_n_n : DotDims S1200000x145 S145x64 S1200000x64 where
  lhsContracting := [1]
  rhsContracting := [0]
  lhsNonContracting := [0]
  rhsNonContracting := [1]
  lhsBatch := []
  rhsBatch := []
  wf := dot_S1200000x145_S145x64_S1200000x64_1_0_0_1_n_n_wf
def dot_S1200000x64_S64x64_S1200000x64_1_0_0_1_n_n : DotDims S1200000x64 S64x64 S1200000x64 where
  lhsContracting := [1]
  rhsContracting := [0]
  lhsNonContracting := [0]
  rhsNonContracting := [1]
  lhsBatch := []
  rhsBatch := []
  wf := dot_S1200000x64_S64x64_S1200000x64_1_0_0_1_n_n_wf
def dot_S1200000x64_S64x1_S1200000x1_1_0_0_1_n_n : DotDims S1200000x64 S64x1 S1200000x1 where
  lhsContracting := [1]
  rhsContracting := [0]
  lhsNonContracting := [0]
  rhsNonContracting := [1]
  lhsBatch := []
  rhsBatch := []
  wf := dot_S1200000x64_S64x1_S1200000x1_1_0_0_1_n_n_wf
def scatter_S100000x3_S1200000x1_S1200000x3_1_0_0_1 : ScatterDims S100000x3 S1200000x1 S1200000x3 where
  updateWindowDims := [1]
  insertedWindowDims := [0]
  scatterDimsToOperandDims := [0]
  indexVectorDim := 1
  wf := scatter_S100000x3_S1200000x1_S1200000x3_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.K.Region0.lean ====
/-
  REGION 0 (the input embedding h = x·W_in + b_in, ten blocks of 10000 nodes), at any float instance, entered from
  buffer contents `V`: what each window's block is at a grid point, what the body leaves in the output block — its one
  store, of the product-plus-bias of the three blocks it loads —, that the body does so from whole staging buffers, and
  the data the pipeline's launch theorem asks for: the arrays as entered, after the body at a point every input block in
  place and the output block at the body's value of them, nothing owed.
-/
import proofs.«428612_j50654844289863_1_alg».proof.Proof.Gen.Kernel.Launch
import proofs.«428612_j50654844289863_1_alg».proof.Proof.Gen.Kernel.Skeleton
import proofs.«428612_j50654844289863_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and the store take a whole block -/

abbrev r0_x : Rect S10000x32 := Rect.unit (s := S10000x32) ![0, 0] S10000x32.size inb_S10000x32_S10000x32_0_0
abbrev r0_w : Rect S32x64 := Rect.unit (s := S32x64) ![0, 0] S32x64.size inb_S32x64_S32x64_0_0
abbrev r0_b : Rect S64 := Rect.unit (s := S64) ![0] S64.size inb_S64_S64_0
abbrev r0_o : Rect S10000x64 := Rect.unit (s := S10000x64) ![0, 0] S10000x64.size inb_S10000x64_S10000x64_0_0

/-! ## What the body leaves in the output block -/

/-- The output block after the body, from the three input blocks: its one store. -/
def out0_3 (x0 : Vec F S10000x32 .f32) (x1 : Vec F S32x64 .bf16) (x2 : Vec F S64 .f32) : Vec F S10000x64 .f32 :=
  View.canon [⟨r0_o, k0_pay1 (View.ld x0 r0_x) (View.ld x1 r0_w) (View.ld x2 r0_b)⟩]

/-- The store covers the block. -/
theorem cover0_3 (p0 : Vec F S10000x64 .f32) (y : S10000x64.Idx) :
    ∃ pc ∈ ([⟨r0_o, p0⟩] : List (View.Piece (Elt F) S10000x64 .f32)), y ∈ pc.1.set :=
  View.cover_of_tiled [⟨r0_o, p0⟩] S10000x64.size (by rfl) y

/-! ## The body's triple -/

set_option maxHeartbeats 1000000 in
/-- The body on whole staging buffers, the inputs' at contents `x0 x1 x2` and the output's at anything, runs to the
    continuation holding the inputs' as they were and the output's at `out0_3` of them. -/
theorem sound_kernel0 (c : Dev nD) (E : Set ℕ) (i : grid0.Coords)
    (arg1 : Memref sig .tc .vmem S10000x32 .f32) (harg1 : arg1.IsWhole) (arg2 : Memref sig .tc .vmem S32x64 .bf16) (harg2 : arg2.IsWhole)
    (arg3 : Memref sig .tc .vmem S64 .f32) (harg3 : arg3.IsWhole) (arg4 : Memref sig .tc .vmem S10000x64 .f32) (harg4 : arg4.IsWhole)
    (x0 : Vec F S10000x32 .f32) (x1 : Vec F S32x64 .bf16) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point `t` each input's buffer at its block and the output's
    at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  REGION 1 (the edge stage: per block of 3000 packed edge rows, the message m = relu(relu([h_i | h_j | ‖d‖² | a]·W1 + b1)·W2 + b2)
  and the coordinate shift d · (relu(m·Wc1 + bc1)·Wc2 + bc2), four hundred blocks), at any float instance, entered from buffer
  contents `V`: what each window's block is at a grid point, what the body leaves in the two output blocks — one store
  each, of the body's value of the blocks it loads —, that the body does so from whole staging buffers, and the data the
  pipeline's launch theorem asks for: the arrays as entered, after the body at a point every input block in place and
  each output block at the body's value of them, nothing owed.
-/

import proofs.«428612_j50654844289863_1_alg».proof.Proof.Gen.Kernel.Launch
import proofs.«428612_j50654844289863_1_alg».proof.Proof.Gen.Kernel.Skeleton
import proofs.«428612_j50654844289863_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and each store takes a whole block -/

abbrev r1_0 : Rect S3000x147 := Rect.unit (s := S3000x147) ![0, 0] S3000x147.size inb_S3000x147_S3000x147_0_0
abbrev r1_1 : Rect S145x64 := Rect.unit (s := S145x64) ![0, 0] S145x64.size inb_S145x64_S145x64_0_0
abbrev r1_2 : Rect S64 := Rect.unit (s := S64) ![0] S64.size inb_S64_S64_0
abbrev r1_3 : Rect S64x64 := Rect.unit (s := S64x64) ![0, 0] S64x64.size inb_S64x64_S64x64_0_0
abbrev r1_4 : Rect S64 := Rect.unit (s := S64) ![0] S64.size inb_S64_S64_0
abbrev r1_5 : Rect S64x64 := Rect.unit (s := S64x64) ![0, 0] S64x64.size inb_S64x64_S64x64_0_0
abbrev r1_6 : Rect S64 := Rect.unit (s := S64) ![0] S64.size inb_S64_S64_0
abbrev r1_7 : Rect S64x1 := Rect.unit (s := S64x1) ![0, 0] S64x1.size inb_S64x1_S64x1_0_0
abbrev r1_8 : Rect S1 := Rect.unit (s := S1) ![0] S1.size inb_S1_S1_0
abbrev r1_9 : Rect S3000x64 := Rect.unit (s := S3000x64) ![0, 0] S3000x64.size inb_S3000x64_S3000x64_0_0
abbrev r1_10 : Rect S3000x3 := Rect.unit (s := S3000x3) ![0, 0] S3000x3.size inb_S3000x3_S3000x3_0_0

/-! ## What the body leaves in the output blocks -/

/-- The message block after the body, from the five input blocks it is computed of: its one store. -/
def out1_9 (x0 : Vec F S3000x147 .f32) (x1 : Vec F S145x64 .bf16) (x2 : Vec F S64 .f32) (x3 : Vec F S64x64 .bf16) (x4 : Vec F S64 .f32) : Vec F S3000x64 .f32 :=
  View.canon [⟨r1_9, k1_pay4 (View.ld x0 r1_0) (View.ld x1 r1_1) (View.ld x2 r1_2) (View.ld x3 r1_3) (View.ld x4 r1_4)⟩]

/-- The shift block after the body, from the nine input blocks: its one store. -/
def out1_10 (x0 : Vec F S3000x147 .f32) (x1 : Vec F S145x64 .bf16) (x2 : Vec F S64 .f32) (x3 : Vec F S64x64 .bf16) (x4 : Vec F S64 .f32) (x5 : Vec F S64x64 .bf16) (x6 : Vec F S64 .f32) (x7 : Vec F S64x1 .bf16) (x8 : Vec F S1 .f32) : Vec F S3000x3 .f32 :=
  View.canon [⟨r1_10, k1_pay1 (k1_pay3 (View.ld x0 r1_0)) (k1_pay5 (View.ld x0 r1_0) (View.ld x1 r1_1) (View.ld x2 r1_2) (View.ld x3 r1_3) (View.ld x4 r1_4) (View.ld x5 r1_5) (View.ld x6 r1_6)) (View.ld x7 r1_7) (View.ld x8 r1_8)⟩]

/-- Each store covers its block. -/
theorem cover1_9 (p0 : Vec F S3000x64 .f32) (y : S3000x64.Idx) :
    ∃ pc ∈ ([⟨r1_9, p0⟩] : List (View.Piece (Elt F) S3000x64 .f32)), y ∈ pc.1.set :=
  View.cover_of_tiled [⟨r1_9, p0⟩] S3000x64.size (by rfl) y
theorem cover1_10 (p0 : Vec F S3000x3 .f32) (y : S3000x3.Idx) :
    ∃ pc ∈ ([⟨r1_10, p0⟩] : List (View.Piece (Elt F) S3000x3 .f32)), y ∈ pc.1.set :=
  View.cover_of_tiled [⟨r1_10, p0⟩] S3000x3.size (by rfl) y

/-! ## The body's triple -/

set_option maxHeartbeats 4000000 in
/-- The body on whole staging buffers, the inputs' at contents `x0 … x8` and the outputs' at anything, runs to the
    continuation holding the inputs' as they were and the outputs' at `out1_9`, `out1_10` of them. -/
theorem sound_kernel1 (c : Dev nD) (E : Set ℕ) (i : grid1.Coords)
    (arg1 : Memref sig .tc .vmem S3000x147 .f32) (harg1 : arg1.IsWhole) (arg2 : Memref sig .tc .vmem S145x64 .bf16) (harg2 : arg2.IsWhole) (arg3 : Memref sig .tc .vmem S64 .f32) (harg3 : arg3.IsWhole) (arg4 : Memref sig .tc .vmem S64x64 .bf16) (harg4 : arg4.IsWhole)
    (arg5 : Memref sig .tc .vmem S64 .f32) (harg5 : arg5.IsWhole) (arg6 : Memref sig .tc .vmem S64x64 .bf16) (harg6 : arg6.IsWhole) (arg7 : Memref sig .tc .vmem S64 .f32) (harg7 : arg7.IsWhole) (arg8 : Memref sig .tc .vmem S64x1 .bf16) (harg8 : arg8.IsWhole)
    (arg9 : Memref sig .tc .vmem S1 .f32) (harg9 : arg9.IsWhole) (arg10 : Memref sig .tc .vmem S3000x64 .f32) (harg10 : arg10.IsWhole) (arg11 : Memref sig .tc .vmem S3000x3 .f32) (harg11 : arg11.IsWhole)
    (x0 : Vec F S3000x147 .f32) (x1 : Vec F S145x64 .bf16) (x2 : Vec F S64 .f32) (x3 : Vec F S64x64 .bf16) (x4 : Vec F S64 .f32) (x5 : Vec F S64x64 .bf16) (x6 : Vec F S64 .f32) (x7 : Vec F S64x1 .bf16) (x8 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out1_9 x0 x1 x2 x3 x4) ∗ owns (c : Thread nD τ) arg11 fullShare (out1_10 x0 x1 x2 x3 x4 x5 x6 x7 x8)) -∗ K ⟨⟩))
      ⊢ wp frame (wpE (defs₀ (F := F)) Variants.none c none) E (cc1__edge_coord_kernel i arg1 harg1 arg2 harg2 arg3 harg3 arg4 harg4 arg5 harg5 arg6 harg6 arg7 harg7 arg8 harg8 arg9 harg9 arg10 harg10 arg11 harg11) K := by
  simp only [cc1__edge_coord_kernel_eq_skeleton]; unfold cc1__edge_coord_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover1_9 _)
  iexists _; isplitr
  swap; · iexact H10
  ipureintro
  exact View.read_writes_eq_canon _ _ _ (cover1_10 _)

/-! ## The pipeline's proof data -/

/-- The arrays as the region finds them; after the body at point `t` each input's buffer at its block and each output's
    at its `out1_W` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t)
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) :
    (dat1 V c).after 9 t = out1_9 (iblk1 V c 0 t) (iblk1 V c 1 t) (iblk1 V c 2 t) (iblk1 V c 3 t) (iblk1 V c 4 t) := by dsimp only [dat1]
theorem after1_10 (c : Dev nD) (t : Fin cfg1.N) :
    (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/-
  REGION 2 (the node update: the two-layer network on each node's features beside its aggregated messages, then the
  output layer, twenty blocks of 5000 nodes), at any float instance, entered from buffer contents `V`: what each
  window's block is at a grid point, what the body leaves in the output block — its one store, of the value it computes
  from the eight blocks it loads —, that the body does so from whole staging buffers, and the data the pipeline's launch
  theorem asks for: the arrays as entered, after the body at a point every input block in place and the output block at
  the body's value of them, nothing owed.
-/
import proofs.«428612_j50654844289863_1_alg».proof.Proof.Gen.Kernel.Launch
import proofs.«428612_j50654844289863_1_alg».proof.Proof.Gen.Kernel.Skeleton
import proofs.«428612_j50654844289863_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (where it is not
    fetched the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each load and the store take a whole block -/

abbrev r2_x : Rect S5000x64 := Rect.unit (s := S5000x64) ![0, 0] S5000x64.size inb_S5000x64_S5000x64_0_0
abbrev r2_w1 : Rect S128x64 := Rect.unit (s := S128x64) ![0, 0] S128x64.size inb_S128x64_S128x64_0_0
abbrev r2_w : Rect S64x64 := Rect.unit (s := S64x64) ![0, 0] S64x64.size inb_S64x64_S64x64_0_0
abbrev r2_b : Rect S64 := Rect.unit (s := S64) ![0] S64.size inb_S64_S64_0
abbrev r2_o : Rect S5000x64 := Rect.unit (s := S5000x64) ![0, 0] S5000x64.size inb_S5000x64_S5000x64_0_0

/-! ## What the body leaves in the output block -/

/-- The output block after the body, from the eight input blocks: its one store. -/
def out2_8 (x0 : Vec F S5000x64 .f32) (x1 : Vec F S5000x64 .f32) (x2 : Vec F S128x64 .bf16) (x3 : Vec F S64 .f32) (x4 : Vec F S64x64 .bf16) (x5 : Vec F S64 .f32) (x6 : Vec F S64x64 .bf16) (x7 : Vec F S64 .f32) : Vec F S5000x64 .f32 :=
  View.canon [⟨r2_o, k2_pay1 (View.ld x0 r2_x) (View.ld x1 r2_x) (View.ld x2 r2_w1) (View.ld x3 r2_b) (View.ld x4 r2_w) (View.ld x5 r2_b) (View.ld x6 r2_w) (View.ld x7 r2_b)⟩]

/-- The store covers the block. -/
theorem cover2_8 (p0 : Vec F S5000x64 .f32) (y : S5000x64.Idx) :
    ∃ pc ∈ ([⟨r2_o, p0⟩] : List (View.Piece (Elt F) S5000x64 .f32)), y ∈ pc.1.set :=
  View.cover_of_tiled [⟨r2_o, p0⟩] S5000x64.size (by rfl) y

/-! ## The body's triple -/

set_option maxHeartbeats 1000000 in
/-- The body on whole staging buffers, the inputs' at contents `x0 … x7` and the output's at anything, runs to the
    continuation holding the inputs' as they were and the output's at `out2_8` of them. -/
theorem sound_kernel2 (c : Dev nD) (E : Set ℕ) (i : grid2.Coords)
    (arg1 : Memref sig .tc .vmem S5000x64 .f32) (harg1 : arg1.IsWhole)
    (arg2 : Memref sig .tc .vmem S5000x64 .f32) (harg2 : arg2.IsWhole)
    (arg3 : Memref sig .tc .vmem S128x64 .bf16) (harg3 : arg3.IsWhole)
    (arg4 : Memref sig .tc .vmem S64 .f32) (harg4 : arg4.IsWhole)
    (arg5 : Memref sig .tc .vmem S64x64 .bf16) (harg5 : arg5.IsWhole)
    (arg6 : Memref sig .tc .vmem S64 .f32) (harg6 : arg6.IsWhole)
    (arg7 : Memref sig .tc .vmem S64x64 .bf16) (harg7 : arg7.IsWhole)
    (arg8 : Memref sig .tc .vmem S64 .f32) (harg8 : arg8.IsWhole)
    (arg9 : Memref sig .tc .vmem S5000x64 .f32) (harg9 : arg9.IsWhole)
    (x0 : Vec F S5000x64 .f32) (x1 : Vec F S5000x64 .f32) (x2 : Vec F S128x64 .bf16) (x3 : Vec F S64 .f32) (x4 : Vec F S64x64 .bf16) (x5 : Vec F S64 .f32) (x6 : Vec F S64x64 .bf16) (x7 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out2_8 x0 x1 x2 x3 x4 x5 x6 x7)) -∗ K ⟨⟩))
      ⊢ wp frame (wpE (defs₀ (F := F)) Variants.none c none) E (cc2__node_final_kernel i arg1 harg1 arg2 harg2 arg3 harg3 arg4 harg4 arg5 harg5 arg6 harg6 arg7 harg7 arg8 harg8 arg9 harg9) K := by
  simp only [cc2__node_final_kernel_eq_skeleton]; unfold cc2__node_final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-! ## The pipeline's proof data -/

/-- The arrays as the region finds them; after the body at point `t` each input's buffer at its block and the output's
    at `out2_8` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) :
    (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The launch theorem's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Chain.lean ====
/-
  THE CONTENTS OF THE BUFFERS BETWEEN THE ITEMS OF @main, concretely: the launch memory, then after each stretch of host
  operations their results, and after each kernel region its output arrays at what the pipeline's write-backs leave
  (every block flushed: `Dat.arrAt … N`) and every other buffer as the region found it. The generated conditional frame
  is stated over unknown output contents `outs`; here they are chosen to be these, and its valuations are then the chain
  below.
-/
import proofs.«428612_j50654844289863_1_alg».proof.Proof.Gen.Kernel.Regions
import proofs.«428612_j50654844289863_1_alg».proof.Proof.K.Region0
import proofs.«428612_j50654844289863_1_alg».proof.Proof.K.Region1
import proofs.«428612_j50654844289863_1_alg».proof.Proof.K.Region2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ)

/-- A valuation read at the TensorCore's references. -/
abbrev atTc (W : Dev nD → Valuation τ sig (Elt F)) : (c : Dev nD) → (b : Ref sig .tc) → Buf (Elt F) ((c : Thread nD τ).loc b) :=
  fun c b => W c b

/-! ## The chain -/

/-- Before region 0: the launch memory after the first host stretch. -/
abbrev W1 (c : Dev nD) : Valuation τ sig (Elt F) := StableHlo.after hostOps0 (fun b => m (c, b))
/-- What region 0 leaves in its output array: every block written back. -/
def o2 (c : Dev nD) : Buf (Elt F) ((c : Thread nD τ).loc main_v5) := (dat0 (atTc (W1 m)) c).arrAt 3 cfg0.N
/-- After region 0. -/
abbrev W2 (c : Dev nD) : Valuation τ sig (Elt F) := Function.update (W1 m c) main_v5 (o2 m c)
/-- Before region 1: after the four row gathers, the difference, the packing and the weights' conversions. -/
abbrev W7 (c : Dev nD) : Valuation τ sig (Elt F) :=
  StableHlo.after hostOps1_4 (StableHlo.after hostOps1_3 (StableHlo.after hostOps1_2 (StableHlo.after hostOps1_1 (StableHlo.after hostOps1 (W2 m c)))))
/-- What region 1 leaves in its two output arrays. -/
def o8_0 (c : Dev nD) : Buf (Elt F) ((c : Thread nD τ).loc main_v16_0) := (dat1 (atTc (W7 m)) c).arrAt 9 cfg1.N
def o8_1 (c : Dev nD) : Buf (Elt F) ((c : Thread nD τ).loc main_v16_1) := (dat1 (atTc (W7 m)) c).arrAt 10 cfg1.N
/-- After region 1. -/
abbrev W8 (c : Dev nD) : Valuation τ sig (Elt F) :=
  Function.update (Function.update (W7 m c) main_v16_0 (o8_0 m c)) main_v16_1 (o8_1 m c)
/-- Before region 2: after the three sums into nodes, the quotient and the weights' conversions. -/
abbrev W9 (c : Dev nD) : Valuation τ sig (Elt F) := StableHlo.after hostOps2 (W8 m c)
/-- What region 2 leaves in its output array. -/
def o10 (c : Dev nD) : Buf (Elt F) ((c : Thread nD τ).loc main_v36) := (dat2 (atTc (W9 m)) c).arrAt 8 cfg2.N
/-- After region 2: the end. -/
abbrev W10 (c : Dev nD) : Valuation τ sig (Elt F) := Function.update (W9 m c) main_v36 (o10 m c)

/-- The regions' output contents, as the conditional frame reads them: after item J−1 the buffer `r` holds what the
    chain holds there. -/
def outs : Gen.Outs (F := F) := fun J r c =>
  match J with
  | 2 => W2 m c r
  | 8 => W8 m c r
  | 10 => W10 m c r
  | _ => m (c, r)

theorem outs_2 (c : Dev nD) : outs m 2 main_v5 c = o2 m c := by
  show Function.update (W1 m c) main_v5 (o2 m c) main_v5 = _
  exact Function.update_self ..
theorem outs_8_1 (c : Dev nD) : outs m 8 main_v16_1 c = o8_1 m c := by
  show Function.update (Function.update (W7 m c) main_v16_0 (o8_0 m c)) main_v16_1 (o8_1 m c) main_v16_1 = _
  exact Function.update_self ..
theorem outs_8_0 (c : Dev nD) : outs m 8 main_v16_0 c = o8_0 m c := by
  show Function.update (Function.update (W7 m c) main_v16_0 (o8_0 m c)) main_v16_1 (o8_1 m c) main_v16_0 = _
  rw [Function.update_of_ne (StableHlo.devRef_ne_of_ne (by decide) : (Proc.devRef .tc main_v16_0 : DevRef τ sig) ≠ Proc.devRef .tc main_v16_1)]
  exact Function.update_self ..
theorem outs_10 (c : Dev nD) : outs m 10 main_v36 c = o10 m c := by
  show Function.update (W9 m c) main_v36 (o10 m c) main_v36 = _
  exact Function.update_self ..

/-! ## The generated valuations are the chain -/

theorem V1_eq (c : Dev nD) : Gen.V1 m c = W1 m c := rfl
theorem V2_eq (c : Dev nD) : Gen.V2 m (outs m) c = W2 m c := by
  show Function.update (Gen.V1 m c) main_v5 (outs m 2 main_v5 c) = _
  rw [outs_2]
theorem V7_eq (c : Dev nD) : Gen.V7 m (outs m) c = W7 m c := by
  show StableHlo.after hostOps1_4 (StableHlo.after hostOps1_3 (StableHlo.after hostOps1_2 (StableHlo.after hostOps1_1 (StableHlo.after hostOps1 (Gen.V2 m (outs m) c))))) = _
  rw [V2_eq]
theorem V8_eq (c : Dev nD) : Gen.V8 m (outs m) c = W8 m c := by
  show Function.update (Function.update (Gen.V7 m (outs m) c) main_v16_0 (outs m 8 main_v16_0 c)) main_v16_1 (outs m 8 main_v16_1 c) = _
  rw [V7_eq, outs_8_0, outs_8_1]
theorem V9_eq (c : Dev nD) : Gen.V9 m (outs m) c = W9 m c := by
  show StableHlo.after hostOps2 (Gen.V8 m (outs m) c) = _
  rw [V8_eq]
theorem V10_eq (c : Dev nD) : Gen.V10 m (outs m) c = W10 m c := by
  show Function.update (Gen.V9 m (outs m) c) main_v36 (outs m 10 main_v36 c) = _
  rw [V9_eq, outs_10]

end Cert.Kernel.Hand

end
-- ==== Proof.K.Run.lean ====
/-
  THE FRAME OF THE KERNEL PROGRAM: every weakly fair execution of @main ends, nothing faults and the twenty argument
  arrays end as launched. @main is ten items: host stretches and three kernel regions. The generated conditional frame
  asks, per region, for the launch theorem's record around the thread states "every unscoped buffer at the chain's
  contents, the generator register at some state, nothing owed"; each record takes its region's arrays out of the
  unscoped buffers, runs the pipeline on the region's proof data, and puts the arrays back at what the write-backs leave.
-/
import proofs.«428612_j50654844289863_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## At a region's exit its arrays hold what the pipeline leaves, every other buffer what it held at entry -/

theorem W2_of_ne (c : Dev nD) (b : Ref sig .tc) (hb : b ≠ main_v5) : W2 m c b = W1 m c b :=
  Function.update_of_ne (StableHlo.devRef_ne_of_ne hb : (Proc.devRef .tc b : DevRef τ sig) ≠ Proc.devRef .tc main_v5) _ _
theorem W8_of_ne (c : Dev nD) (b : Ref sig .tc) (hb0 : b ≠ main_v16_0) (hb1 : b ≠ main_v16_1) : W8 m c b = W7 m c b :=
  (Function.update_of_ne (StableHlo.devRef_ne_of_ne hb1 : (Proc.devRef .tc b : DevRef τ sig) ≠ Proc.devRef .tc main_v16_1) _ _).trans
    (Function.update_of_ne (StableHlo.devRef_ne_of_ne hb0 : (Proc.devRef .tc b : DevRef τ sig) ≠ Proc.devRef .tc main_v16_0) _ _)
theorem W10_of_ne (c : Dev nD) (b : Ref sig .tc) (hb : b ≠ main_v36) : W10 m c b = W9 m c b :=
  Function.update_of_ne (StableHlo.devRef_ne_of_ne hb : (Proc.devRef .tc b : DevRef τ sig) ≠ Proc.devRef .tc main_v36) _ _

/-- An input window's array is never written back: it ends as the region found it. -/
theorem hF0 (c : Dev nD) (w : Fin cfg0.W) : (dat0 (atTc (W1 m)) c).arrAt w cfg0.N = atTc (W2 m) c (Pipeline.arrRef spec0 w) := by
  match w with
  | ⟨0, _⟩ => exact ((dat0 (atTc (W1 m)) c).arrAt_in 0 rfl _).trans ((A_eq0 (atTc (W1 m)) c 0).trans (W2_of_ne m c _ (by decide)).symm)
  | ⟨1, _⟩ => exact ((dat0 (atTc (W1 m)) c).arrAt_in 1 rfl _).trans ((A_eq0 (atTc (W1 m)) c 1).trans (W2_of_ne m c _ (by decide)).symm)
  | ⟨2, _⟩ => exact ((dat0 (atTc (W1 m)) c).arrAt_in 2 rfl _).trans ((A_eq0 (atTc (W1 m)) c 2).trans (W2_of_ne m c _ (by decide)).symm)
  | ⟨3, _⟩ => exact (outs_2 m c).symm.trans rfl
theorem hrest0 (c : Dev nD) : ∀ b, b ∉ Finset.univ.image (Pipeline.arrRef spec0) → atTc (W2 m) c b = atTc (W1 m) c b :=
  fun b hb => W2_of_ne m c b fun e => hb (Finset.mem_image.mpr ⟨3, Finset.mem_univ _, e.symm ▸ rfl⟩)

set_option maxHeartbeats 4000000 in
theorem hF1 (c : Dev nD) (w : Fin cfg1.W) : (dat1 (atTc (W7 m)) c).arrAt w cfg1.N = atTc (W8 m) c (Pipeline.arrRef spec1 w) := by
  match w with
  | ⟨0, _⟩ => exact ((dat1 (atTc (W7 m)) c).arrAt_in 0 rfl _).trans ((A_eq1 (atTc (W7 m)) c 0).trans (W8_of_ne m c _ (by decide) (by decide)).symm)
  | ⟨1, _⟩ => exact ((dat1 (atTc (W7 m)) c).arrAt_in 1 rfl _).trans ((A_eq1 (atTc (W7 m)) c 1).trans (W8_of_ne m c _ (by decide) (by decide)).symm)
  | ⟨2, _⟩ => exact ((dat1 (atTc (W7 m)) c).arrAt_in 2 rfl _).trans ((A_eq1 (atTc (W7 m)) c 2).trans (W8_of_ne m c _ (by decide) (by decide)).symm)
  | ⟨3, _⟩ => exact ((dat1 (atTc (W7 m)) c).arrAt_in 3 rfl _).trans ((A_eq1 (atTc (W7 m)) c 3).trans (W8_of_ne m c _ (by decide) (by decide)).symm)
  | ⟨4, _⟩ => exact ((dat1 (atTc (W7 m)) c).arrAt_in 4 rfl _).trans ((A_eq1 (atTc (W7 m)) c 4).trans (W8_of_ne m c _ (by decide) (by decide)).symm)
  | ⟨5, _⟩ => exact ((dat1 (atTc (W7 m)) c).arrAt_in 5 rfl _).trans ((A_eq1 (atTc (W7 m)) c 5).trans (W8_of_ne m c _ (by decide) (by decide)).symm)
  | ⟨6, _⟩ => exact ((dat1 (atTc (W7 m)) c).arrAt_in 6 rfl _).trans ((A_eq1 (atTc (W7 m)) c 6).trans (W8_of_ne m c _ (by decide) (by decide)).symm)
  | ⟨7, _⟩ => exact ((dat1 (atTc (W7 m)) c).arrAt_in 7 rfl _).trans ((A_eq1 (atTc (W7 m)) c 7).trans (W8_of_ne m c _ (by decide) (by decide)).symm)
  | ⟨8, _⟩ => exact ((dat1 (atTc (W7 m)) c).arrAt_in 8 rfl _).trans ((A_eq1 (atTc (W7 m)) c 8).trans (W8_of_ne m c _ (by decide) (by decide)).symm)
  | ⟨9, _⟩ => exact (outs_8_0 m c).symm.trans rfl
  | ⟨10, _⟩ => exact (outs_8_1 m c).symm.trans rfl
theorem hrest1 (c : Dev nD) : ∀ b, b ∉ Finset.univ.image (Pipeline.arrRef spec1) → atTc (W8 m) c b = atTc (W7 m) c b :=
  fun b hb => W8_of_ne m c b (fun e => hb (Finset.mem_image.mpr ⟨9, Finset.mem_univ _, e.symm ▸ rfl⟩))
    (fun e => hb (Finset.mem_image.mpr ⟨10, Finset.mem_univ _, e.symm ▸ rfl⟩))

set_option maxHeartbeats 4000000 in
theorem hF2 (c : Dev nD) (w : Fin cfg2.W) : (dat2 (atTc (W9 m)) c).arrAt w cfg2.N = atTc (W10 m) c (Pipeline.arrRef spec2 w) := by
  match w with
  | ⟨0, _⟩ => exact ((dat2 (atTc (W9 m)) c).arrAt_in 0 rfl _).trans ((A_eq2 (atTc (W9 m)) c 0).trans (W10_of_ne m c _ (by decide)).symm)
  | ⟨1, _⟩ => exact ((dat2 (atTc (W9 m)) c).arrAt_in 1 rfl _).trans ((A_eq2 (atTc (W9 m)) c 1).trans (W10_of_ne m c _ (by decide)).symm)
  | ⟨2, _⟩ => exact ((dat2 (atTc (W9 m)) c).arrAt_in 2 rfl _).trans ((A_eq2 (atTc (W9 m)) c 2).trans (W10_of_ne m c _ (by decide)).symm)
  | ⟨3, _⟩ => exact ((dat2 (atTc (W9 m)) c).arrAt_in 3 rfl _).trans ((A_eq2 (atTc (W9 m)) c 3).trans (W10_of_ne m c _ (by decide)).symm)
  | ⟨4, _⟩ => exact ((dat2 (atTc (W9 m)) c).arrAt_in 4 rfl _).trans ((A_eq2 (atTc (W9 m)) c 4).trans (W10_of_ne m c _ (by decide)).symm)
  | ⟨5, _⟩ => exact ((dat2 (atTc (W9 m)) c).arrAt_in 5 rfl _).trans ((A_eq2 (atTc (W9 m)) c 5).trans (W10_of_ne m c _ (by decide)).symm)
  | ⟨6, _⟩ => exact ((dat2 (atTc (W9 m)) c).arrAt_in 6 rfl _).trans ((A_eq2 (atTc (W9 m)) c 6).trans (W10_of_ne m c _ (by decide)).symm)
  | ⟨7, _⟩ => exact ((dat2 (atTc (W9 m)) c).arrAt_in 7 rfl _).trans ((A_eq2 (atTc (W9 m)) c 7).trans (W10_of_ne m c _ (by decide)).symm)
  | ⟨8, _⟩ => exact (outs_10 m c).symm.trans rfl
theorem hrest2 (c : Dev nD) : ∀ b, b ∉ Finset.univ.image (Pipeline.arrRef spec2) → atTc (W10 m) c b = atTc (W9 m) c b :=
  fun b hb => W10_of_ne m c b fun e => hb (Finset.mem_image.mpr ⟨8, Finset.mem_univ _, e.symm ▸ rfl⟩)

/-! ## The proof data family and what rides beside the buffers -/

/-- Every pipeline's proof data, each at its region's entry contents. -/
def pdats : (p : Fin 3) → (c : Dev nD) → Dat τ (Elt F) Unit ℕ (UR sig nD τ) ℕ (cfgs p) c
  | ⟨0, _⟩ => fun c => dat0 (atTc (W1 m)) c
  | ⟨1, _⟩ => fun c => dat1 (atTc (W7 m)) c
  | ⟨2, _⟩ => fun c => dat2 (atTc (W9 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 over the thread state: entered from every unscoped buffer at `W1`, left at `W2`. Its arrays are split out
    of the unscoped buffers and put back at the exit contents; the generator register goes into the pipeline's invariant
    and comes back; nothing is owed; the kernel has no semaphore of its own. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atTc (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atTc (W1 m) c) (atTc (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W7`, left at `W8`. Its arrays are split out
    of the unscoped buffers and put back at the exit contents; the generator register goes into the pipeline's invariant
    and comes back; nothing is owed; the kernel has no semaphore of its own. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (W7 m)) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (atTc (W7 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atTc (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atTc (W7 m) c) (atTc (W8 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W9`, left at `W10`. Its arrays are split out
    of the unscoped buffers and put back at the exit contents; the generator register goes into the pipeline's invariant
    and comes back; nothing is owed; the kernel has no semaphore of its own. -/
def reg2 : RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (W9 m)) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (atTc (W9 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (atTc (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (atTc (W9 m) c) (atTc (W10 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- THE FRAME at any float instance: the generated conditional frame at the chain's contents and the three records. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Gen.frame_cond (F := F) m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := reg0 m) (hpre0 := fun c => by rw [V1_eq]; exact .rfl) (hpost0 := fun c => by rw [V2_eq]; exact .rfl)
    (R1 := reg1 m) (hpre1 := fun c => by rw [V7_eq]; exact .rfl) (hpost1 := fun c => by rw [V8_eq]; exact .rfl)
    (R2 := reg2 m) (hpre2 := fun c => by rw [V9_eq]; exact .rfl) (hpost2 := fun c => by rw [V10_eq]; exact .rfl)

end Cert.Kernel.Hand

end
-- ==== Proof.KI.Region0.lean ====
/-
  REGION 0 (the input embedding h = x·W_in + b_in, ten blocks of 10000 nodes), at any float instance, entered from
  buffer contents `V`: what each window's block is at a grid point, what the body leaves in the output block — its one
  store, of the product-plus-bias of the three blocks it loads —, that the body does so from whole staging buffers, and
  the data the pipeline's launch theorem asks for: the arrays as entered, after the body at a point every input block in
  place and the output block at the body's value of them, nothing owed.
-/
import proofs.«428612_j50654844289863_1_alg».proof.Proof.Gen.KernelIdeal.Launch
import proofs.«428612_j50654844289863_1_alg».proof.Proof.Gen.KernelIdeal.Skeleton
import proofs.«428612_j50654844289863_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and the store take a whole block -/

abbrev r0_x : Rect S10000x32 := Rect.unit (s := S10000x32) ![0, 0] S10000x32.size inb_S10000x32_S10000x32_0_0
abbrev r0_w : Rect S32x64 := Rect.unit (s := S32x64) ![0, 0] S32x64.size inb_S32x64_S32x64_0_0
abbrev r0_b : Rect S64 := Rect.unit (s := S64) ![0] S64.size inb_S64_S64_0
abbrev r0_o : Rect S10000x64 := Rect.unit (s := S10000x64) ![0, 0] S10000x64.size inb_S10000x64_S10000x64_0_0

/-! ## What the body leaves in the output block -/

/-- The output block after the body, from the three input blocks: its one store. -/
def out0_3 (x0 : Vec F S10000x32 .f32) (x1 : Vec F S32x64 .bf16) (x2 : Vec F S64 .f32) : Vec F S10000x64 .f32 :=
  View.canon [⟨r0_o, k0_pay1 (View.ld x0 r0_x) (View.ld x1 r0_w) (View.ld x2 r0_b)⟩]

/-- The store covers the block. -/
theorem cover0_3 (p0 : Vec F S10000x64 .f32) (y : S10000x64.Idx) :
    ∃ pc ∈ ([⟨r0_o, p0⟩] : List (View.Piece (Elt F) S10000x64 .f32)), y ∈ pc.1.set :=
  View.cover_of_tiled [⟨r0_o, p0⟩] S10000x64.size (by rfl) y

/-! ## The body's triple -/

set_option maxHeartbeats 1000000 in
/-- The body on whole staging buffers, the inputs' at contents `x0 x1 x2` and the output's at anything, runs to the
    continuation holding the inputs' as they were and the output's at `out0_3` of them. -/
theorem sound_kernel0 (c : Dev nD) (E : Set ℕ) (i : grid0.Coords)
    (arg1 : Memref sig .tc .vmem S10000x32 .f32) (harg1 : arg1.IsWhole) (arg2 : Memref sig .tc .vmem S32x64 .bf16) (harg2 : arg2.IsWhole)
    (arg3 : Memref sig .tc .vmem S64 .f32) (harg3 : arg3.IsWhole) (arg4 : Memref sig .tc .vmem S10000x64 .f32) (harg4 : arg4.IsWhole)
    (x0 : Vec F S10000x32 .f32) (x1 : Vec F S32x64 .bf16) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point `t` each input's buffer at its block and the output's
    at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  REGION 1 (the edge stage: per block of 3000 packed edge rows, the message m = relu(relu([h_i | h_j | ‖d‖² | a]·W1 + b1)·W2 + b2)
  and the coordinate shift d · (relu(m·Wc1 + bc1)·Wc2 + bc2), four hundred blocks), at any float instance, entered from buffer
  contents `V`: what each window's block is at a grid point, what the body leaves in the two output blocks — one store
  each, of the body's value of the blocks it loads —, that the body does so from whole staging buffers, and the data the
  pipeline's launch theorem asks for: the arrays as entered, after the body at a point every input block in place and
  each output block at the body's value of them, nothing owed.
-/

import proofs.«428612_j50654844289863_1_alg».proof.Proof.Gen.KernelIdeal.Launch
import proofs.«428612_j50654844289863_1_alg».proof.Proof.Gen.KernelIdeal.Skeleton
import proofs.«428612_j50654844289863_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and each store takes a whole block -/

abbrev r1_0 : Rect S3000x147 := Rect.unit (s := S3000x147) ![0, 0] S3000x147.size inb_S3000x147_S3000x147_0_0
abbrev r1_1 : Rect S145x64 := Rect.unit (s := S145x64) ![0, 0] S145x64.size inb_S145x64_S145x64_0_0
abbrev r1_2 : Rect S64 := Rect.unit (s := S64) ![0] S64.size inb_S64_S64_0
abbrev r1_3 : Rect S64x64 := Rect.unit (s := S64x64) ![0, 0] S64x64.size inb_S64x64_S64x64_0_0
abbrev r1_4 : Rect S64 := Rect.unit (s := S64) ![0] S64.size inb_S64_S64_0
abbrev r1_5 : Rect S64x64 := Rect.unit (s := S64x64) ![0, 0] S64x64.size inb_S64x64_S64x64_0_0
abbrev r1_6 : Rect S64 := Rect.unit (s := S64) ![0] S64.size inb_S64_S64_0
abbrev r1_7 : Rect S64x1 := Rect.unit (s := S64x1) ![0, 0] S64x1.size inb_S64x1_S64x1_0_0
abbrev r1_8 : Rect S1 := Rect.unit (s := S1) ![0] S1.size inb_S1_S1_0
abbrev r1_9 : Rect S3000x64 := Rect.unit (s := S3000x64) ![0, 0] S3000x64.size inb_S3000x64_S3000x64_0_0
abbrev r1_10 : Rect S3000x3 := Rect.unit (s := S3000x3) ![0, 0] S3000x3.size inb_S3000x3_S3000x3_0_0

/-! ## What the body leaves in the output blocks -/

/-- The message block after the body, from the five input blocks it is computed of: its one store. -/
def out1_9 (x0 : Vec F S3000x147 .f32) (x1 : Vec F S145x64 .bf16) (x2 : Vec F S64 .f32) (x3 : Vec F S64x64 .bf16) (x4 : Vec F S64 .f32) : Vec F S3000x64 .f32 :=
  View.canon [⟨r1_9, k1_pay4 (View.ld x0 r1_0) (View.ld x1 r1_1) (View.ld x2 r1_2) (View.ld x3 r1_3) (View.ld x4 r1_4)⟩]

/-- The shift block after the body, from the nine input blocks: its one store. -/
def out1_10 (x0 : Vec F S3000x147 .f32) (x1 : Vec F S145x64 .bf16) (x2 : Vec F S64 .f32) (x3 : Vec F S64x64 .bf16) (x4 : Vec F S64 .f32) (x5 : Vec F S64x64 .bf16) (x6 : Vec F S64 .f32) (x7 : Vec F S64x1 .bf16) (x8 : Vec F S1 .f32) : Vec F S3000x3 .f32 :=
  View.canon [⟨r1_10, k1_pay1 (k1_pay3 (View.ld x0 r1_0)) (k1_pay5 (View.ld x0 r1_0) (View.ld x1 r1_1) (View.ld x2 r1_2) (View.ld x3 r1_3) (View.ld x4 r1_4) (View.ld x5 r1_5) (View.ld x6 r1_6)) (View.ld x7 r1_7) (View.ld x8 r1_8)⟩]

/-- Each store covers its block. -/
theorem cover1_9 (p0 : Vec F S3000x64 .f32) (y : S3000x64.Idx) :
    ∃ pc ∈ ([⟨r1_9, p0⟩] : List (View.Piece (Elt F) S3000x64 .f32)), y ∈ pc.1.set :=
  View.cover_of_tiled [⟨r1_9, p0⟩] S3000x64.size (by rfl) y
theorem cover1_10 (p0 : Vec F S3000x3 .f32) (y : S3000x3.Idx) :
    ∃ pc ∈ ([⟨r1_10, p0⟩] : List (View.Piece (Elt F) S3000x3 .f32)), y ∈ pc.1.set :=
  View.cover_of_tiled [⟨r1_10, p0⟩] S3000x3.size (by rfl) y

/-! ## The body's triple -/

set_option maxHeartbeats 4000000 in
/-- The body on whole staging buffers, the inputs' at contents `x0 … x8` and the outputs' at anything, runs to the
    continuation holding the inputs' as they were and the outputs' at `out1_9`, `out1_10` of them. -/
theorem sound_kernel1 (c : Dev nD) (E : Set ℕ) (i : grid1.Coords)
    (arg1 : Memref sig .tc .vmem S3000x147 .f32) (harg1 : arg1.IsWhole) (arg2 : Memref sig .tc .vmem S145x64 .bf16) (harg2 : arg2.IsWhole) (arg3 : Memref sig .tc .vmem S64 .f32) (harg3 : arg3.IsWhole) (arg4 : Memref sig .tc .vmem S64x64 .bf16) (harg4 : arg4.IsWhole)
    (arg5 : Memref sig .tc .vmem S64 .f32) (harg5 : arg5.IsWhole) (arg6 : Memref sig .tc .vmem S64x64 .bf16) (harg6 : arg6.IsWhole) (arg7 : Memref sig .tc .vmem S64 .f32) (harg7 : arg7.IsWhole) (arg8 : Memref sig .tc .vmem S64x1 .bf16) (harg8 : arg8.IsWhole)
    (arg9 : Memref sig .tc .vmem S1 .f32) (harg9 : arg9.IsWhole) (arg10 : Memref sig .tc .vmem S3000x64 .f32) (harg10 : arg10.IsWhole) (arg11 : Memref sig .tc .vmem S3000x3 .f32) (harg11 : arg11.IsWhole)
    (x0 : Vec F S3000x147 .f32) (x1 : Vec F S145x64 .bf16) (x2 : Vec F S64 .f32) (x3 : Vec F S64x64 .bf16) (x4 : Vec F S64 .f32) (x5 : Vec F S64x64 .bf16) (x6 : Vec F S64 .f32) (x7 : Vec F S64x1 .bf16) (x8 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out1_9 x0 x1 x2 x3 x4) ∗ owns (c : Thread nD τ) arg11 fullShare (out1_10 x0 x1 x2 x3 x4 x5 x6 x7 x8)) -∗ K ⟨⟩))
      ⊢ wp frame (wpE (defs₀ (F := F)) Variants.none c none) E (cc1__edge_coord_kernel i arg1 harg1 arg2 harg2 arg3 harg3 arg4 harg4 arg5 harg5 arg6 harg6 arg7 harg7 arg8 harg8 arg9 harg9 arg10 harg10 arg11 harg11) K := by
  simp only [cc1__edge_coord_kernel_eq_skeleton]; unfold cc1__edge_coord_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover1_9 _)
  iexists _; isplitr
  swap; · iexact H10
  ipureintro
  exact View.read_writes_eq_canon _ _ _ (cover1_10 _)

/-! ## The pipeline's proof data -/

/-- The arrays as the region finds them; after the body at point `t` each input's buffer at its block and each output's
    at its `out1_W` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t)
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) :
    (dat1 V c).after 9 t = out1_9 (iblk1 V c 0 t) (iblk1 V c 1 t) (iblk1 V c 2 t) (iblk1 V c 3 t) (iblk1 V c 4 t) := by dsimp only [dat1]
theorem after1_10 (c : Dev nD) (t : Fin cfg1.N) :
    (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  REGION 2 (the node update: the two-layer network on each node's features beside its aggregated messages, then the
  output layer, twenty blocks of 5000 nodes), at any float instance, entered from buffer contents `V`: what each
  window's block is at a grid point, what the body leaves in the output block — its one store, of the value it computes
  from the eight blocks it loads —, that the body does so from whole staging buffers, and the data the pipeline's launch
  theorem asks for: the arrays as entered, after the body at a point every input block in place and the output block at
  the body's value of them, nothing owed.
-/
import proofs.«428612_j50654844289863_1_alg».proof.Proof.Gen.KernelIdeal.Launch
import proofs.«428612_j50654844289863_1_alg».proof.Proof.Gen.KernelIdeal.Skeleton
import proofs.«428612_j50654844289863_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (where it is not
    fetched the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each load and the store take a whole block -/

abbrev r2_x : Rect S5000x64 := Rect.unit (s := S5000x64) ![0, 0] S5000x64.size inb_S5000x64_S5000x64_0_0
abbrev r2_w1 : Rect S128x64 := Rect.unit (s := S128x64) ![0, 0] S128x64.size inb_S128x64_S128x64_0_0
abbrev r2_w : Rect S64x64 := Rect.unit (s := S64x64) ![0, 0] S64x64.size inb_S64x64_S64x64_0_0
abbrev r2_b : Rect S64 := Rect.unit (s := S64) ![0] S64.size inb_S64_S64_0
abbrev r2_o : Rect S5000x64 := Rect.unit (s := S5000x64) ![0, 0] S5000x64.size inb_S5000x64_S5000x64_0_0

/-! ## What the body leaves in the output block -/

/-- The output block after the body, from the eight input blocks: its one store. -/
def out2_8 (x0 : Vec F S5000x64 .f32) (x1 : Vec F S5000x64 .f32) (x2 : Vec F S128x64 .bf16) (x3 : Vec F S64 .f32) (x4 : Vec F S64x64 .bf16) (x5 : Vec F S64 .f32) (x6 : Vec F S64x64 .bf16) (x7 : Vec F S64 .f32) : Vec F S5000x64 .f32 :=
  View.canon [⟨r2_o, k2_pay1 (View.ld x0 r2_x) (View.ld x1 r2_x) (View.ld x2 r2_w1) (View.ld x3 r2_b) (View.ld x4 r2_w) (View.ld x5 r2_b) (View.ld x6 r2_w) (View.ld x7 r2_b)⟩]

/-- The store covers the block. -/
theorem cover2_8 (p0 : Vec F S5000x64 .f32) (y : S5000x64.Idx) :
    ∃ pc ∈ ([⟨r2_o, p0⟩] : List (View.Piece (Elt F) S5000x64 .f32)), y ∈ pc.1.set :=
  View.cover_of_tiled [⟨r2_o, p0⟩] S5000x64.size (by rfl) y

/-! ## The body's triple -/

set_option maxHeartbeats 1000000 in
/-- The body on whole staging buffers, the inputs' at contents `x0 … x7` and the output's at anything, runs to the
    continuation holding the inputs' as they were and the output's at `out2_8` of them. -/
theorem sound_kernel2 (c : Dev nD) (E : Set ℕ) (i : grid2.Coords)
    (arg1 : Memref sig .tc .vmem S5000x64 .f32) (harg1 : arg1.IsWhole)
    (arg2 : Memref sig .tc .vmem S5000x64 .f32) (harg2 : arg2.IsWhole)
    (arg3 : Memref sig .tc .vmem S128x64 .bf16) (harg3 : arg3.IsWhole)
    (arg4 : Memref sig .tc .vmem S64 .f32) (harg4 : arg4.IsWhole)
    (arg5 : Memref sig .tc .vmem S64x64 .bf16) (harg5 : arg5.IsWhole)
    (arg6 : Memref sig .tc .vmem S64 .f32) (harg6 : arg6.IsWhole)
    (arg7 : Memref sig .tc .vmem S64x64 .bf16) (harg7 : arg7.IsWhole)
    (arg8 : Memref sig .tc .vmem S64 .f32) (harg8 : arg8.IsWhole)
    (arg9 : Memref sig .tc .vmem S5000x64 .f32) (harg9 : arg9.IsWhole)
    (x0 : Vec F S5000x64 .f32) (x1 : Vec F S5000x64 .f32) (x2 : Vec F S128x64 .bf16) (x3 : Vec F S64 .f32) (x4 : Vec F S64x64 .bf16) (x5 : Vec F S64 .f32) (x6 : Vec F S64x64 .bf16) (x7 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out2_8 x0 x1 x2 x3 x4 x5 x6 x7)) -∗ K ⟨⟩))
      ⊢ wp frame (wpE (defs₀ (F := F)) Variants.none c none) E (cc2__node_final_kernel i arg1 harg1 arg2 harg2 arg3 harg3 arg4 harg4 arg5 harg5 arg6 harg6 arg7 harg7 arg8 harg8 arg9 harg9) K := by
  simp only [cc2__node_final_kernel_eq_skeleton]; unfold cc2__node_final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-! ## The pipeline's proof data -/

/-- The arrays as the region finds them; after the body at point `t` each input's buffer at its block and the output's
    at `out2_8` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) :
    (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The launch theorem's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Chain.lean ====
/-
  THE CONTENTS OF THE BUFFERS BETWEEN THE ITEMS OF @main, concretely: the launch memory, then after each stretch of host
  operations their results, and after each kernel region its output arrays at what the pipeline's write-backs leave
  (every block flushed: `Dat.arrAt … N`) and every other buffer as the region found it. The generated conditional frame
  is stated over unknown output contents `outs`; here they are chosen to be these, and its valuations are then the chain
  below.
-/
import proofs.«428612_j50654844289863_1_alg».proof.Proof.Gen.KernelIdeal.Regions
import proofs.«428612_j50654844289863_1_alg».proof.Proof.KI.Region0
import proofs.«428612_j50654844289863_1_alg».proof.Proof.KI.Region1
import proofs.«428612_j50654844289863_1_alg».proof.Proof.KI.Region2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ)

/-- A valuation read at the TensorCore's references. -/
abbrev atTc (W : Dev nD → Valuation τ sig (Elt F)) : (c : Dev nD) → (b : Ref sig .tc) → Buf (Elt F) ((c : Thread nD τ).loc b) :=
  fun c b => W c b

/-! ## The chain -/

/-- Before region 0: the launch memory after the first host stretch. -/
abbrev W1 (c : Dev nD) : Valuation τ sig (Elt F) := StableHlo.after hostOps0 (fun b => m (c, b))
/-- What region 0 leaves in its output array: every block written back. -/
def o2 (c : Dev nD) : Buf (Elt F) ((c : Thread nD τ).loc main_v5) := (dat0 (atTc (W1 m)) c).arrAt 3 cfg0.N
/-- After region 0. -/
abbrev W2 (c : Dev nD) : Valuation τ sig (Elt F) := Function.update (W1 m c) main_v5 (o2 m c)
/-- Before region 1: after the four row gathers, the difference, the packing and the weights' conversions. -/
abbrev W7 (c : Dev nD) : Valuation τ sig (Elt F) :=
  StableHlo.after hostOps1_4 (StableHlo.after hostOps1_3 (StableHlo.after hostOps1_2 (StableHlo.after hostOps1_1 (StableHlo.after hostOps1 (W2 m c)))))
/-- What region 1 leaves in its two output arrays. -/
def o8_0 (c : Dev nD) : Buf (Elt F) ((c : Thread nD τ).loc main_v16_0) := (dat1 (atTc (W7 m)) c).arrAt 9 cfg1.N
def o8_1 (c : Dev nD) : Buf (Elt F) ((c : Thread nD τ).loc main_v16_1) := (dat1 (atTc (W7 m)) c).arrAt 10 cfg1.N
/-- After region 1. -/
abbrev W8 (c : Dev nD) : Valuation τ sig (Elt F) :=
  Function.update (Function.update (W7 m c) main_v16_0 (o8_0 m c)) main_v16_1 (o8_1 m c)
/-- Before region 2: after the three sums into nodes, the quotient and the weights' conversions. -/
abbrev W9 (c : Dev nD) : Valuation τ sig (Elt F) := StableHlo.after hostOps2 (W8 m c)
/-- What region 2 leaves in its output array. -/
def o10 (c : Dev nD) : Buf (Elt F) ((c : Thread nD τ).loc main_v36) := (dat2 (atTc (W9 m)) c).arrAt 8 cfg2.N
/-- After region 2: the end. -/
abbrev W10 (c : Dev nD) : Valuation τ sig (Elt F) := Function.update (W9 m c) main_v36 (o10 m c)

/-- The regions' output contents, as the conditional frame reads them: after item J−1 the buffer `r` holds what the
    chain holds there. -/
def outs : Gen.Outs (F := F) := fun J r c =>
  match J with
  | 2 => W2 m c r
  | 8 => W8 m c r
  | 10 => W10 m c r
  | _ => m (c, r)

theorem outs_2 (c : Dev nD) : outs m 2 main_v5 c = o2 m c := by
  show Function.update (W1 m c) main_v5 (o2 m c) main_v5 = _
  exact Function.update_self ..
theorem outs_8_1 (c : Dev nD) : outs m 8 main_v16_1 c = o8_1 m c := by
  show Function.update (Function.update (W7 m c) main_v16_0 (o8_0 m c)) main_v16_1 (o8_1 m c) main_v16_1 = _
  exact Function.update_self ..
theorem outs_8_0 (c : Dev nD) : outs m 8 main_v16_0 c = o8_0 m c := by
  show Function.update (Function.update (W7 m c) main_v16_0 (o8_0 m c)) main_v16_1 (o8_1 m c) main_v16_0 = _
  rw [Function.update_of_ne (StableHlo.devRef_ne_of_ne (by decide) : (Proc.devRef .tc main_v16_0 : DevRef τ sig) ≠ Proc.devRef .tc main_v16_1)]
  exact Function.update_self ..
theorem outs_10 (c : Dev nD) : outs m 10 main_v36 c = o10 m c := by
  show Function.update (W9 m c) main_v36 (o10 m c) main_v36 = _
  exact Function.update_self ..

/-! ## The generated valuations are the chain -/

theorem V1_eq (c : Dev nD) : Gen.V1 m c = W1 m c := rfl
theorem V2_eq (c : Dev nD) : Gen.V2 m (outs m) c = W2 m c := by
  show Function.update (Gen.V1 m c) main_v5 (outs m 2 main_v5 c) = _
  rw [outs_2]
theorem V7_eq (c : Dev nD) : Gen.V7 m (outs m) c = W7 m c := by
  show StableHlo.after hostOps1_4 (StableHlo.after hostOps1_3 (StableHlo.after hostOps1_2 (StableHlo.after hostOps1_1 (StableHlo.after hostOps1 (Gen.V2 m (outs m) c))))) = _
  rw [V2_eq]
theorem V8_eq (c : Dev nD) : Gen.V8 m (outs m) c = W8 m c := by
  show Function.update (Function.update (Gen.V7 m (outs m) c) main_v16_0 (outs m 8 main_v16_0 c)) main_v16_1 (outs m 8 main_v16_1 c) = _
  rw [V7_eq, outs_8_0, outs_8_1]
theorem V9_eq (c : Dev nD) : Gen.V9 m (outs m) c = W9 m c := by
  show StableHlo.after hostOps2 (Gen.V8 m (outs m) c) = _
  rw [V8_eq]
theorem V10_eq (c : Dev nD) : Gen.V10 m (outs m) c = W10 m c := by
  show Function.update (Gen.V9 m (outs m) c) main_v36 (outs m 10 main_v36 c) = _
  rw [V9_eq, outs_10]

end Cert.KernelIdeal.Hand

end
-- ==== Proof.KI.Run.lean ====
/-
  THE FRAME OF THE KERNEL PROGRAM: every weakly fair execution of @main ends, nothing faults and the twenty argument
  arrays end as launched. @main is ten items: host stretches and three kernel regions. The generated conditional frame
  asks, per region, for the launch theorem's record around the thread states "every unscoped buffer at the chain's
  contents, the generator register at some state, nothing owed"; each record takes its region's arrays out of the
  unscoped buffers, runs the pipeline on the region's proof data, and puts the arrays back at what the write-backs leave.
-/
import proofs.«428612_j50654844289863_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## At a region's exit its arrays hold what the pipeline leaves, every other buffer what it held at entry -/

theorem W2_of_ne (c : Dev nD) (b : Ref sig .tc) (hb : b ≠ main_v5) : W2 m c b = W1 m c b :=
  Function.update_of_ne (StableHlo.devRef_ne_of_ne hb : (Proc.devRef .tc b : DevRef τ sig) ≠ Proc.devRef .tc main_v5) _ _
theorem W8_of_ne (c : Dev nD) (b : Ref sig .tc) (hb0 : b ≠ main_v16_0) (hb1 : b ≠ main_v16_1) : W8 m c b = W7 m c b :=
  (Function.update_of_ne (StableHlo.devRef_ne_of_ne hb1 : (Proc.devRef .tc b : DevRef τ sig) ≠ Proc.devRef .tc main_v16_1) _ _).trans
    (Function.update_of_ne (StableHlo.devRef_ne_of_ne hb0 : (Proc.devRef .tc b : DevRef τ sig) ≠ Proc.devRef .tc main_v16_0) _ _)
theorem W10_of_ne (c : Dev nD) (b : Ref sig .tc) (hb : b ≠ main_v36) : W10 m c b = W9 m c b :=
  Function.update_of_ne (StableHlo.devRef_ne_of_ne hb : (Proc.devRef .tc b : DevRef τ sig) ≠ Proc.devRef .tc main_v36) _ _

/-- An input window's array is never written back: it ends as the region found it. -/
theorem hF0 (c : Dev nD) (w : Fin cfg0.W) : (dat0 (atTc (W1 m)) c).arrAt w cfg0.N = atTc (W2 m) c (Pipeline.arrRef spec0 w) := by
  match w with
  | ⟨0, _⟩ => exact ((dat0 (atTc (W1 m)) c).arrAt_in 0 rfl _).trans ((A_eq0 (atTc (W1 m)) c 0).trans (W2_of_ne m c _ (by decide)).symm)
  | ⟨1, _⟩ => exact ((dat0 (atTc (W1 m)) c).arrAt_in 1 rfl _).trans ((A_eq0 (atTc (W1 m)) c 1).trans (W2_of_ne m c _ (by decide)).symm)
  | ⟨2, _⟩ => exact ((dat0 (atTc (W1 m)) c).arrAt_in 2 rfl _).trans ((A_eq0 (atTc (W1 m)) c 2).trans (W2_of_ne m c _ (by decide)).symm)
  | ⟨3, _⟩ => exact (outs_2 m c).symm.trans rfl
theorem hrest0 (c : Dev nD) : ∀ b, b ∉ Finset.univ.image (Pipeline.arrRef spec0) → atTc (W2 m) c b = atTc (W1 m) c b :=
  fun b hb => W2_of_ne m c b fun e => hb (Finset.mem_image.mpr ⟨3, Finset.mem_univ _, e.symm ▸ rfl⟩)

set_option maxHeartbeats 4000000 in
theorem hF1 (c : Dev nD) (w : Fin cfg1.W) : (dat1 (atTc (W7 m)) c).arrAt w cfg1.N = atTc (W8 m) c (Pipeline.arrRef spec1 w) := by
  match w with
  | ⟨0, _⟩ => exact ((dat1 (atTc (W7 m)) c).arrAt_in 0 rfl _).trans ((A_eq1 (atTc (W7 m)) c 0).trans (W8_of_ne m c _ (by decide) (by decide)).symm)
  | ⟨1, _⟩ => exact ((dat1 (atTc (W7 m)) c).arrAt_in 1 rfl _).trans ((A_eq1 (atTc (W7 m)) c 1).trans (W8_of_ne m c _ (by decide) (by decide)).symm)
  | ⟨2, _⟩ => exact ((dat1 (atTc (W7 m)) c).arrAt_in 2 rfl _).trans ((A_eq1 (atTc (W7 m)) c 2).trans (W8_of_ne m c _ (by decide) (by decide)).symm)
  | ⟨3, _⟩ => exact ((dat1 (atTc (W7 m)) c).arrAt_in 3 rfl _).trans ((A_eq1 (atTc (W7 m)) c 3).trans (W8_of_ne m c _ (by decide) (by decide)).symm)
  | ⟨4, _⟩ => exact ((dat1 (atTc (W7 m)) c).arrAt_in 4 rfl _).trans ((A_eq1 (atTc (W7 m)) c 4).trans (W8_of_ne m c _ (by decide) (by decide)).symm)
  | ⟨5, _⟩ => exact ((dat1 (atTc (W7 m)) c).arrAt_in 5 rfl _).trans ((A_eq1 (atTc (W7 m)) c 5).trans (W8_of_ne m c _ (by decide) (by decide)).symm)
  | ⟨6, _⟩ => exact ((dat1 (atTc (W7 m)) c).arrAt_in 6 rfl _).trans ((A_eq1 (atTc (W7 m)) c 6).trans (W8_of_ne m c _ (by decide) (by decide)).symm)
  | ⟨7, _⟩ => exact ((dat1 (atTc (W7 m)) c).arrAt_in 7 rfl _).trans ((A_eq1 (atTc (W7 m)) c 7).trans (W8_of_ne m c _ (by decide) (by decide)).symm)
  | ⟨8, _⟩ => exact ((dat1 (atTc (W7 m)) c).arrAt_in 8 rfl _).trans ((A_eq1 (atTc (W7 m)) c 8).trans (W8_of_ne m c _ (by decide) (by decide)).symm)
  | ⟨9, _⟩ => exact (outs_8_0 m c).symm.trans rfl
  | ⟨10, _⟩ => exact (outs_8_1 m c).symm.trans rfl
theorem hrest1 (c : Dev nD) : ∀ b, b ∉ Finset.univ.image (Pipeline.arrRef spec1) → atTc (W8 m) c b = atTc (W7 m) c b :=
  fun b hb => W8_of_ne m c b (fun e => hb (Finset.mem_image.mpr ⟨9, Finset.mem_univ _, e.symm ▸ rfl⟩))
    (fun e => hb (Finset.mem_image.mpr ⟨10, Finset.mem_univ _, e.symm ▸ rfl⟩))

set_option maxHeartbeats 4000000 in
theorem hF2 (c : Dev nD) (w : Fin cfg2.W) : (dat2 (atTc (W9 m)) c).arrAt w cfg2.N = atTc (W10 m) c (Pipeline.arrRef spec2 w) := by
  match w with
  | ⟨0, _⟩ => exact ((dat2 (atTc (W9 m)) c).arrAt_in 0 rfl _).trans ((A_eq2 (atTc (W9 m)) c 0).trans (W10_of_ne m c _ (by decide)).symm)
  | ⟨1, _⟩ => exact ((dat2 (atTc (W9 m)) c).arrAt_in 1 rfl _).trans ((A_eq2 (atTc (W9 m)) c 1).trans (W10_of_ne m c _ (by decide)).symm)
  | ⟨2, _⟩ => exact ((dat2 (atTc (W9 m)) c).arrAt_in 2 rfl _).trans ((A_eq2 (atTc (W9 m)) c 2).trans (W10_of_ne m c _ (by decide)).symm)
  | ⟨3, _⟩ => exact ((dat2 (atTc (W9 m)) c).arrAt_in 3 rfl _).trans ((A_eq2 (atTc (W9 m)) c 3).trans (W10_of_ne m c _ (by decide)).symm)
  | ⟨4, _⟩ => exact ((dat2 (atTc (W9 m)) c).arrAt_in 4 rfl _).trans ((A_eq2 (atTc (W9 m)) c 4).trans (W10_of_ne m c _ (by decide)).symm)
  | ⟨5, _⟩ => exact ((dat2 (atTc (W9 m)) c).arrAt_in 5 rfl _).trans ((A_eq2 (atTc (W9 m)) c 5).trans (W10_of_ne m c _ (by decide)).symm)
  | ⟨6, _⟩ => exact ((dat2 (atTc (W9 m)) c).arrAt_in 6 rfl _).trans ((A_eq2 (atTc (W9 m)) c 6).trans (W10_of_ne m c _ (by decide)).symm)
  | ⟨7, _⟩ => exact ((dat2 (atTc (W9 m)) c).arrAt_in 7 rfl _).trans ((A_eq2 (atTc (W9 m)) c 7).trans (W10_of_ne m c _ (by decide)).symm)
  | ⟨8, _⟩ => exact (outs_10 m c).symm.trans rfl
theorem hrest2 (c : Dev nD) : ∀ b, b ∉ Finset.univ.image (Pipeline.arrRef spec2) → atTc (W10 m) c b = atTc (W9 m) c b :=
  fun b hb => W10_of_ne m c b fun e => hb (Finset.mem_image.mpr ⟨8, Finset.mem_univ _, e.symm ▸ rfl⟩)

/-! ## The proof data family and what rides beside the buffers -/

/-- Every pipeline's proof data, each at its region's entry contents. -/
def pdats : (p : Fin 3) → (c : Dev nD) → Dat τ (Elt F) Unit ℕ (UR sig nD τ) ℕ (cfgs p) c
  | ⟨0, _⟩ => fun c => dat0 (atTc (W1 m)) c
  | ⟨1, _⟩ => fun c => dat1 (atTc (W7 m)) c
  | ⟨2, _⟩ => fun c => dat2 (atTc (W9 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 over the thread state: entered from every unscoped buffer at `W1`, left at `W2`. Its arrays are split out
    of the unscoped buffers and put back at the exit contents; the generator register goes into the pipeline's invariant
    and comes back; nothing is owed; the kernel has no semaphore of its own. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atTc (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atTc (W1 m) c) (atTc (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W7`, left at `W8`. Its arrays are split out
    of the unscoped buffers and put back at the exit contents; the generator register goes into the pipeline's invariant
    and comes back; nothing is owed; the kernel has no semaphore of its own. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (W7 m)) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (atTc (W7 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atTc (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atTc (W7 m) c) (atTc (W8 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W9`, left at `W10`. Its arrays are split out
    of the unscoped buffers and put back at the exit contents; the generator register goes into the pipeline's invariant
    and comes back; nothing is owed; the kernel has no semaphore of its own. -/
def reg2 : RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (W9 m)) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (atTc (W9 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (atTc (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (atTc (W9 m) c) (atTc (W10 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- THE FRAME at any float instance: the generated conditional frame at the chain's contents and the three records. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Gen.frame_cond (F := F) m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := reg0 m) (hpre0 := fun c => by rw [V1_eq]; exact .rfl) (hpost0 := fun c => by rw [V2_eq]; exact .rfl)
    (R1 := reg1 m) (hpre1 := fun c => by rw [V7_eq]; exact .rfl) (hpost1 := fun c => by rw [V8_eq]; exact .rfl)
    (R2 := reg2 m) (hpre2 := fun c => by rw [V9_eq]; exact .rfl) (hpost2 := fun c => by rw [V10_eq]; exact .rfl)

end Cert.KernelIdeal.Hand

end
-- ==== Proof.KI.RunCond.lean ====
/-
  THE RUN WITH ITS RESULTS. The conditional frame reads each argument array off the last valuation of the unscoped
  buffers; the same reading at the two result buffers gives the run's values. Same hypotheses: per region a record of
  the launch theorem pinned to the valuations between the items.
-/
import proofs.«428612_j50654844289863_1_alg».proof.Proof.Gen.KernelIdeal.Regions

set_option maxRecDepth 1244

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

set_option backward.isDefEq.respectTransparency.types false in
/-- THE RUN WITH ITS RESULTS, under the conditional frame's hypotheses: every weakly fair execution of @main from memory `m`
    with zero counters terminates, and every final memory holds in the two result buffers what the last valuation holds
    there, and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c)) :
    θ_run defs (onTc (τ := τ) (main (F := F))) ⟨m, fun _ => 0, ρ⟩ (fun r => ∀ c : Dev nD,
      r.2.mem ((c.tc : Thread nD τ).loc main_v36) = V10 m outs c main_v36
      ∧ r.2.mem ((c.tc : Thread nD τ).loc main_v29) = V10 m outs c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, hpre0 c, hpost0 c, .rfl, .rfl, .rfl, .rfl, hpre1 c, hpost1 c, hpre2 c, (hpost2 c).trans (sep_mono .rfl (hE3 c))⟩)
    (hinit := ?_) (QY := fun c s => s.mem ((c.tc : Thread nD τ).loc main_v36) = V10 m outs c main_v36 ∧ s.mem ((c.tc : Thread nD τ).loc main_v29) = V10 m outs c main_v29 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact ⟨h (Proc.devRef .tc main_v36) (Finset.mem_filter.mpr ⟨StableHlo.devRef_mem_tcRefs main_v36, by decide⟩),
        h (Proc.devRef .tc main_v29) (Finset.mem_filter.mpr ⟨StableHlo.devRef_mem_tcRefs main_v29, by decide⟩),
        (h (Proc.devRef .tc main_arg0) (Finset.mem_filter.mpr ⟨StableHlo.devRef_mem_tcRefs main_arg0, by decide⟩)).trans (V10_main_arg0 m outs c),
        (h (Proc.devRef .tc main_arg1) (Finset.mem_filter.mpr ⟨StableHlo.devRef_mem_tcRefs main_arg1, by decide⟩)).trans (V10_main_arg1 m outs c),
        (h (Proc.devRef .tc main_arg2) (Finset.mem_filter.mpr ⟨StableHlo.devRef_mem_tcRefs main_arg2, by decide⟩)).trans (V10_main_arg2 m outs c),
        (h (Proc.devRef .tc main_arg3) (Finset.mem_filter.mpr ⟨StableHlo.devRef_mem_tcRefs main_arg3, by decide⟩)).trans (V10_main_arg3 m outs c),
        (h (Proc.devRef .tc main_arg4) (Finset.mem_filter.mpr ⟨StableHlo.devRef_mem_tcRefs main_arg4, by decide⟩)).trans (V10_main_arg4 m outs c),
        (h (Proc.devRef .tc main_arg5) (Finset.mem_filter.mpr ⟨StableHlo.devRef_mem_tcRefs main_arg5, by decide⟩)).trans (V10_main_arg5 m outs c),
        (h (Proc.devRef .tc main_arg6) (Finset.mem_filter.mpr ⟨StableHlo.devRef_mem_tcRefs main_arg6, by decide⟩)).trans (V10_main_arg6 m outs c),
        (h (Proc.devRef .tc main_arg7) (Finset.mem_filter.mpr ⟨StableHlo.devRef_mem_tcRefs main_arg7, by decide⟩)).trans (V10_main_arg7 m outs c),
        (h (Proc.devRef .tc main_arg8) (Finset.mem_filter.mpr ⟨StableHlo.devRef_mem_tcRefs main_arg8, by decide⟩)).trans (V10_main_arg8 m outs c),
        (h (Proc.devRef .tc main_arg9) (Finset.mem_filter.mpr ⟨StableHlo.devRef_mem_tcRefs main_arg9, by decide⟩)).trans (V10_main_arg9 m outs c),
        (h (Proc.devRef .tc main_arg10) (Finset.mem_filter.mpr ⟨StableHlo.devRef_mem_tcRefs main_arg10, by decide⟩)).trans (V10_main_arg10 m outs c),
        (h (Proc.devRef .tc main_arg11) (Finset.mem_filter.mpr ⟨StableHlo.devRef_mem_tcRefs main_arg11, by decide⟩)).trans (V10_main_arg11 m outs c),
        (h (Proc.devRef .tc main_arg12) (Finset.mem_filter.mpr ⟨StableHlo.devRef_mem_tcRefs main_arg12, by decide⟩)).trans (V10_main_arg12 m outs c),
        (h (Proc.devRef .tc main_arg13) (Finset.mem_filter.mpr ⟨StableHlo.devRef_mem_tcRefs main_arg13, by decide⟩)).trans (V10_main_arg13 m outs c),
        (h (Proc.devRef .tc main_arg14) (Finset.mem_filter.mpr ⟨StableHlo.devRef_mem_tcRefs main_arg14, by decide⟩)).trans (V10_main_arg14 m outs c),
        (h (Proc.devRef .tc main_arg15) (Finset.mem_filter.mpr ⟨StableHlo.devRef_mem_tcRefs main_arg15, by decide⟩)).trans (V10_main_arg15 m outs c),
        (h (Proc.devRef .tc main_arg16) (Finset.mem_filter.mpr ⟨StableHlo.devRef_mem_tcRefs main_arg16, by decide⟩)).trans (V10_main_arg16 m outs c),
        (h (Proc.devRef .tc main_arg17) (Finset.mem_filter.mpr ⟨StableHlo.devRef_mem_tcRefs main_arg17, by decide⟩)).trans (V10_main_arg17 m outs c),
        (h (Proc.devRef .tc main_arg18) (Finset.mem_filter.mpr ⟨StableHlo.devRef_mem_tcRefs main_arg18, by decide⟩)).trans (V10_main_arg18 m outs c),
        (h (Proc.devRef .tc main_arg19) (Finset.mem_filter.mpr ⟨StableHlo.devRef_mem_tcRefs main_arg19, by decide⟩)).trans (V10_main_arg19 m outs c)⟩
    · iexact HSI

end Cert.KernelIdeal.Hand

end
-- ==== Proof.KI.RunVals.lean ====
/-
  THE KERNEL PROGRAM'S RUN WITH ITS RESULTS: every weakly fair execution of @main ends, nothing faults, the two result
  buffers hold what the chain of contents holds there at the end, and the argument arrays end as launched.
-/
import proofs.«428612_j50654844289863_1_alg».proof.Proof.KI.Run
import proofs.«428612_j50654844289863_1_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The run, its two results named by the chain's last contents. -/
theorem run_vals (ρ : Dev nD → PrngReg) : θ_run defs (onTc (τ := τ) (main (F := F))) ⟨m, fun _ => 0, ρ⟩ (fun r => ∀ c : Dev nD,
      r.2.mem ((c.tc : Thread nD τ).loc main_v36) = W10 m c main_v36
      ∧ r.2.mem ((c.tc : Thread nD τ).loc main_v29) = W10 m c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c).1.trans (by rw [V10_eq]), (h c).2.1.trans (by rw [V10_eq]), (h c).2.2⟩)
  (run_cond (F := F) m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := reg0 m) (hpre0 := fun c => by rw [V1_eq]; exact .rfl) (hpost0 := fun c => by rw [V2_eq]; exact .rfl)
    (R1 := reg1 m) (hpre1 := fun c => by rw [V7_eq]; exact .rfl) (hpost1 := fun c => by rw [V8_eq]; exact .rfl)
    (R2 := reg2 m) (hpre2 := fun c => by rw [V9_eq]; exact .rfl) (hpost2 := fun c => by rw [V10_eq]; exact .rfl))

end Cert.KernelIdeal.Hand

end
-- ==== Proof.LibContract.lean ====
/-
  A matrix product with ONE contracted axis, read at an output index over the extended reals.

  The matrix unit's product into a zero accumulator is, at an output index j, the sum over the contraction
  index of the products of the two operands at the operand indices the dimension numbers give. When a single
  axis is contracted, of extent K, the contraction index is that axis's coordinate, and the sum is a sum over
  `Fin K`. The caller names the operand index at coordinate k on each side.
-/
import Idealize.ShloMosaic.PureOps.Ideal
import Idealize.ShloMosaic.PureOps.Ideal.Laws
import Idealize.ShloMosaic.Lib.ValueIdx

noncomputable section

open scoped BigOperators

namespace Idealize.ShloMosaic.Contract

open Idealize.ShloMosaic Idealize.ShloMosaic.ValueIdx

/-- With no batch axes and ONE free (non-contracted) axis on the left operand, the left operand's index on that axis
    is the output index's first coordinate. (The library has the companion fact for the contracted axis,
    `DotDims.lhsIdx_val_of_single`; this is proved the same way: the position of the axis in a one-element list is 0.) -/
theorem lhsIdx_val_of_free {sl sr so : Shape} (d : DotDims sl sr so) {nl : Fin sl.rank} (hb : d.lhsBatch = [])
    (hn : d.lhsNonContracting = [nl]) (h0 : 0 < so.rank) (j : so.Idx) (k : d.contr.Idx) :
    (d.lhsIdx j k nl).val = (j ⟨0, h0⟩).val := by
  have hmem : nl ∈ d.lhsNonContracting := by rw [hn]; exact List.mem_singleton.mpr rfl
  unfold DotDims.lhsIdx
  rw [dif_neg (by rw [hb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axes, one free axis on the left and ONE free axis on the right operand, the right operand's index
    on its free axis is the output index's second coordinate. -/
theorem rhsIdx_val_of_free {sl sr so : Shape} (d : DotDims sl sr so) {nl : Fin sl.rank} {nr : Fin sr.rank}
    (hbl : d.lhsBatch = []) (hbr : d.rhsBatch = []) (hnl : d.lhsNonContracting = [nl]) (hnr : d.rhsNonContracting = [nr])
    (h1 : 1 < so.rank) (j : so.Idx) (k : d.contr.Idx) :
    (d.rhsIdx j k nr).val = (j ⟨1, h1⟩).val := by
  have hmem : nr ∈ d.rhsNonContracting := by rw [hnr]; exact List.mem_singleton.mpr rfl
  unfold DotDims.rhsIdx
  rw [dif_neg (by rw [hbr]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hbl, hnl, hnr])

/-- A product into the zero accumulator with one contracted axis of extent `K`, at output index `j`: the sum over
    `k : Fin K` of the left operand at `li k` times the right operand at `ri k`, where `li k` and `ri k` are the
    operand indices of contraction coordinate `k`. -/
theorem matmul_zero_single {sl sr so : Shape} {φ₁ φ₂ : FTy} (d : DotDims sl sr so) (prec : Option ContractPrecision) (K : Nat)
    (hr : d.contr.rank = 1) (hs : d.contr.size ⟨0, by omega⟩ = K)
    (L : FVec Ideal sl φ₁) (R : FVec Ideal sr φ₂) (j : so.Idx) (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    FloatOps.matmul d prec L R (constant so .f32 0x00000000#32) j = ∑ k : Fin K, L (li k) * R (ri k) := by
  rw [Ideal.matmul_constant_zero_apply, ← Equiv.sum_comp (contrEquiv1 d K hr hs).symm]
  exact Finset.sum_congr rfl fun k _ => by rw [hl k, hrr k]

/-- ROWS TIMES COLUMNS: a product of an `A × K` by a `K × B` matrix into the zero accumulator (left axis 1 against right
    axis 0, no batch axes), at entry `(p, h)`: the sum over `k` of `L[p,k] · R[k,h]`. At a literal dimension record every
    hypothesis is `rfl`. -/
theorem matmul_zero_rows_cols {A K B : Nat} {φ₁ φ₂ : FTy}
    (d : DotDims (⟨2, ![A, K]⟩ : Shape) (⟨2, ![K, B]⟩ : Shape) (⟨2, ![A, B]⟩ : Shape)) (prec : Option ContractPrecision)
    (hr : d.contr.rank = 1) (hs : d.contr.size ⟨0, by omega⟩ = K)
    (hbl : d.lhsBatch = []) (hbr : d.rhsBatch = []) (hnl : d.lhsNonContracting = [0]) (hnr : d.rhsNonContracting = [1])
    (hcl : d.lhsContracting = [1]) (hcr : d.rhsContracting = [0])
    (L : FVec Ideal (⟨2, ![A, K]⟩ : Shape) φ₁) (R : FVec Ideal (⟨2, ![K, B]⟩ : Shape) φ₂) (p : Fin A) (h : Fin B) :
    FloatOps.matmul d prec L R (constant (⟨2, ![A, B]⟩ : Shape) .f32 0x00000000#32) (ix2 p h)
      = ∑ k : Fin K, L (ix2 p k) * R (ix2 k h) := by
  refine matmul_zero_single d prec K hr hs L R (ix2 p h) (fun k => ix2 p k) (fun k => ix2 k h) (fun k => ?_) (fun k => ?_)
  · have hk := contrEquiv1_symm_val d K hr hs k
    exact funext fun a => Fin.ext (by
      match a with
      | ⟨0, _⟩ => exact lhsIdx_val_of_free d hbl hnl Nat.zero_lt_two _ _
      | ⟨1, _⟩ => exact (d.lhsIdx_val_of_single hcl _ _).trans hk)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

/-- COLUMNS TIMES COLUMNS: a product of a `K × A` by a `K × B` matrix into the zero accumulator, contracting the FIRST
    axis of both (the left operand used transposed), at entry `(p, h)`: the sum over `k` of `L[k,p] · R[k,h]`. -/
theorem matmul_zero_cols_cols {A K B : Nat} {φ₁ φ₂ : FTy}
    (d : DotDims (⟨2, ![K, A]⟩ : Shape) (⟨2, ![K, B]⟩ : Shape) (⟨2, ![A, B]⟩ : Shape)) (prec : Option ContractPrecision)
    (hr : d.contr.rank = 1) (hs : d.contr.size ⟨0, by omega⟩ = K)
    (hbl : d.lhsBatch = []) (hbr : d.rhsBatch = []) (hnl : d.lhsNonContracting = [1]) (hnr : d.rhsNonContracting = [1])
    (hcl : d.lhsContracting = [0]) (hcr : d.rhsContracting = [0])
    (L : FVec Ideal (⟨2, ![K, A]⟩ : Shape) φ₁) (R : FVec Ideal (⟨2, ![K, B]⟩ : Shape) φ₂) (p : Fin A) (h : Fin B) :
    FloatOps.matmul d prec L R (constant (⟨2, ![A, B]⟩ : Shape) .f32 0x00000000#32) (ix2 p h)
      = ∑ k : Fin K, L (ix2 k p) * R (ix2 k h) := by
  refine matmul_zero_single d prec K hr hs L R (ix2 p h) (fun k => ix2 k p) (fun k => ix2 k h) (fun k => ?_) (fun k => ?_)
  · have hk := contrEquiv1_symm_val d K hr hs k
    exact funext fun a => Fin.ext (by
      match a with
      | ⟨0, _⟩ => exact (d.lhsIdx_val_of_single hcl _ _).trans hk
      | ⟨1, _⟩ => exact lhsIdx_val_of_free d hbl hnl Nat.zero_lt_two _ _)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

/-- The host's product with one contracted axis, the same way. -/
theorem dotGeneral_single {sl sr so : Shape} {φ₁ φ₂ : FTy} (d : DotDims sl sr so) (prec : Option ContractPrecision)
    (sched : HostSchedule) (K : Nat)
    (hr : d.contr.rank = 1) (hs : d.contr.size ⟨0, by omega⟩ = K)
    (L : FVec Ideal sl φ₁) (R : FVec Ideal sr φ₂) (j : so.Idx) (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    FloatOps.dotGeneral d prec sched L R j = ∑ k : Fin K, L (li k) * R (ri k) := by
  rw [Ideal.dotGeneral_apply, ← Equiv.sum_comp (contrEquiv1 d K hr hs).symm]
  exact Finset.sum_congr rfl fun k _ => by rw [hl k, hrr k]

/-- The host's product of an `A × K` by a `K × B` matrix (left axis 1 against right axis 0), at entry `(p, h)`. -/
theorem dotGeneral_rows_cols {A K B : Nat} {φ₁ φ₂ : FTy}
    (d : DotDims (⟨2, ![A, K]⟩ : Shape) (⟨2, ![K, B]⟩ : Shape) (⟨2, ![A, B]⟩ : Shape)) (prec : Option ContractPrecision)
    (sched : HostSchedule)
    (hr : d.contr.rank = 1) (hs : d.contr.size ⟨0, by omega⟩ = K)
    (hbl : d.lhsBatch = []) (hbr : d.rhsBatch = []) (hnl : d.lhsNonContracting = [0]) (hnr : d.rhsNonContracting = [1])
    (hcl : d.lhsContracting = [1]) (hcr : d.rhsContracting = [0])
    (L : FVec Ideal (⟨2, ![A, K]⟩ : Shape) φ₁) (R : FVec Ideal (⟨2, ![K, B]⟩ : Shape) φ₂) (p : Fin A) (h : Fin B) :
    FloatOps.dotGeneral d prec sched L R (ix2 p h) = ∑ k : Fin K, L (ix2 p k) * R (ix2 k h) := by
  refine dotGeneral_single d prec sched K hr hs L R (ix2 p h) (fun k => ix2 p k) (fun k => ix2 k h) (fun k => ?_) (fun k => ?_)
  · have hk := contrEquiv1_symm_val d K hr hs k
    exact funext fun a => Fin.ext (by
      match a with
      | ⟨0, _⟩ => exact lhsIdx_val_of_free d hbl hnl Nat.zero_lt_two _ _
      | ⟨1, _⟩ => exact (d.lhsIdx_val_of_single hcl _ _).trans hk)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

end Idealize.ShloMosaic.Contract

end
-- ==== Proof.LibGatherRow.lean ====
/-
  `stablehlo.gather` of whole ROWS of a rank-2 table at a column of start indices, read at an index.

  What `table[idx]` of a table `[N, D]` at an integer vector `idx : [R]` lowers to: a gather with offset_dims `[1]`,
  collapsed_slice_dims `[0]`, start_index_map `[0]`, slice_sizes `[1, D]` and index_vector_dim 1 over the indices as
  `[R, 1]`. Result element `(e, j)` is the table's entry in column `j` of the row whose number is the start index
  `idx[e, 0]` read as a signed integer and clamped into `[0, N − 1]` (every start index is clamped so that the slice
  fits). The row read depends on the indices and on `e` only, never on the table: a gather of rows commutes with every
  function applied row by row.
-/
import Idealize.ShloMosaic.PureOps
import Idealize.ShloMosaic.Lib.ValueIdx

noncomputable section

namespace Idealize.ShloMosaic.GatherRow

open Idealize.ShloMosaic Idealize.ShloMosaic.ValueIdx

variable {α : Type}

/-- Those dimension numbers for a table `[N, D]`, start indices `[R, 1]` and result `[R, D]`; their conditions are
    decided on a program's literal shapes. -/
abbrev dims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The table row that result row `e` reads: the start index `idx[e, 0]`, signed, clamped into `[0, N − 1]`. -/
def sel {N R w : Nat} (hN : 0 < N) (idx : IVec ⟨2, ![R, 1]⟩ w) (e : Fin R) : Fin N :=
  ⟨min (idx (ix2 e (0 : Fin 1))).toInt.toNat (N - 1), by omega⟩

/-- The start-indices index at which result index `y` reads its one start component: `[y 0, 0]` (the batch
    coordinate of `y` on axis 0, and `0` on the size-1 index-vector axis). -/
theorem siIdx_row {N D R : Nat}
    (wf : GatherDims.WF ⟨2, ![N, D]⟩ ⟨2, ![R, 1]⟩ ⟨2, ![R, D]⟩ [1] [0] [] [0] [] 1 ![1, D])
    (y : (⟨2, ![R, D]⟩ : Shape).Idx) (c : Fin (dims N D R wf).startIndexMap.length) :
    (dims N D R wf).siIdx y c = ix2 (⟨(y 0).val, (y 0).isLt⟩ : Fin R) (0 : Fin 1) := by
  funext b
  refine Fin.ext ?_
  match b with
  | ⟨0, _⟩ => rfl
  | ⟨1, _⟩ =>
    show c.val = 0
    have := c.isLt
    simp only [List.length_singleton] at this
    omega

/-- Operand axis 1 is a kept axis of the row gather: neither collapsed nor batching. -/
theorem one_mem_sKept {N D R : Nat}
    (wf : GatherDims.WF ⟨2, ![N, D]⟩ ⟨2, ![R, 1]⟩ ⟨2, ![R, D]⟩ [1] [0] [] [0] [] 1 ![1, D]) :
    (1 : Fin 2) ∈ (dims N D R wf).sKept :=
  (GatherDims.mem_sKept _ _).mpr ⟨(by decide : (1 : Fin 2) ∉ [0]), List.not_mem_nil⟩

/-- THE GATHER READ AT `(e, j)`: the table at row `sel idx e` and column `j`. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (dims N D R wf) x idx y
      = x (ix2 (sel hN idx ⟨(y 0).val, (y 0).isLt⟩) (⟨(y 1).val, (y 1).isLt⟩ : Fin D)) := by
  unfold Host.gather
  congr 1
  funext a
  refine Fin.ext ?_
  match a with
  | ⟨0, _⟩ =>
    -- axis 0 is in the start index map and collapsed: the coordinate is the clamped start alone
    show (dims N D R wf).start y idx 0 + (dims N D R wf).batchCoord y 0 + (dims N D R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims N D R wf).startIndexMap from List.mem_singleton.mpr rfl), siIdx_row]
    rfl
  | ⟨1, _⟩ =>
    -- axis 1 is outside the start index map and kept: the coordinate is the result's offset coordinate alone
    show (dims N D R wf).start y idx 1 + (dims N D R wf).batchCoord y 1 + (dims N D R wf).offCoord y 1 = (y 1).val
    rw [GatherDims.batchCoord_eq_zero _ _ _ List.not_mem_nil]
    unfold GatherDims.start GatherDims.offCoord
    rw [dif_neg (show ¬ (1 : Fin 2) ∈ (dims N D R wf).startIndexMap from (by decide : (1 : Fin 2) ∉ [0])),
      dif_pos (one_mem_sKept wf)]
    simp only [Nat.zero_add]
    rfl

end Idealize.ShloMosaic.GatherRow

end
-- ==== Proof.LibRowOps.lean ====
/-
  Matrices of extended reals read ROW BY ROW, and the printed operations that act on rows.

  A multilayer perceptron acts on each row of its input matrix by itself: entry (p, h) of the result depends on row p of
  the input (and on the whole weight matrix and bias) only. This file names that structure. `rows1 f X` is the matrix
  whose row p is `f` of row p of `X` (`rows2`, `rows3`: of the rows p of two or three matrices with the same number of
  rows); `dense W b` is the affine map x ↦ x·W + b on a row; `relu` the positive part of a row; `cat2`, `cat3`, `cat5`
  put rows side by side; `lo` and `hi` cut a row in two.
  Then each printed operation is identified with its row form, as a whole array: a matrix product into the zero
  accumulator followed by a broadcast bias (the kernel's spelling: a cast to one row and a broadcast over the rows; the
  host's: two `broadcast_in_dim`), with and without the positive part; a concatenation of two, three or five matrices along
  the column axis; a unit-stride slice of columns; a gather of whole rows.
  Nothing here needs finiteness: sums and products of extended reals are only regrouped, never distributed or cancelled.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«428612_j50654844289863_1_alg».proof.Proof.LibContract
import proofs.«428612_j50654844289863_1_alg».proof.Proof.LibGatherRow

noncomputable section

open scoped BigOperators

namespace Idealize.ShloMosaic.RowOps

open Idealize.ShloMosaic Idealize.ShloMosaic.ValueIdx

/-- An `A × B` matrix of extended reals. -/
abbrev Mat (A B : Nat) : Type := FVec Ideal (⟨2, ![A, B]⟩ : Shape) .f32
/-- A vector of `B` extended reals, as a rank-1 array. -/
abbrev Arr (B : Nat) : Type := FVec Ideal (⟨1, ![B]⟩ : Shape) .f32

/-- Row `p` of a matrix. -/
def row {A C : Nat} (X : Mat A C) (p : Fin A) : Fin C → EReal := fun k => X (ix2 p k)

/-- The affine map of a layer on one row: `(x·W + b)[h] = Σₖ x[k]·W[k,h] + b[h]`. -/
def dense {K B : Nat} (W : Mat K B) (b : Arr B) (x : Fin K → EReal) : Fin B → EReal :=
  fun h => (∑ k : Fin K, x k * W (ix2 k h)) + b (ix1 h)

/-- The positive part of a row. -/
def relu {B : Nat} (y : Fin B → EReal) : Fin B → EReal := fun h => max (y h) 0

/-- Two rows side by side, as a row of length `n` (`n = a + b` wherever it is used). -/
def cat2 {a b n : Nat} (x : Fin a → EReal) (y : Fin b → EReal) : Fin n → EReal :=
  fun k => if h : k.val < a then x ⟨k.val, h⟩ else if h2 : k.val - a < b then y ⟨k.val - a, h2⟩ else 0

/-- Three rows side by side. -/
def cat3 {a b c n : Nat} (x : Fin a → EReal) (y : Fin b → EReal) (z : Fin c → EReal) : Fin n → EReal :=
  cat2 x (cat2 (n := b + c) y z)

/-- Five rows side by side. -/
def cat5 {a b c d e n : Nat} (x : Fin a → EReal) (y : Fin b → EReal) (z : Fin c → EReal) (u : Fin d → EReal)
    (v : Fin e → EReal) : Fin n → EReal :=
  cat2 x (cat2 (n := b + (c + (d + e))) y (cat2 (n := c + (d + e)) z (cat2 (n := d + e) u v)))

/-- The first `a` entries of a row of length `n`. -/
def lo {n : Nat} (a : Nat) (ha : a ≤ n) (x : Fin n → EReal) : Fin a → EReal := fun k => x ⟨k.val, by omega⟩
/-- The `b` entries of a row from position `a` on. -/
def hi {n : Nat} (a b : Nat) (hab : a + b ≤ n) (x : Fin n → EReal) : Fin b → EReal := fun k => x ⟨a + k.val, by omega⟩

/-- The matrix whose row `p` is `f` of row `p` of `X`. -/
def rows1 {A C D : Nat} (f : (Fin C → EReal) → Fin D → EReal) (X : Mat A C) : Mat A D :=
  fun j => f (row X ⟨(j 0).val, idx2_lt0 j⟩) ⟨(j 1).val, idx2_lt1 j⟩
/-- The matrix whose row `p` is `f` of the rows `p` of `X` and `Y`. -/
def rows2 {A C₁ C₂ D : Nat} (f : (Fin C₁ → EReal) → (Fin C₂ → EReal) → Fin D → EReal) (X : Mat A C₁) (Y : Mat A C₂) :
    Mat A D :=
  fun j => f (row X ⟨(j 0).val, idx2_lt0 j⟩) (row Y ⟨(j 0).val, idx2_lt0 j⟩) ⟨(j 1).val, idx2_lt1 j⟩
/-- The matrix whose row `p` is `f` of the rows `p` of `X`, `Y` and `Z`. -/
def rows3 {A C₁ C₂ C₃ D : Nat} (f : (Fin C₁ → EReal) → (Fin C₂ → EReal) → (Fin C₃ → EReal) → Fin D → EReal)
    (X : Mat A C₁) (Y : Mat A C₂) (Z : Mat A C₃) : Mat A D :=
  fun j => f (row X ⟨(j 0).val, idx2_lt0 j⟩) (row Y ⟨(j 0).val, idx2_lt0 j⟩) (row Z ⟨(j 0).val, idx2_lt0 j⟩)
    ⟨(j 1).val, idx2_lt1 j⟩

theorem rows1_apply {A C D : Nat} (f : (Fin C → EReal) → Fin D → EReal) (X : Mat A C) (p : Fin A) (h : Fin D) :
    rows1 f X (ix2 p h) = f (row X p) h := rfl
theorem rows2_apply {A C₁ C₂ D : Nat} (f : (Fin C₁ → EReal) → (Fin C₂ → EReal) → Fin D → EReal) (X : Mat A C₁)
    (Y : Mat A C₂) (p : Fin A) (h : Fin D) : rows2 f X Y (ix2 p h) = f (row X p) (row Y p) h := rfl
theorem rows3_apply {A C₁ C₂ C₃ D : Nat} (f : (Fin C₁ → EReal) → (Fin C₂ → EReal) → (Fin C₃ → EReal) → Fin D → EReal)
    (X : Mat A C₁) (Y : Mat A C₂) (Z : Mat A C₃) (p : Fin A) (h : Fin D) :
    rows3 f X Y Z (ix2 p h) = f (row X p) (row Y p) (row Z p) h := rfl

/-- Two matrices are equal when their entries at every `(p, h)` are. -/
theorem mat_ext {A B : Nat} {X Y : Mat A B} (h : ∀ (p : Fin A) (q : Fin B), X (ix2 p q) = Y (ix2 p q)) : X = Y :=
  funext fun j => by rw [eq_ix2 j]; exact h _ _

/-- Row `p` of a row-wise matrix is the function of row `p`. -/
theorem row_rows1 {A C D : Nat} (f : (Fin C → EReal) → Fin D → EReal) (X : Mat A C) (p : Fin A) :
    row (rows1 f X) p = f (row X p) := rfl
theorem row_rows2 {A C₁ C₂ D : Nat} (f : (Fin C₁ → EReal) → (Fin C₂ → EReal) → Fin D → EReal) (X : Mat A C₁)
    (Y : Mat A C₂) (p : Fin A) : row (rows2 f X Y) p = f (row X p) (row Y p) := rfl
theorem row_rows3 {A C₁ C₂ C₃ D : Nat} (f : (Fin C₁ → EReal) → (Fin C₂ → EReal) → (Fin C₃ → EReal) → Fin D → EReal)
    (X : Mat A C₁) (Y : Mat A C₂) (Z : Mat A C₃) (p : Fin A) :
    row (rows3 f X Y Z) p = f (row X p) (row Y p) (row Z p) := rfl

/-- The matrix whose row `p` is `f` of the rows `p` of five matrices. -/
def rows5 {A C₁ C₂ C₃ C₄ C₅ D : Nat}
    (f : (Fin C₁ → EReal) → (Fin C₂ → EReal) → (Fin C₃ → EReal) → (Fin C₄ → EReal) → (Fin C₅ → EReal) → Fin D → EReal)
    (X₁ : Mat A C₁) (X₂ : Mat A C₂) (X₃ : Mat A C₃) (X₄ : Mat A C₄) (X₅ : Mat A C₅) : Mat A D :=
  fun j => f (row X₁ ⟨(j 0).val, idx2_lt0 j⟩) (row X₂ ⟨(j 0).val, idx2_lt0 j⟩) (row X₃ ⟨(j 0).val, idx2_lt0 j⟩)
    (row X₄ ⟨(j 0).val, idx2_lt0 j⟩) (row X₅ ⟨(j 0).val, idx2_lt0 j⟩) ⟨(j 1).val, idx2_lt1 j⟩

/-- The matrix whose row `e` is row `σ e` of `X`. -/
def selRows {N R D : Nat} (σ : Fin R → Fin N) (X : Mat N D) : Mat R D :=
  fun j => X (ix2 (σ ⟨(j 0).val, idx2_lt0 j⟩) (⟨(j 1).val, idx2_lt1 j⟩ : Fin D))

theorem row_selRows {N R D : Nat} (σ : Fin R → Fin N) (X : Mat N D) (e : Fin R) : row (selRows σ X) e = row X (σ e) := rfl

/-! ## Cutting a row that was put together -/

theorem hi_cat2_left {a b n : Nat} (hab : 0 + a ≤ n) (x : Fin a → EReal) (y : Fin b → EReal) :
    hi 0 a hab (cat2 (n := n) x y) = x := by
  funext k
  unfold hi cat2
  have hk : (0 + k.val) < a := by have := k.isLt; omega
  simp only [dif_pos hk]
  exact congrArg x (Fin.ext (by simp))

theorem hi_cat2_right {a b n : Nat} (hab : a + b ≤ n) (x : Fin a → EReal) (y : Fin b → EReal) :
    hi a b hab (cat2 (n := n) x y) = y := by
  funext k
  unfold hi cat2
  have hk : ¬ (a + k.val) < a := by omega
  have hk2 : (a + k.val) - a < b := by have := k.isLt; omega
  simp only [dif_neg hk, dif_pos hk2]
  exact congrArg y (Fin.ext (by simp))

end Idealize.ShloMosaic.RowOps

end
-- ==== Proof.LibRowLayout.lean ====
/-
  CONCATENATIONS ALONG THE COLUMN AXIS, COLUMN SLICES AND ROW GATHERS, row by row: a concatenation of matrices with the
  same number of rows puts their rows side by side (`cat2`, `cat3`, `cat5`); a unit-stride slice of columns cuts every row
  (`hi`); a gather of whole rows selects rows (`selRows`).
-/
import proofs.«428612_j50654844289863_1_alg».proof.Proof.LibRowOps

noncomputable section

open scoped BigOperators

namespace Idealize.ShloMosaic.RowOps

open Idealize.ShloMosaic Idealize.ShloMosaic.ValueIdx

/-- Two matrices side by side. -/
theorem concat2_rows {A a b n : Nat} (X : Mat A a) (Y : Mat A b)
    (h : Shape.Concatenates [(⟨2, ![A, a]⟩ : Shape), (⟨2, ![A, b]⟩ : Shape)] (⟨2, ![A, n]⟩ : Shape) 1) :
    concatenate (⟨2, ![A, n]⟩ : Shape) 1 [⟨(⟨2, ![A, a]⟩ : Shape), X⟩, ⟨(⟨2, ![A, b]⟩ : Shape), Y⟩] h
      = rows2 (fun x y => cat2 x y) X Y := by
  -- the two widths add up to the result's
  have hn : a + b = n := by
    have hs := h.2.2
    simpa using hs
  refine mat_ext fun p k => ?_
  rw [rows2_apply]
  by_cases hk : k.val < a
  · -- a column of the first matrix
    rw [concatenate_pair_apply_left (1 : Fin 2) X Y h (ix2 p k) rfl (ix2 p ⟨k.val, hk⟩)
      (fun d => by match d with | ⟨0, _⟩ => rfl | ⟨1, _⟩ => rfl)]
    unfold cat2
    rw [dif_pos hk]
    rfl
  · -- a column of the second matrix, the first width less
    have hk2 : k.val - a < b := by have := k.isLt; omega
    rw [concatenate_pair_apply_right (1 : Fin 2) X Y h (ix2 p k) rfl rfl (ix2 p ⟨k.val - a, hk2⟩)
      (fun d hd => by match d, hd with | ⟨0, _⟩, _ => rfl | ⟨1, _⟩, hd => exact absurd rfl hd)
      (by show (k.val - a) + a = k.val; omega)]
    unfold cat2
    rw [dif_neg hk, dif_pos hk2]
    rfl

/-- Three matrices side by side. -/
theorem concat3_rows {A a b c n : Nat} (X : Mat A a) (Y : Mat A b) (Z : Mat A c)
    (h : Shape.Concatenates [(⟨2, ![A, a]⟩ : Shape), (⟨2, ![A, b]⟩ : Shape), (⟨2, ![A, c]⟩ : Shape)] (⟨2, ![A, n]⟩ : Shape) 1) :
    concatenate (⟨2, ![A, n]⟩ : Shape) 1
        [⟨(⟨2, ![A, a]⟩ : Shape), X⟩, ⟨(⟨2, ![A, b]⟩ : Shape), Y⟩, ⟨(⟨2, ![A, c]⟩ : Shape), Z⟩] h
      = rows3 (fun x y z => cat3 x y z) X Y Z := by
  -- the three widths add up to the result's
  have hn : a + (b + c) = n := by
    have hs := h.2.2
    simpa using hs
  refine mat_ext fun p k => ?_
  rw [rows3_apply]
  unfold cat3
  have hkn := k.isLt
  have HP := concatenate_apply_piece (t := (⟨2, ![A, n]⟩ : Shape)) (1 : Fin 2)
    [⟨(⟨2, ![A, a]⟩ : Shape), X⟩, ⟨(⟨2, ![A, b]⟩ : Shape), Y⟩, ⟨(⟨2, ![A, c]⟩ : Shape), Z⟩] h (ix2 p k)
  by_cases hk : k.val < a
  · -- a column of the first matrix
    refine (HP 0 (by simp) _ X rfl rfl 0 rfl (ix2 p ⟨k.val, hk⟩)
      (fun d hd => by match d, hd with | ⟨0, _⟩, _ => rfl | ⟨1, _⟩, hd => exact absurd rfl hd)
      (by show 0 + k.val = k.val; omega)).trans ?_
    unfold cat2
    rw [dif_pos hk]
    rfl
  · have hk2 : k.val - a < b + c := by omega
    by_cases hkb : k.val - a < b
    · -- a column of the second matrix
      refine (HP 1 (by simp) _ Y rfl rfl a rfl (ix2 p ⟨k.val - a, hkb⟩)
        (fun d hd => by match d, hd with | ⟨0, _⟩, _ => rfl | ⟨1, _⟩, hd => exact absurd rfl hd)
        (by show a + (k.val - a) = k.val; omega)).trans ?_
      unfold cat2
      rw [dif_neg hk, dif_pos hk2]
      simp only [dif_pos hkb]
      rfl
    · -- a column of the third matrix
      have hkc : k.val - a - b < c := by omega
      refine (HP 2 (by simp) _ Z rfl rfl (a + b) rfl (ix2 p ⟨k.val - a - b, hkc⟩)
        (fun d hd => by match d, hd with | ⟨0, _⟩, _ => rfl | ⟨1, _⟩, hd => exact absurd rfl hd)
        (by show a + b + (k.val - a - b) = k.val; omega)).trans ?_
      unfold cat2
      rw [dif_neg hk, dif_pos hk2]
      simp only [dif_neg hkb, dif_pos hkc]
      rfl

/-- Five matrices side by side. -/
theorem concat5_rows {A a b c d e n : Nat} (X₁ : Mat A a) (X₂ : Mat A b) (X₃ : Mat A c) (X₄ : Mat A d) (X₅ : Mat A e)
    (h : Shape.Concatenates [(⟨2, ![A, a]⟩ : Shape), (⟨2, ![A, b]⟩ : Shape), (⟨2, ![A, c]⟩ : Shape), (⟨2, ![A, d]⟩ : Shape),
      (⟨2, ![A, e]⟩ : Shape)] (⟨2, ![A, n]⟩ : Shape) 1) :
    concatenate (⟨2, ![A, n]⟩ : Shape) 1
        [⟨(⟨2, ![A, a]⟩ : Shape), X₁⟩, ⟨(⟨2, ![A, b]⟩ : Shape), X₂⟩, ⟨(⟨2, ![A, c]⟩ : Shape), X₃⟩,
          ⟨(⟨2, ![A, d]⟩ : Shape), X₄⟩, ⟨(⟨2, ![A, e]⟩ : Shape), X₅⟩] h
      = rows5 (fun x₁ x₂ x₃ x₄ x₅ => cat5 x₁ x₂ x₃ x₄ x₅) X₁ X₂ X₃ X₄ X₅ := by
  -- the five widths add up to the result's
  have hn : a + (b + (c + (d + e))) = n := by
    have hs := h.2.2
    simpa using hs
  refine mat_ext fun p k => ?_
  show _ = cat5 (row X₁ p) (row X₂ p) (row X₃ p) (row X₄ p) (row X₅ p) k
  unfold cat5
  have hkn := k.isLt
  have HP := concatenate_apply_piece (t := (⟨2, ![A, n]⟩ : Shape)) (1 : Fin 2)
    [⟨(⟨2, ![A, a]⟩ : Shape), X₁⟩, ⟨(⟨2, ![A, b]⟩ : Shape), X₂⟩, ⟨(⟨2, ![A, c]⟩ : Shape), X₃⟩,
      ⟨(⟨2, ![A, d]⟩ : Shape), X₄⟩, ⟨(⟨2, ![A, e]⟩ : Shape), X₅⟩] h (ix2 p k)
  by_cases hk : k.val < a
  · -- a column of the first matrix
    refine (HP 0 (by simp) _ X₁ rfl rfl 0 rfl (ix2 p ⟨k.val, hk⟩)
      (fun d hd => by match d, hd with | ⟨0, _⟩, _ => rfl | ⟨1, _⟩, hd => exact absurd rfl hd)
      (by show 0 + k.val = k.val; omega)).trans ?_
    unfold cat2
    rw [dif_pos hk]
    rfl
  · have hk2 : k.val - a < b + (c + (d + e)) := by omega
    by_cases hkb : k.val - a < b
    · -- a column of the second matrix
      refine (HP 1 (by simp) _ X₂ rfl rfl a rfl (ix2 p ⟨k.val - a, hkb⟩)
        (fun d hd => by match d, hd with | ⟨0, _⟩, _ => rfl | ⟨1, _⟩, hd => exact absurd rfl hd)
        (by show a + (k.val - a) = k.val; omega)).trans ?_
      unfold cat2
      rw [dif_neg hk, dif_pos hk2]
      simp only [dif_pos hkb]
      rfl
    · have hk3 : k.val - a - b < c + (d + e) := by omega
      by_cases hkc : k.val - a - b < c
      · -- a column of the third matrix
        refine (HP 2 (by simp) _ X₃ rfl rfl (a + b) rfl (ix2 p ⟨k.val - a - b, hkc⟩)
          (fun d hd => by match d, hd with | ⟨0, _⟩, _ => rfl | ⟨1, _⟩, hd => exact absurd rfl hd)
          (by show a + b + (k.val - a - b) = k.val; omega)).trans ?_
        unfold cat2
        rw [dif_neg hk, dif_pos hk2]
        simp only [dif_neg hkb, dif_pos hk3, dif_pos hkc]
        rfl
      · have hk4 : k.val - a - b - c < d + e := by omega
        by_cases hkd : k.val - a - b - c < d
        · -- a column of the fourth matrix
          refine (HP 3 (by simp) _ X₄ rfl rfl (a + (b + c)) rfl (ix2 p ⟨k.val - a - b - c, hkd⟩)
            (fun d hd => by match d, hd with | ⟨0, _⟩, _ => rfl | ⟨1, _⟩, hd => exact absurd rfl hd)
            (by show a + (b + c) + (k.val - a - b - c) = k.val; omega)).trans ?_
          unfold cat2
          rw [dif_neg hk, dif_pos hk2]
          simp only [dif_neg hkb, dif_pos hk3, dif_neg hkc, dif_pos hk4, dif_pos hkd]
          rfl
        · -- a column of the fifth matrix
          have hke : k.val - a - b - c - d < e := by omega
          refine (HP 4 (by simp) _ X₅ rfl rfl (a + (b + (c + d))) rfl (ix2 p ⟨k.val - a - b - c - d, hke⟩)
            (fun d hd => by match d, hd with | ⟨0, _⟩, _ => rfl | ⟨1, _⟩, hd => exact absurd rfl hd)
            (by show a + (b + (c + d)) + (k.val - a - b - c - d) = k.val; omega)).trans ?_
          unfold cat2
          rw [dif_neg hk, dif_pos hk2]
          simp only [dif_neg hkb, dif_pos hk3, dif_neg hkc, dif_pos hk4, dif_neg hkd, dif_pos hke]
          rfl

/-- A unit-stride slice of the columns `o … o + b − 1`. -/
theorem slice_cols {A n : Nat} (o b : Nat) (hob : o + b ≤ n) (X : Mat A n)
    (h : (⟨2, ![A, n]⟩ : Shape).Slices ![0, o] (⟨2, ![A, b]⟩ : Shape)) :
    extractStridedSlice (⟨2, ![A, b]⟩ : Shape) ![0, o] X h = rows1 (hi o b hob) X := by
  refine mat_ext fun p k => ?_
  rw [rows1_apply]
  have hk : o + k.val < n := by have := k.isLt; omega
  -- entry (p, k) of the slice is entry (p, o + k) of the matrix
  refine (extractStridedSlice_apply _ X h (ix2 p k) (ix2 p ⟨o + k.val, hk⟩) (fun d => ?_)).trans ?_
  · match d with
    | ⟨0, _⟩ => exact (Nat.zero_add p.val).symm
    | ⟨1, _⟩ => rfl
  · rfl

/-- A unit-stride slice of the first `a` ROWS, read at an entry. -/
theorem slice_top_apply {a n B : Nat} (han : a ≤ n) (W : Mat n B)
    (h : (⟨2, ![n, B]⟩ : Shape).Slices ![0, 0] (⟨2, ![a, B]⟩ : Shape)) (k : Fin a) (q : Fin B) :
    extractStridedSlice (⟨2, ![a, B]⟩ : Shape) ![0, 0] W h (ix2 k q) = W (ix2 (⟨k.val, by omega⟩ : Fin n) q) := by
  -- both offsets are zero: the entry keeps its coordinates
  refine extractStridedSlice_apply _ W h (ix2 k q) (ix2 (⟨k.val, by omega⟩ : Fin n) q) (fun d => ?_)
  match d with
  | ⟨0, _⟩ => exact (Nat.zero_add k.val).symm
  | ⟨1, _⟩ => exact (Nat.zero_add q.val).symm

/-- A gather of whole rows is a selection of rows: row `e` of the result is the table's row `GatherRow.sel idx e`. -/
theorem gather_selRows {N D R w : Nat} (hN : 0 < N)
    (wf : GatherDims.WF ⟨2, ![N, D]⟩ ⟨2, ![R, 1]⟩ ⟨2, ![R, D]⟩ [1] [0] [] [0] [] 1 ![1, D])
    (X : Mat N D) (idx : IVec ⟨2, ![R, 1]⟩ w) :
    Host.gather (GatherRow.dims N D R wf) X idx = selRows (GatherRow.sel hN idx) X :=
  funext fun y => GatherRow.gather_row_apply hN wf X idx y

end Idealize.ShloMosaic.RowOps

end
-- ==== Proof.LibRowCat4.lean ====
/-
  FOUR MATRICES SIDE BY SIDE, row by row, and what a row-wise map does to a row-wise matrix.

  `cat4` puts four rows side by side; `rows4 f` is the matrix whose row p is `f` of the rows p of four matrices with the
  same number of rows. A concatenation of four matrices along the column axis is `rows4 cat4`; cutting the pieces back
  out of a row that was put together returns them; and a row-wise map after a row-wise map is the row-wise map of the
  composite. Nothing here needs finiteness.
-/
import proofs.«428612_j50654844289863_1_alg».proof.Proof.LibRowOps
import proofs.«428612_j50654844289863_1_alg».proof.Proof.LibRowLayout

noncomputable section

open scoped BigOperators

namespace Idealize.ShloMosaic.RowOps

open Idealize.ShloMosaic Idealize.ShloMosaic.ValueIdx

/-- Four rows side by side, as a row of length `n` (`n = a + (b + (c + d))` wherever it is used). -/
def cat4 {a b c d n : Nat} (x : Fin a → EReal) (y : Fin b → EReal) (z : Fin c → EReal) (u : Fin d → EReal) : Fin n → EReal :=
  cat2 x (cat2 (n := b + (c + d)) y (cat2 (n := c + d) z u))

/-- The matrix whose row `p` is `f` of the rows `p` of four matrices. -/
def rows4 {A C₁ C₂ C₃ C₄ D : Nat}
    (f : (Fin C₁ → EReal) → (Fin C₂ → EReal) → (Fin C₃ → EReal) → (Fin C₄ → EReal) → Fin D → EReal)
    (X₁ : Mat A C₁) (X₂ : Mat A C₂) (X₃ : Mat A C₃) (X₄ : Mat A C₄) : Mat A D :=
  fun j => f (row X₁ ⟨(j 0).val, idx2_lt0 j⟩) (row X₂ ⟨(j 0).val, idx2_lt0 j⟩) (row X₃ ⟨(j 0).val, idx2_lt0 j⟩)
    (row X₄ ⟨(j 0).val, idx2_lt0 j⟩) ⟨(j 1).val, idx2_lt1 j⟩

theorem rows4_apply {A C₁ C₂ C₃ C₄ D : Nat}
    (f : (Fin C₁ → EReal) → (Fin C₂ → EReal) → (Fin C₃ → EReal) → (Fin C₄ → EReal) → Fin D → EReal)
    (X₁ : Mat A C₁) (X₂ : Mat A C₂) (X₃ : Mat A C₃) (X₄ : Mat A C₄) (p : Fin A) (h : Fin D) :
    rows4 f X₁ X₂ X₃ X₄ (ix2 p h) = f (row X₁ p) (row X₂ p) (row X₃ p) (row X₄ p) h := rfl

theorem row_rows4 {A C₁ C₂ C₃ C₄ D : Nat}
    (f : (Fin C₁ → EReal) → (Fin C₂ → EReal) → (Fin C₃ → EReal) → (Fin C₄ → EReal) → Fin D → EReal)
    (X₁ : Mat A C₁) (X₂ : Mat A C₂) (X₃ : Mat A C₃) (X₄ : Mat A C₄) (p : Fin A) :
    row (rows4 f X₁ X₂ X₃ X₄) p = f (row X₁ p) (row X₂ p) (row X₃ p) (row X₄ p) := rfl

/-- Four matrices side by side. -/
theorem concat4_rows {A a b c d n : Nat} (X₁ : Mat A a) (X₂ : Mat A b) (X₃ : Mat A c) (X₄ : Mat A d)
    (h : Shape.Concatenates [(⟨2, ![A, a]⟩ : Shape), (⟨2, ![A, b]⟩ : Shape), (⟨2, ![A, c]⟩ : Shape), (⟨2, ![A, d]⟩ : Shape)]
      (⟨2, ![A, n]⟩ : Shape) 1) :
    concatenate (⟨2, ![A, n]⟩ : Shape) 1
        [⟨(⟨2, ![A, a]⟩ : Shape), X₁⟩, ⟨(⟨2, ![A, b]⟩ : Shape), X₂⟩, ⟨(⟨2, ![A, c]⟩ : Shape), X₃⟩, ⟨(⟨2, ![A, d]⟩ : Shape), X₄⟩] h
      = rows4 (fun x₁ x₂ x₃ x₄ => cat4 x₁ x₂ x₃ x₄) X₁ X₂ X₃ X₄ := by
  -- the four widths add up to the result's
  have hn : a + (b + (c + d)) = n := by
    have hs := h.2.2
    simpa using hs
  refine mat_ext fun p k => ?_
  rw [rows4_apply]
  unfold cat4
  have hkn := k.isLt
  have HP := concatenate_apply_piece (t := (⟨2, ![A, n]⟩ : Shape)) (1 : Fin 2)
    [⟨(⟨2, ![A, a]⟩ : Shape), X₁⟩, ⟨(⟨2, ![A, b]⟩ : Shape), X₂⟩, ⟨(⟨2, ![A, c]⟩ : Shape), X₃⟩,
      ⟨(⟨2, ![A, d]⟩ : Shape), X₄⟩] h (ix2 p k)
  by_cases hk : k.val < a
  · -- a column of the first matrix
    refine (HP 0 (by simp) _ X₁ rfl rfl 0 rfl (ix2 p ⟨k.val, hk⟩)
      (fun d hd => by match d, hd with | ⟨0, _⟩, _ => rfl | ⟨1, _⟩, hd => exact absurd rfl hd)
      (by show 0 + k.val = k.val; omega)).trans ?_
    unfold cat2
    rw [dif_pos hk]
    rfl
  · have hk2 : k.val - a < b + (c + d) := by omega
    by_cases hkb : k.val - a < b
    · -- a column of the second matrix
      refine (HP 1 (by simp) _ X₂ rfl rfl a rfl (ix2 p ⟨k.val - a, hkb⟩)
        (fun d hd => by match d, hd with | ⟨0, _⟩, _ => rfl | ⟨1, _⟩, hd => exact absurd rfl hd)
        (by show a + (k.val - a) = k.val; omega)).trans ?_
      unfold cat2
      rw [dif_neg hk, dif_pos hk2]
      simp only [dif_pos hkb]
      rfl
    · have hk3 : k.val - a - b < c + d := by omega
      by_cases hkc : k.val - a - b < c
      · -- a column of the third matrix
        refine (HP 2 (by simp) _ X₃ rfl rfl (a + b) rfl (ix2 p ⟨k.val - a - b, hkc⟩)
          (fun d hd => by match d, hd with | ⟨0, _⟩, _ => rfl | ⟨1, _⟩, hd => exact absurd rfl hd)
          (by show a + b + (k.val - a - b) = k.val; omega)).trans ?_
        unfold cat2
        rw [dif_neg hk, dif_pos hk2]
        simp only [dif_neg hkb, dif_pos hk3, dif_pos hkc]
        rfl
      · -- a column of the fourth matrix
        have hkd : k.val - a - b - c < d := by omega
        refine (HP 3 (by simp) _ X₄ rfl rfl (a + (b + c)) rfl (ix2 p ⟨k.val - a - b - c, hkd⟩)
          (fun d hd => by match d, hd with | ⟨0, _⟩, _ => rfl | ⟨1, _⟩, hd => exact absurd rfl hd)
          (by show a + (b + c) + (k.val - a - b - c) = k.val; omega)).trans ?_
        unfold cat2
        rw [dif_neg hk, dif_pos hk2]
        simp only [dif_neg hkb, dif_pos hk3, dif_neg hkc, dif_pos hkd]
        rfl

/-! ## Cutting a row of four pieces -/

theorem hi_cat4_1 {a b c d n : Nat} (hn : a + (b + (c + d)) = n) (x : Fin a → EReal) (y : Fin b → EReal) (z : Fin c → EReal)
    (u : Fin d → EReal) : hi 0 a (by omega) (cat4 (n := n) x y z u) = x := by
  unfold cat4
  exact hi_cat2_left _ x _
theorem hi_cat4_2 {a b c d n : Nat} (hn : a + (b + (c + d)) = n) (x : Fin a → EReal) (y : Fin b → EReal) (z : Fin c → EReal)
    (u : Fin d → EReal) : hi a b (by omega) (cat4 (n := n) x y z u) = y := by
  funext k
  have hkb := k.isLt
  unfold hi cat4 cat2
  have h1 : ¬ (a + k.val) < a := by omega
  have h2 : (a + k.val) - a < b + (c + d) := by omega
  have h3 : (a + k.val) - a < b := by omega
  simp only [dif_neg h1, dif_pos h2, dif_pos h3]
  exact congrArg y (Fin.ext (by simp))
theorem hi_cat4_3 {a b c d n : Nat} (hn : a + (b + (c + d)) = n) (x : Fin a → EReal) (y : Fin b → EReal) (z : Fin c → EReal)
    (u : Fin d → EReal) : hi (a + b) c (by omega) (cat4 (n := n) x y z u) = z := by
  funext k
  have hkc := k.isLt
  unfold hi cat4 cat2
  have h1 : ¬ (a + b + k.val) < a := by omega
  have h2 : (a + b + k.val) - a < b + (c + d) := by omega
  have h3 : ¬ (a + b + k.val) - a < b := by omega
  have h4 : (a + b + k.val) - a - b < c + d := by omega
  have h5 : (a + b + k.val) - a - b < c := by omega
  simp only [dif_neg h1, dif_pos h2, dif_neg h3, dif_pos h4, dif_pos h5]
  exact congrArg z (Fin.ext (by simp; omega))
theorem hi_cat4_4 {a b c d n : Nat} (hn : a + (b + (c + d)) = n) (x : Fin a → EReal) (y : Fin b → EReal) (z : Fin c → EReal)
    (u : Fin d → EReal) : hi (a + b + c) d (by omega) (cat4 (n := n) x y z u) = u := by
  funext k
  have hkd := k.isLt
  unfold hi cat4 cat2
  have h1 : ¬ (a + b + c + k.val) < a := by omega
  have h2 : (a + b + c + k.val) - a < b + (c + d) := by omega
  have h3 : ¬ (a + b + c + k.val) - a < b := by omega
  have h4 : (a + b + c + k.val) - a - b < c + d := by omega
  have h5 : ¬ (a + b + c + k.val) - a - b < c := by omega
  have h6 : (a + b + c + k.val) - a - b - c < d := by omega
  simp only [dif_neg h1, dif_pos h2, dif_neg h3, dif_pos h4, dif_neg h5, dif_pos h6]
  exact congrArg u (Fin.ext (by simp; omega))

/-! ## A row-wise map after a row-wise map -/

theorem rows1_rows1 {A C D E : Nat} (g : (Fin D → EReal) → Fin E → EReal) (f : (Fin C → EReal) → Fin D → EReal) (X : Mat A C) :
    rows1 g (rows1 f X) = rows1 (fun x => g (f x)) X := rfl
theorem rows1_rows2 {A C₁ C₂ D E : Nat} (g : (Fin D → EReal) → Fin E → EReal)
    (f : (Fin C₁ → EReal) → (Fin C₂ → EReal) → Fin D → EReal) (X : Mat A C₁) (Y : Mat A C₂) :
    rows1 g (rows2 f X Y) = rows2 (fun x y => g (f x y)) X Y := rfl
theorem rows1_rows4 {A C₁ C₂ C₃ C₄ D E : Nat} (g : (Fin D → EReal) → Fin E → EReal)
    (f : (Fin C₁ → EReal) → (Fin C₂ → EReal) → (Fin C₃ → EReal) → (Fin C₄ → EReal) → Fin D → EReal)
    (X₁ : Mat A C₁) (X₂ : Mat A C₂) (X₃ : Mat A C₃) (X₄ : Mat A C₄) :
    rows1 g (rows4 f X₁ X₂ X₃ X₄) = rows4 (fun x₁ x₂ x₃ x₄ => g (f x₁ x₂ x₃ x₄)) X₁ X₂ X₃ X₄ := rfl

end Idealize.ShloMosaic.RowOps

end
-- ==== Proof.Spec.lean ====
/-
  ONE LAYER OF AN E(n)-EQUIVARIANT GRAPH NETWORK, as one function of the argument arrays over the extended reals.

  Nodes carry features x (N × 32) and coordinates (N × 3); edges carry attributes (E × 16) and two node numbers each,
  `row` and `col`. The hidden state of a node is h = x·W_in + b_in. For an edge e from row[e] to col[e]:
    d      = coords[row[e]] − coords[col[e]]                       (3 numbers)
    m      = relu (relu ([h[row[e]], h[col[e]], |d|², attr[e]]·We1 + be1)·We2 + be2)   (the message, 64 numbers)
    shift  = d · (relu (m·Wc1 + bc1)·Wc2 + bc2)                    (3 numbers)
  The new coordinates are coords + (Σ over the edges e with row[e] = i of shift) / max (number of such edges, 1), the
  aggregated message a[i] the sum of m over those edges, and the output (relu ([h, a]·Wn1 + bn1)·Wn2 + bn2)·W_out + b_out.
  Every layer acts on a matrix row by row (`rows1` … `rows4` of the row library); reading rows at the edges' node
  numbers and summing rows into nodes are the host's own gather and accumulating scatter, kept as they are printed.
  No operation here distributes, cancels or divides before the one quotient the reference itself takes.
-/
import proofs.«428612_j50654844289863_1_alg».proof.Proof.LibRowOps
import proofs.«428612_j50654844289863_1_alg».proof.Proof.LibRowCat4
import Idealize.ShloMosaic.PureOps

noncomputable section

open scoped BigOperators

namespace Cert.Egnn

open Idealize.ShloMosaic Idealize.ShloMosaic.RowOps

/-- The edges' node numbers, one word per edge, and the same as a column. -/
abbrev sE : Shape := ⟨1, ![1200000]⟩
abbrev sE1 : Shape := ⟨2, ![1200000, 1]⟩
abbrev s0 : Shape := ⟨0, ![]⟩

/-- jnp's reading of a node number: a negative word counts from the end (`i + N`), then the words as a column. -/
def wrapCol (idx : IVec sE 32) : IVec sE1 32 :=
  broadcastInDim sE1 ![0] (by decide)
    (select (cmpi .slt idx (broadcastInDim sE ![] (by decide) (constantI s0 32 0#32)))
      (addi idx (broadcastInDim sE ![] (by decide) (constantI s0 32 100000#32))) idx)

/-- The words as a column, as they are. -/
def asCol (idx : IVec sE 32) : IVec sE1 32 := broadcastInDim sE1 ![0] (by decide) idx

/-- Reading whole rows of an N × 64 table at a column of row numbers. -/
def g64 : GatherDims (⟨2, ![100000, 64]⟩ : Shape) sE1 (⟨2, ![1200000, 64]⟩ : Shape) where
  offsetDims := [1]
  collapsedSliceDims := [0]
  operandBatchingDims := []
  startIndicesBatchingDims := []
  startIndexMap := [0]
  indexVectorDim := 1
  sliceSizes := ![1, 64]
/-- Reading whole rows of an N × 3 table. -/
def g3 : GatherDims (⟨2, ![100000, 3]⟩ : Shape) sE1 (⟨2, ![1200000, 3]⟩ : Shape) where
  offsetDims := [1]
  collapsedSliceDims := [0]
  operandBatchingDims := []
  startIndicesBatchingDims := []
  startIndexMap := [0]
  indexVectorDim := 1
  sliceSizes := ![1, 3]
/-- Adding rows of an E × 64 matrix into the rows of an N × 64 one. -/
def sc64 : ScatterDims (⟨2, ![100000, 64]⟩ : Shape) sE1 (⟨2, ![1200000, 64]⟩ : Shape) where
  updateWindowDims := [1]
  insertedWindowDims := [0]
  scatterDimsToOperandDims := [0]
  indexVectorDim := 1
/-- Adding rows of an E × 3 matrix into the rows of an N × 3 one. -/
def sc3 : ScatterDims (⟨2, ![100000, 3]⟩ : Shape) sE1 (⟨2, ![1200000, 3]⟩ : Shape) where
  updateWindowDims := [1]
  insertedWindowDims := [0]
  scatterDimsToOperandDims := [0]
  indexVectorDim := 1
/-- Adding E numbers into N. -/
def sc1 : ScatterDims (⟨1, ![100000]⟩ : Shape) sE1 sE where
  updateWindowDims := []
  insertedWindowDims := [0]
  scatterDimsToOperandDims := [0]
  indexVectorDim := 1

/-- The hidden state: x·W_in + b_in, row by row. -/
def hid (x : Mat 100000 32) (Win : Mat 32 64) (bin : Arr 64) : Mat 100000 64 := rows1 (dense Win bin) x

/-- Rows of the hidden state at the edges' node numbers. -/
def take64 (H : Mat 100000 64) (idx : IVec sE 32) : Mat 1200000 64 := Host.gather g64 H (wrapCol idx)
/-- Rows of the coordinates at the edges' node numbers. -/
def take3 (co : Mat 100000 3) (idx : IVec sE 32) : Mat 1200000 3 := Host.gather g3 co (wrapCol idx)

/-- The coordinate difference along every edge. -/
def diff (co : Mat 100000 3) (row col : IVec sE 32) : Mat 1200000 3 := subf (take3 co row) (take3 co col)

/-- The squared length of a difference, as a row of one number. -/
def sqLen (d : Fin 3 → EReal) : Fin 1 → EReal := fun _ => ∑ k : Fin 3, d k * d k

/-- The message of one edge. -/
def msgRow (We1 : Mat 145 64) (be1 : Arr 64) (We2 : Mat 64 64) (be2 : Arr 64)
    (hr hc : Fin 64 → EReal) (d : Fin 3 → EReal) (a : Fin 16 → EReal) : Fin 64 → EReal :=
  relu (dense We2 be2 (relu (dense We1 be1 (cat4 (n := 145) hr hc (sqLen d) a))))

/-- The coordinate shift of one edge. -/
def shiftRow (Wc1 : Mat 64 64) (bc1 : Arr 64) (Wc2 : Mat 64 1) (bc2 : Arr 1)
    (mr : Fin 64 → EReal) (d : Fin 3 → EReal) : Fin 3 → EReal :=
  fun j => d j * dense Wc2 bc2 (relu (dense Wc1 bc1 mr)) 0

/-- The node update of one node from its hidden state and its aggregated message. -/
def nodeRow (Wn1 : Mat 128 64) (bn1 : Arr 64) (Wn2 : Mat 64 64) (bn2 : Arr 64) (Wout : Mat 64 64) (bout : Arr 64)
    (h a : Fin 64 → EReal) : Fin 64 → EReal :=
  dense Wout bout (dense Wn2 bn2 (relu (dense Wn1 bn1 (cat2 (n := 128) h a))))

/-- Every edge's message. -/
def msgs (We1 : Mat 145 64) (be1 : Arr 64) (We2 : Mat 64 64) (be2 : Arr 64)
    (H : Mat 100000 64) (co : Mat 100000 3) (ea : Mat 1200000 16) (row col : IVec sE 32) : Mat 1200000 64 :=
  rows4 (msgRow We1 be1 We2 be2) (take64 H row) (take64 H col) (diff co row col) ea

/-- Every edge's coordinate shift. -/
def shifts (Wc1 : Mat 64 64) (bc1 : Arr 64) (Wc2 : Mat 64 1) (bc2 : Arr 1) (M : Mat 1200000 64) (D : Mat 1200000 3) :
    Mat 1200000 3 :=
  rows2 (shiftRow Wc1 bc1 Wc2 bc2) M D

/-- The messages summed into their `row` nodes. -/
def aggM (row : IVec sE 32) (M : Mat 1200000 64) : Mat 100000 64 :=
  Host.scatterAdd sc64
    (broadcastInDim (⟨2, ![100000, 64]⟩ : Shape) ![] (by decide) (constant (F := Ideal) s0 .f32 0x00000000#32))
    (asCol row) M

/-- The new coordinates: the shifts summed into their `row` nodes, over the number of such edges (at least one). -/
def coordsNew (co : Mat 100000 3) (row : IVec sE 32) (T : Mat 1200000 3) : Mat 100000 3 :=
  addf co (Host.divf
    (Host.scatterAdd sc3
      (broadcastInDim (⟨2, ![100000, 3]⟩ : Shape) ![] (by decide) (constant (F := Ideal) s0 .f32 0x00000000#32))
      (asCol row) T)
    (broadcastInDim (⟨2, ![100000, 3]⟩ : Shape) ![0, 1] (by decide)
      (broadcastInDim (⟨2, ![100000, 1]⟩ : Shape) ![0] (by decide)
        (maximumf
          (Host.scatterAdd sc1
            (broadcastInDim (⟨1, ![100000]⟩ : Shape) ![] (by decide) (constant (F := Ideal) s0 .f32 0x00000000#32))
            (asCol row)
            (broadcastInDim sE ![] (by decide) (constant (F := Ideal) s0 .f32 0x3F800000#32)))
          (broadcastInDim (⟨1, ![100000]⟩ : Shape) ![] (by decide) (constant (F := Ideal) s0 .f32 0x3F800000#32))))))

/-- The output features. -/
def outFeat (Wn1 : Mat 128 64) (bn1 : Arr 64) (Wn2 : Mat 64 64) (bn2 : Arr 64) (Wout : Mat 64 64) (bout : Arr 64)
    (H A : Mat 100000 64) : Mat 100000 64 :=
  rows2 (nodeRow Wn1 bn1 Wn2 bn2 Wout bout) H A

end Cert.Egnn

end
-- ==== Proof.LibRowDense.lean ====
/-
  A LAYER OF A PERCEPTRON, as the kernel and as the host spell it, is row by row the affine map `dense W b` (with or
  without the positive part `relu`): the matrix product into the zero accumulator is the sum over the contracted axis, the
  bias reaches every row by a cast and a broadcast (kernel) or by two `broadcast_in_dim` (host), and the maximum with a
  broadcast zero is the positive part. Also: a layer whose input row ends in zeros only sees the first rows of its matrix.
-/
import proofs.«428612_j50654844289863_1_alg».proof.Proof.LibRowOps

noncomputable section

open scoped BigOperators

namespace Idealize.ShloMosaic.RowOps

open Idealize.ShloMosaic Idealize.ShloMosaic.ValueIdx

/-! ## The printed operations in row form -/

/-- A dimension record says "rows times columns": one contracted axis, the left operand's columns against the right
    operand's rows, no batch axes. At a literal record every part is `rfl`. -/
def IsRowsCols {A K B : Nat} (d : DotDims (⟨2, ![A, K]⟩ : Shape) (⟨2, ![K, B]⟩ : Shape) (⟨2, ![A, B]⟩ : Shape)) : Prop :=
  ∃ hr : d.contr.rank = 1, d.contr.size ⟨0, by omega⟩ = K ∧ d.lhsBatch = [] ∧ d.rhsBatch = [] ∧ d.lhsNonContracting = [0]
    ∧ d.rhsNonContracting = [1] ∧ d.lhsContracting = [1] ∧ d.rhsContracting = [0]

/-- THE KERNEL'S LAYER WITH ITS POSITIVE PART: a product into the zero accumulator, plus the bias cast to one row and
    broadcast over the rows, then the maximum with zero, is row by row `relu ∘ dense W b`. -/
theorem kdense_relu {A K B : Nat} (d : DotDims (⟨2, ![A, K]⟩ : Shape) (⟨2, ![K, B]⟩ : Shape) (⟨2, ![A, B]⟩ : Shape))
    (hd : IsRowsCols d) (X : Mat A K) (W : Mat K B) (b : Arr B)
    (hc : (⟨1, ![B]⟩ : Shape).ShapeCasts ⟨2, ![1, B]⟩) (hb : (⟨2, ![1, B]⟩ : Shape).Broadcasts ⟨2, ![A, B]⟩) :
    maximumf (addf (matmul d none X W (constant (F := Ideal) (⟨2, ![A, B]⟩ : Shape) .f32 0x00000000#32))
        (broadcastTo (⟨2, ![A, B]⟩ : Shape) (shapeCast (⟨2, ![1, B]⟩ : Shape) b hc) hb))
      (broadcast (⟨2, ![A, B]⟩ : Shape) (Scalar.ofBits (F := Ideal) .f32 0x00000000#32))
    = rows1 (fun x => relu (dense W b x)) X := by
  obtain ⟨hr, hs, hbl, hbr, hnl, hnr, hcl, hcr⟩ := hd
  refine mat_ext fun p h => ?_
  rw [maximumf_apply, addf_apply, broadcast_apply, broadcastTo_1b_ab_apply, shapeCast_a_1a_apply, rows1_apply]
  show max (FloatOps.matmul d none X W (constant (⟨2, ![A, B]⟩ : Shape) .f32 0x00000000#32) (ix2 p h) + b (ix1 h))
      (Ideal.ofBits .f32 0x00000000#32) = _
  rw [Contract.matmul_zero_rows_cols d none hr hs hbl hbr hnl hnr hcl hcr, Ideal.ofBits_zero_f32]
  rfl

/-- The kernel's layer without the positive part. -/
theorem kdense {A K B : Nat} (d : DotDims (⟨2, ![A, K]⟩ : Shape) (⟨2, ![K, B]⟩ : Shape) (⟨2, ![A, B]⟩ : Shape))
    (hd : IsRowsCols d) (X : Mat A K) (W : Mat K B) (b : Arr B)
    (hc : (⟨1, ![B]⟩ : Shape).ShapeCasts ⟨2, ![1, B]⟩) (hb : (⟨2, ![1, B]⟩ : Shape).Broadcasts ⟨2, ![A, B]⟩) :
    addf (matmul d none X W (constant (F := Ideal) (⟨2, ![A, B]⟩ : Shape) .f32 0x00000000#32))
        (broadcastTo (⟨2, ![A, B]⟩ : Shape) (shapeCast (⟨2, ![1, B]⟩ : Shape) b hc) hb)
    = rows1 (fun x => dense W b x) X := by
  obtain ⟨hr, hs, hbl, hbr, hnl, hnr, hcl, hcr⟩ := hd
  refine mat_ext fun p h => ?_
  rw [addf_apply, broadcastTo_1b_ab_apply, shapeCast_a_1a_apply, rows1_apply]
  show FloatOps.matmul d none X W (constant (⟨2, ![A, B]⟩ : Shape) .f32 0x00000000#32) (ix2 p h) + b (ix1 h) = _
  rw [Contract.matmul_zero_rows_cols d none hr hs hbl hbr hnl hnr hcl hcr]
  rfl

/-- THE HOST'S LAYER WITH ITS POSITIVE PART: `dot_general`, plus the bias broadcast in two steps, then the maximum with a
    broadcast zero, is row by row `relu ∘ dense W b`. -/
theorem hdense_relu {A K B : Nat} (d : DotDims (⟨2, ![A, K]⟩ : Shape) (⟨2, ![K, B]⟩ : Shape) (⟨2, ![A, B]⟩ : Shape))
    (hd : IsRowsCols d) (X : Mat A K) (W : Mat K B) (b : Arr B)
    (h1 : (⟨1, ![B]⟩ : Shape).BroadcastsInDim (⟨2, ![1, B]⟩ : Shape) ![1])
    (h2 : (⟨2, ![1, B]⟩ : Shape).BroadcastsInDim (⟨2, ![A, B]⟩ : Shape) ![0, 1])
    (h0 : (⟨0, ![]⟩ : Shape).BroadcastsInDim (⟨2, ![A, B]⟩ : Shape) ![]) :
    maximumf (addf (Host.dotGeneral d none X W)
        (broadcastInDim (⟨2, ![A, B]⟩ : Shape) ![0, 1] h2 (broadcastInDim (⟨2, ![1, B]⟩ : Shape) ![1] h1 b)))
      (broadcastInDim (⟨2, ![A, B]⟩ : Shape) ![] h0 (constant (F := Ideal) (⟨0, ![]⟩ : Shape) .f32 0x00000000#32))
    = rows1 (fun x => relu (dense W b x)) X := by
  obtain ⟨hr, hs, hbl, hbr, hnl, hnr, hcl, hcr⟩ := hd
  refine mat_ext fun p h => ?_
  have e2 : ∀ v : FVec Ideal (⟨2, ![1, B]⟩ : Shape) .f32,
      broadcastInDim (⟨2, ![A, B]⟩ : Shape) ![0, 1] h2 v (ix2 p h) = v (ix2 (0 : Fin 1) h) := fun v =>
    broadcastInDim_apply ![0, 1] h2 v (ix2 p h) (ix2 (0 : Fin 1) h) fun a => by
      match a with
      | ⟨0, _⟩ => rfl
      | ⟨1, _⟩ =>
        show h.val = if B = 1 then 0 else h.val
        split
        · have := h.isLt; omega
        · rfl
  have e1 : broadcastInDim (⟨2, ![1, B]⟩ : Shape) ![1] h1 b (ix2 (0 : Fin 1) h) = b (ix1 h) :=
    broadcastInDim_apply ![1] h1 b (ix2 (0 : Fin 1) h) (ix1 h) fun a => by
      match a with
      | ⟨0, _⟩ =>
        show h.val = if B = 1 then 0 else h.val
        split
        · have := h.isLt; omega
        · rfl
  have e0 : broadcastInDim (⟨2, ![A, B]⟩ : Shape) ![] h0 (constant (F := Ideal) (⟨0, ![]⟩ : Shape) .f32 0x00000000#32)
      (ix2 p h) = 0 := by
    rw [broadcastInDim_apply ![] h0 _ (ix2 p h) ix0 fun a => a.elim0, constant_apply, Ideal.ofBits_zero_f32]
  rw [maximumf_apply, addf_apply, e2, e1, e0, rows1_apply]
  show max (FloatOps.dotGeneral d none .single X W (ix2 p h) + b (ix1 h)) 0 = _
  rw [Contract.dotGeneral_rows_cols d none .single hr hs hbl hbr hnl hnr hcl hcr]
  rfl

/-- The host's layer without the positive part. -/
theorem hdense {A K B : Nat} (d : DotDims (⟨2, ![A, K]⟩ : Shape) (⟨2, ![K, B]⟩ : Shape) (⟨2, ![A, B]⟩ : Shape))
    (hd : IsRowsCols d) (X : Mat A K) (W : Mat K B) (b : Arr B)
    (h1 : (⟨1, ![B]⟩ : Shape).BroadcastsInDim (⟨2, ![1, B]⟩ : Shape) ![1])
    (h2 : (⟨2, ![1, B]⟩ : Shape).BroadcastsInDim (⟨2, ![A, B]⟩ : Shape) ![0, 1]) :
    addf (Host.dotGeneral d none X W)
        (broadcastInDim (⟨2, ![A, B]⟩ : Shape) ![0, 1] h2 (broadcastInDim (⟨2, ![1, B]⟩ : Shape) ![1] h1 b))
    = rows1 (fun x => dense W b x) X := by
  obtain ⟨hr, hs, hbl, hbr, hnl, hnr, hcl, hcr⟩ := hd
  refine mat_ext fun p h => ?_
  have e2 : ∀ v : FVec Ideal (⟨2, ![1, B]⟩ : Shape) .f32,
      broadcastInDim (⟨2, ![A, B]⟩ : Shape) ![0, 1] h2 v (ix2 p h) = v (ix2 (0 : Fin 1) h) := fun v =>
    broadcastInDim_apply ![0, 1] h2 v (ix2 p h) (ix2 (0 : Fin 1) h) fun a => by
      match a with
      | ⟨0, _⟩ => rfl
      | ⟨1, _⟩ =>
        show h.val = if B = 1 then 0 else h.val
        split
        · have := h.isLt; omega
        · rfl
  have e1 : broadcastInDim (⟨2, ![1, B]⟩ : Shape) ![1] h1 b (ix2 (0 : Fin 1) h) = b (ix1 h) :=
    broadcastInDim_apply ![1] h1 b (ix2 (0 : Fin 1) h) (ix1 h) fun a => by
      match a with
      | ⟨0, _⟩ =>
        show h.val = if B = 1 then 0 else h.val
        split
        · have := h.isLt; omega
        · rfl
  rw [addf_apply, e2, e1, rows1_apply]
  show FloatOps.dotGeneral d none .single X W (ix2 p h) + b (ix1 h) = _
  rw [Contract.dotGeneral_rows_cols d none .single hr hs hbl hbr hnl hnr hcl hcr]
  rfl

/-- A layer fed three rows side by side of which the last two are zero is the layer of the first row alone with the
    weight matrix cut to its first rows: the other terms of every sum are `0 · w = 0`, which holds for every extended
    real `w`. -/
theorem dense_cat3_zero {a b c n B : Nat} (hn : a + (b + c) = n) (W : Mat n B) (W₀ : Mat a B) (bias : Arr B)
    (hW : ∀ (k : Fin a) (q : Fin B), W₀ (ix2 k q) = W (ix2 (⟨k.val, by omega⟩ : Fin n) q)) (x : Fin a → EReal) :
    dense W bias (cat3 (n := n) x (fun _ : Fin b => (0 : EReal)) (fun _ : Fin c => (0 : EReal))) = dense W₀ bias x := by
  subst hn
  funext h
  unfold dense
  congr 1
  rw [Fin.sum_univ_add]
  have hz : ∑ i : Fin (b + c), cat3 (n := a + (b + c)) x (fun _ : Fin b => (0 : EReal)) (fun _ : Fin c => (0 : EReal))
      (Fin.natAdd a i) * W (ix2 (Fin.natAdd a i) h) = 0 := by
    refine Finset.sum_eq_zero fun i _ => ?_
    have hc : cat3 (n := a + (b + c)) x (fun _ : Fin b => (0 : EReal)) (fun _ : Fin c => (0 : EReal)) (Fin.natAdd a i)
        = 0 := by
      unfold cat3 cat2
      have hk : ¬ (Fin.natAdd a i).val < a := by simp
      rw [dif_neg hk]
      split
      · split
        · rfl
        · split <;> rfl
      · rfl
    rw [hc, zero_mul]
  rw [hz, add_zero]
  refine Finset.sum_congr rfl fun k _ => ?_
  have hc : cat3 (n := a + (b + c)) x (fun _ : Fin b => (0 : EReal)) (fun _ : Fin c => (0 : EReal)) (Fin.castAdd (b + c) k)
      = x k := by
    unfold cat3 cat2
    have hk : (Fin.castAdd (b + c) k).val < a := by simp
    rw [dif_pos hk]
    rfl
  rw [hc, hW]
  rfl

end Idealize.ShloMosaic.RowOps

end
-- ==== Proof.LibRowEdge.lean ====
/-
  THE SMALL OPERATIONS OF AN EDGE, row by row. The squared length of a row of three numbers, as the kernel spells it (a
  product with itself, a sum over the column axis, a cast that keeps that axis at size one) and as the host spells it (the
  product, a sum from a zero initial value, a broadcast that adds the unit column). A matrix of three columns scaled row by
  row by a matrix of one column, as the kernel spells it (the column broadcast over three, then a product) and as the host
  does. And two identities on whole arrays: a change of float format at the extended reals, and a cast to the same shape.
  Nothing here needs finiteness: a sum of three products is only read off, never regrouped.
-/
import Idealize.ShloMosaic.Lib.IdealHost
import proofs.«428612_j50654844289863_1_alg».proof.Proof.LibRowOps
import proofs.«428612_j50654844289863_1_alg».proof.Proof.LibRowCat4

noncomputable section

open scoped BigOperators

namespace Idealize.ShloMosaic.RowOps

open Idealize.ShloMosaic Idealize.ShloMosaic.ValueIdx

/-- The squared length of a row of three numbers, as a row of one number. -/
def sqLen (d : Fin 3 → EReal) : Fin 1 → EReal := fun _ => ∑ k : Fin 3, d k * d k

/-- Over row p of the result of a sum along the columns, the source index with column k put back is (p, k). -/
theorem lift_col {A : Nat} (h : (⟨2, ![A, 3]⟩ : Shape).Reduces [1] (⟨1, ![A]⟩ : Shape)) (p : Fin A) (k : Fin 3) :
    h.lift (ix1 p) k = ix2 p k := by
  funext c
  apply Fin.ext
  match c with
  | ⟨0, _⟩ => rfl
  | ⟨1, _⟩ => rfl

/-- THE KERNEL'S SQUARED LENGTH: the product of a matrix of three columns with itself, summed along the columns into the
    zero accumulator and cast to one column, is row by row sqLen. -/
theorem ksqLen {A : Nat} (d : Mat A 3)
    (hred : (⟨2, ![A, 3]⟩ : Shape).Reduces [1] (⟨1, ![A]⟩ : Shape))
    (hcast : (⟨1, ![A]⟩ : Shape).ShapeCasts (⟨2, ![A, 1]⟩ : Shape)) :
    shapeCast (⟨2, ![A, 1]⟩ : Shape)
      (multiReduction (F := Ideal) .add [1] (⟨1, ![A]⟩ : Shape) (mulf d d) 0x00000000#32 hred (.inl rfl) rfl) hcast
    = rows1 sqLen d := by
  refine mat_ext fun p q => ?_
  have hq : q.val = 0 := by omega
  -- entry (p, 0) of the cast is entry p of the sums
  refine (shapeCast_apply _ hcast (ix2 p q) (ix1 p) (by
    rw [Shape.rowMajor_val_two, Shape.rowMajor_val_one]
    show p.val = p.val * 1 + q.val
    omega)).trans ?_
  -- which is the sum over the three columns of row p
  refine (Ideal.multiReduction_add_single (mulf d d) 0x00000000#32 hred (.inl rfl) rfl (ix1 p)).trans ?_
  rw [rows1_apply]
  show ∑ k : Fin 3, mulf d d (hred.lift (ix1 p) k) = ∑ k : Fin 3, row d p k * row d p k
  refine Finset.sum_congr rfl fun k _ => ?_
  rw [lift_col, mulf_apply]
  rfl

/-- THE HOST'S SQUARED LENGTH: the same product summed along the columns from a zero initial value, then given its unit
    column by a broadcast, is row by row sqLen. -/
theorem hsqLen {A : Nat} (d : Mat A 3)
    (hred : (⟨2, ![A, 3]⟩ : Shape).ReducesTo [1] (⟨1, ![A]⟩ : Shape))
    (h0 : 0 < (⟨0, ![]⟩ : Shape).numel)
    (hb : (⟨1, ![A]⟩ : Shape).BroadcastsInDim (⟨2, ![A, 1]⟩ : Shape) ![0]) :
    broadcastInDim (⟨2, ![A, 1]⟩ : Shape) ![0] hb
      (Host.reduceAdd (F := Ideal) (mulf d d) (constant (F := Ideal) (⟨0, ![]⟩ : Shape) .f32 0x00000000#32) hred h0)
    = rows1 sqLen d := by
  -- the same shape fact, with the result's rank said to be positive
  have hR : (⟨2, ![A, 3]⟩ : Shape).Reduces [1] (⟨1, ![A]⟩ : Shape) := ⟨hred.1, Nat.one_pos, hred.2⟩
  refine mat_ext fun p q => ?_
  -- entry (p, 0) of the broadcast is entry p of the sums
  refine (broadcastInDim_apply ![0] hb _ (ix2 p q) (ix1 p) fun a => by
    match a with
    | ⟨0, _⟩ =>
      show p.val = if A = 1 then 0 else p.val
      split
      · have := p.isLt; omega
      · rfl).trans ?_
  rw [hostReduceAdd_apply, Ideal.hostReduceAdd_single hred hR, constant_apply, Ideal.ofBits_zero_f32, zero_add, rows1_apply]
  show ∑ k : Fin 3, mulf d d (hR.lift (ix1 p) k) = ∑ k : Fin 3, row d p k * row d p k
  refine Finset.sum_congr rfl fun k _ => ?_
  rw [lift_col, mulf_apply]
  rfl

/-- THE KERNEL'S SCALING: a matrix of three columns times a matrix of one column broadcast over three columns is row by
    row the row scaled by the one number. -/
theorem kscale {A : Nat} (d : Mat A 3) (s : Mat A 1)
    (hb : (⟨2, ![A, 1]⟩ : Shape).Broadcasts (⟨2, ![A, 3]⟩ : Shape)) :
    mulf d (broadcastTo (⟨2, ![A, 3]⟩ : Shape) s hb) = rows2 (fun dr sr => fun j => dr j * sr 0) d s := by
  refine mat_ext fun p j => ?_
  rw [mulf_apply, rows2_apply]
  -- entry (p, j) of the broadcast is entry (p, 0) of the column
  rw [broadcastTo_apply s hb (ix2 p j) (ix2 p (0 : Fin 1)) fun a => by
    match a with
    | ⟨0, _⟩ =>
      show p.val = if A = 1 then 0 else p.val
      split
      · have := p.isLt; omega
      · rfl
    | ⟨1, _⟩ => rfl]
  rfl

/-- THE HOST'S SCALING: the same with the column broadcast by a broadcast in dimensions. -/
theorem hscale {A : Nat} (d : Mat A 3) (s : Mat A 1)
    (hb : (⟨2, ![A, 1]⟩ : Shape).BroadcastsInDim (⟨2, ![A, 3]⟩ : Shape) ![0, 1]) :
    mulf d (broadcastInDim (⟨2, ![A, 3]⟩ : Shape) ![0, 1] hb s) = rows2 (fun dr sr => fun j => dr j * sr 0) d s := by
  refine mat_ext fun p j => ?_
  rw [mulf_apply, rows2_apply]
  -- entry (p, j) of the broadcast is entry (p, 0) of the column
  rw [broadcastInDim_apply ![0, 1] hb s (ix2 p j) (ix2 p (0 : Fin 1)) fun a => by
    match a with
    | ⟨0, _⟩ =>
      show p.val = if A = 1 then 0 else p.val
      split
      · have := p.isLt; omega
      · rfl
    | ⟨1, _⟩ => rfl]
  rfl

/-- At the extended reals a change of float format from f32 to bf16 is the identity on a whole array. -/
theorem truncf_bf16_id {s : Shape} (v : FVec Ideal s .f32) (h : FTy.bits .bf16 < FTy.bits .f32) :
    (truncf .bf16 v h : FVec Ideal s .bf16) = v := rfl

/-- A cast to the same shape is the identity on a whole array. -/
theorem shapeCast_same {s : Shape} {φ : FTy} (v : FVec Ideal s φ) (h : s.ShapeCasts s) : shapeCast s v h = v :=
  shapeCast_self v h

end Idealize.ShloMosaic.RowOps

end
-- ==== Proof.KI.Value0.lean ====
/-
  REGION 0 READ AS A VALUE, at the extended reals: the array the region leaves in its output window is the hidden state
  h = x·W_in + b_in of the layer, row by row. The body's payload is the affine map on the rows of its block of x; block t
  of x is rows 10000·t … 10000·t + 9999 of x, the weight and bias blocks are the whole arrays; so what point t writes
  back is block t of the hidden state, and the ten blocks tile the array.
-/
import proofs.«428612_j50654844289863_1_alg».proof.Proof.KI.Region0
import proofs.«428612_j50654844289863_1_alg».proof.Proof.Gen.KernelIdeal.Skeleton
import proofs.«428612_j50654844289863_1_alg».proof.Proof.Spec
import proofs.«428612_j50654844289863_1_alg».proof.Proof.LibRowOps
import proofs.«428612_j50654844289863_1_alg».proof.Proof.LibRowDense
import proofs.«428612_j50654844289863_1_alg».proof.Proof.LibRowEdge
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.RowOps
open Idealize.SL.Sem
open Idealize.ShloMosaic.Pipeline (Dat Cfg Window cellOf)

/-! ## The payload in row form -/

/-- The product of a block of x with the weights into the zero accumulator, plus the bias over the rows, is row by row
    the affine map of the layer. -/
theorem pay0_eq (v0 : Vec Ideal S10000x32 .f32) (v2 : Vec Ideal S32x64 .bf16) (v5 : Vec Ideal S64 .f32) :
    k0_pay1 (F := Ideal) v0 v2 v5 = rows1 (dense (K := 32) (B := 64) v2 v5) (A := 10000) v0 := by
  unfold k0_pay1
  dsimp only
  rw [truncf_bf16_id, shapeCast_same]
  exact kdense dot_S10000x32_S32x64_S10000x64_1_0_0_1_n_n ⟨rfl, rfl, rfl, rfl, rfl, rfl, rfl, rfl⟩ v0 v2 v5 _ _

/-- A block of the hidden state from a block of x: when the block's rows are rows 10000·T … of x, entry j of the affine
    map on the block is the entry of the hidden state 10000·T rows further down. -/
theorem hid_block (X : Mat 100000 32) (W : Mat 32 64) (b : Arr 64) (x0 : Mat 10000 32) (w : Mat 32 64) (b' : Arr 64)
    (T : Nat)
    (hx : ∀ (y : (⟨2, ![10000, 32]⟩ : Shape).Idx) (z : (⟨2, ![100000, 32]⟩ : Shape).Idx),
      (z 0).val = 10000 * T + (y 0).val → (z 1).val = (y 1).val → x0 y = X z)
    (hw : w = W) (hb : b' = b)
    (j : (⟨2, ![10000, 64]⟩ : Shape).Idx) (i : (⟨2, ![100000, 64]⟩ : Shape).Idx)
    (hi0 : (i 0).val = 10000 * T + (j 0).val) (hi1 : (i 1).val = (j 1).val) :
    rows1 (dense w b') x0 j = Cert.Egnn.hid X W b i := by
  subst hw hb
  unfold Cert.Egnn.hid rows1 dense row
  have e1 : (⟨(j 1).val, idx2_lt1 j⟩ : Fin 64) = ⟨(i 1).val, idx2_lt1 i⟩ := Fin.ext hi1.symm
  rw [e1]
  congr 1
  refine Finset.sum_congr rfl fun k _ => ?_
  congr 1
  exact hx _ _ hi0.symm.symm rfl

/-! ## The windows' blocks as parts of the arrays -/

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The printed index maps, decided over the grid: the x and output windows' block index is (t, 0), the weight and bias
    windows' is 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- Block t of x is rows 10000·t … of x. -/
theorem iblk0_0_apply (c : Dev nD) (t : Fin cfg0.N) (y : S10000x32.Idx) (z : S100000x32.Idx)
    (h0 : (z 0).val = 10000 * t.val + (y 0).val) (h1 : (z 1).val = (y 1).val) :
    (iblk0 V c 0 t : Vec Ideal S10000x32 .f32) y = (V c main_arg0 : S100000x32.Idx → Elt Ideal .f32) z := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 10000 + 1 * (y 0).val = (z 0).val; rw [e0, h0]; omega
  | ⟨1, _⟩ => show win0_0.index t 1 * 32 + 1 * (y 1).val = (z 1).val; rw [e1, h1]; omega

/-- The weight block is the weight array. -/
theorem iblk0_1_eq (c : Dev nD) (t : Fin cfg0.N) :
    (iblk0 V c 1 t : Vec Ideal S32x64 .bf16) = (V c main_v4 : S32x64.Idx → Elt Ideal .bf16) := by
  obtain ⟨-, -, e0, e1, -⟩ := idx_facts0 t
  funext y
  unfold iblk0
  rw [View.read_apply]
  show V c main_v4 _ = V c main_v4 _
  congr 1
  funext a
  apply Fin.ext
  match a with
  | ⟨0, _⟩ => show win0_1.index t 0 * 32 + 1 * (y 0).val = (y 0).val; rw [e0]; omega
  | ⟨1, _⟩ => show win0_1.index t 1 * 64 + 1 * (y 1).val = (y 1).val; rw [e1]; omega

/-- The bias block is the bias array. -/
theorem iblk0_2_eq (c : Dev nD) (t : Fin cfg0.N) :
    (iblk0 V c 2 t : Vec Ideal S64 .f32) = (V c main_arg5 : S64.Idx → Elt Ideal .f32) := by
  obtain ⟨-, -, -, -, e0, -⟩ := idx_facts0 t
  funext y
  unfold iblk0
  rw [View.read_apply]
  show V c main_arg5 _ = V c main_arg5 _
  congr 1
  funext a
  apply Fin.ext
  match a with
  | ⟨0, _⟩ => show win0_2.index t 0 * 64 + 1 * (y 0).val = (y 0).val; rw [e0]; omega

/-! ## What a point writes back, the cover, the array -/

/-- WHAT POINT t WRITES BACK is block t of the hidden state of the arrays as the region finds them. -/
theorem flushed0_3_eq (c : Dev nD) (t : Fin cfg0.N) :
    (dat0 (F := Ideal) V c).flushed 3 t = ((cfg0.win 3).blk t).view.read (Elt Ideal)
      (Cert.Egnn.hid (V c main_arg0) (V c main_v4) (V c main_arg5)) := by
  show (cfg0.win 3).cut (grid0.coords t) ((dat0 V c).after 3 t) = _
  rw [after0_3]
  unfold out0_3
  rw [View.canon_unit_zero zeros2]
  simp only [View.ld_unit_zero (S := S10000x32) zeros2, View.ld_unit_zero (S := S32x64) zeros2,
    View.ld_unit_zero (S := S64) zeros1]
  rw [pay0_eq]
  obtain ⟨-, -, -, -, -, e0, e1⟩ := idx_facts0 t
  funext j
  rw [View.read_apply]
  refine hid_block (V c main_arg0) (V c main_v4) (V c main_arg5) (iblk0 V c 0 t) (iblk0 V c 1 t) (iblk0 V c 2 t) t.val
    (fun y z h0 h1 => iblk0_0_apply V c t y z h0 h1) (iblk0_1_eq V c t) (iblk0_2_eq V c t) j
    (((cfg0.win 3).blk t).view.emb j) ?_ ?_
  · show win0_3.index t 0 * 10000 + 1 * (j 0).val = 10000 * t.val + (j 0).val; rw [e0]; omega
  · show win0_3.index t 1 * 64 + 1 * (j 1).val = (j 1).val; rw [e1]; omega

/-- An index of the output array is in point t's block iff each coordinate is in the block's range on its axis. -/
theorem mem_blk0_3 (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v5).slice (win0_3.rect t)).set ↔ _
  rw [View.set_slice_whole, Rect.mem_set_unit]
  exact Iff.rfl

/-- Every index of the output array is in some point's block: row r is in block r / 10000. -/
theorem covered0_3 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, e0, e1⟩ := idx_facts0 t
  refine ⟨t, flush0_3 t, ?_⟩
  rw [mem_blk0_3]
  intro a
  match a with
  | ⟨0, _⟩ =>
    show win0_3.index t 0 * 10000 ≤ (i 0).val ∧ (i 0).val < win0_3.index t 0 * 10000 + 10000
    rw [e0, ht]; omega
  | ⟨1, _⟩ =>
    show win0_3.index t 1 * 64 ≤ (i 1).val ∧ (i 1).val < win0_3.index t 1 * 64 + 64
    rw [e1]; omega

/-- THE ARRAY after the region: the hidden state of the arrays as the region finds them. -/
theorem arr0_3 (c : Dev nD) :
    (dat0 (F := Ideal) V c).arrAt 3 cfg0.N = Cert.Egnn.hid (V c main_arg0) (V c main_v4) (V c main_arg5) :=
  (dat0 (F := Ideal) V c).arrAt_eq_of_cover 3 (Cert.Egnn.hid (V c main_arg0) (V c main_v4) (V c main_arg5))
    (fun t _ => flushed0_3_eq V c t) covered0_3

end Cert.KernelIdeal.Hand

end
-- ==== Proof.KI.Value1.lean ====
/-
  THE VALUE OF REGION 1 over the extended reals: after its four hundred points the message array is, row by row, the
  edge's message of the packed edge rows the region found, and the shift array the edge's coordinate shift of them.
  First the body's two stored values in row form, over blocks of the literal types; then from blocks to arrays: a
  weight or bias window's block is its whole array at every point, row p of the packed block at point t is row
  3000·t + p of the packed array, so what point t writes back is block t of one row-wise function of the arrays, and the
  blocks of the four hundred points cover the array.
-/
import proofs.«428612_j50654844289863_1_alg».proof.Proof.KI.Region1
import proofs.«428612_j50654844289863_1_alg».proof.Proof.Spec
import proofs.«428612_j50654844289863_1_alg».proof.Proof.LibRowDense
import proofs.«428612_j50654844289863_1_alg».proof.Proof.LibRowLayout
import proofs.«428612_j50654844289863_1_alg».proof.Proof.LibRowCat4
import proofs.«428612_j50654844289863_1_alg».proof.Proof.LibRowEdge
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.RowOps Idealize.ShloMosaic.ValueIdx
open Idealize.ShloMosaic.Pipeline (Dat)

/-! ## The body's two stored values in row form -/

/-- A layer with its positive part as the body spells it — the input narrowed to the short format, the weights cast to
    their own shape — is row by row `relu ∘ dense W b`: at the extended reals both are the identity. -/
theorem klayer_relu {A K B : Nat} (d : DotDims (⟨2, ![A, K]⟩ : Shape) (⟨2, ![K, B]⟩ : Shape) (⟨2, ![A, B]⟩ : Shape))
    (hd : IsRowsCols d) (X : FVec Ideal (⟨2, ![A, K]⟩ : Shape) .f32) (W : FVec Ideal (⟨2, ![K, B]⟩ : Shape) .bf16)
    (b : FVec Ideal (⟨1, ![B]⟩ : Shape) .f32)
    (ht : FTy.bits .bf16 < FTy.bits .f32) (hs : (⟨2, ![K, B]⟩ : Shape).ShapeCasts (⟨2, ![K, B]⟩ : Shape))
    (hc : (⟨1, ![B]⟩ : Shape).ShapeCasts ⟨2, ![1, B]⟩) (hb : (⟨2, ![1, B]⟩ : Shape).Broadcasts ⟨2, ![A, B]⟩) :
    maximumf (addf (matmul d none (truncf .bf16 X ht) (shapeCast (⟨2, ![K, B]⟩ : Shape) W hs)
          (constant (F := Ideal) (⟨2, ![A, B]⟩ : Shape) .f32 0x00000000#32))
        (broadcastTo (⟨2, ![A, B]⟩ : Shape) (shapeCast (⟨2, ![1, B]⟩ : Shape) b hc) hb))
      (broadcast (⟨2, ![A, B]⟩ : Shape) (Scalar.ofBits (F := Ideal) .f32 0x00000000#32))
    = rows1 (fun x => relu (dense (W : Mat K B) b x)) X := by
  rw [shapeCast_same W hs]
  exact kdense_relu d hd X W b hc hb

/-- A layer without the positive part whose input and weights are already in the short format. -/
theorem klayer {A K B : Nat} (d : DotDims (⟨2, ![A, K]⟩ : Shape) (⟨2, ![K, B]⟩ : Shape) (⟨2, ![A, B]⟩ : Shape))
    (hd : IsRowsCols d) (X : FVec Ideal (⟨2, ![A, K]⟩ : Shape) .bf16) (W : FVec Ideal (⟨2, ![K, B]⟩ : Shape) .bf16)
    (b : FVec Ideal (⟨1, ![B]⟩ : Shape) .f32)
    (hc : (⟨1, ![B]⟩ : Shape).ShapeCasts ⟨2, ![1, B]⟩) (hb : (⟨2, ![1, B]⟩ : Shape).Broadcasts ⟨2, ![A, B]⟩) :
    addf (matmul d none X W (constant (F := Ideal) (⟨2, ![A, B]⟩ : Shape) .f32 0x00000000#32))
        (broadcastTo (⟨2, ![A, B]⟩ : Shape) (shapeCast (⟨2, ![1, B]⟩ : Shape) b hc) hb)
    = rows1 (fun x => dense (W : Mat K B) b x) (X : Mat A K) :=
  kdense d hd X W b hc hb

/-- The three dimension records of the body are rows times columns. -/
theorem rowsCols1_145 : IsRowsCols dot_S3000x145_S145x64_S3000x64_1_0_0_1_n_n := ⟨rfl, rfl, rfl, rfl, rfl, rfl, rfl, rfl⟩
theorem rowsCols1_64 : IsRowsCols dot_S3000x64_S64x64_S3000x64_1_0_0_1_n_n := ⟨rfl, rfl, rfl, rfl, rfl, rfl, rfl, rfl⟩
theorem rowsCols1_1 : IsRowsCols dot_S3000x64_S64x1_S3000x1_1_0_0_1_n_n := ⟨rfl, rfl, rfl, rfl, rfl, rfl, rfl, rfl⟩

/-- The coordinate difference of every edge: columns 128 … 130 of the packed rows. -/
theorem k1_pay3_rows (v0 : FVec Ideal S3000x147 .f32) :
    k1_pay3 (F := Ideal) v0 = rows1 (hi 128 3 (by omega)) v0 := by
  unfold k1_pay3 k1_pay2
  dsimp only
  rw [shapeCast_same v0]
  exact slice_cols 128 3 (by omega) v0 _

/-- THE MESSAGE IN ROW FORM: row p of the stored message is the edge's message of row p of the packed block. -/
theorem k1_pay4_rows (v0 : FVec Ideal S3000x147 .f32) (v11 : FVec Ideal S145x64 .bf16) (v14 : FVec Ideal S64 .f32)
    (v21 : FVec Ideal S64x64 .bf16) (v24 : FVec Ideal S64 .f32) :
    k1_pay4 (F := Ideal) v0 v11 v14 v21 v24
      = rows1 (fun p => Cert.Egnn.msgRow v11 v14 v21 v24 (hi 0 64 (by omega) p) (hi 64 64 (by omega) p)
          (hi 128 3 (by omega) p) (hi 131 16 (by omega) p)) v0 := by
  unfold k1_pay4
  dsimp only
  rw [k1_pay3_rows]
  unfold k1_pay2
  dsimp only
  rw [shapeCast_same v0]
  rw [slice_cols 0 64 (by omega) v0, slice_cols 64 64 (by omega) v0, slice_cols 131 16 (by omega) v0]
  rw [ksqLen (rows1 (hi 128 3 (by omega)) v0)]
  rw [concat4_rows]
  rw [klayer_relu _ rowsCols1_145]
  rw [klayer_relu _ rowsCols1_64]
  rfl

/-- The hidden layer of the coordinate head, row by row, of the message. -/
theorem k1_pay5_rows (v0 : FVec Ideal S3000x147 .f32) (v11 : FVec Ideal S145x64 .bf16) (v14 : FVec Ideal S64 .f32)
    (v21 : FVec Ideal S64x64 .bf16) (v24 : FVec Ideal S64 .f32) (v31 : FVec Ideal S64x64 .bf16) (v34 : FVec Ideal S64 .f32) :
    k1_pay5 (F := Ideal) v0 v11 v14 v21 v24 v31 v34
      = rows1 (fun x => relu (dense (v31 : Mat 64 64) v34 x)) (k1_pay4 (F := Ideal) v0 v11 v14 v21 v24) := by
  unfold k1_pay5
  dsimp only
  rw [klayer_relu _ rowsCols1_64]
  rfl

/-- The scaling of the difference by the head's one output, row by row. -/
theorem k1_pay1_rows (v4 : FVec Ideal S3000x3 .f32) (v40 : FVec Ideal S3000x64 .bf16) (v41 : FVec Ideal S64x1 .bf16)
    (v44 : FVec Ideal S1 .f32) :
    k1_pay1 (F := Ideal) v4 v40 v41 v44
      = rows2 (fun dr sr => fun j => dr j * sr 0) v4 (rows1 (fun x => dense (v41 : Mat 64 1) v44 x) (v40 : Mat 3000 64)) := by
  unfold k1_pay1
  dsimp only
  rw [shapeCast_same v41]
  rw [klayer _ rowsCols1_1]
  exact kscale v4 _ _

/-- THE SHIFT IN ROW FORM: row p of the stored shift is the edge's shift of row p of the packed block. -/
theorem k1_shift_rows (v0 : FVec Ideal S3000x147 .f32) (v11 : FVec Ideal S145x64 .bf16) (v14 : FVec Ideal S64 .f32)
    (v21 : FVec Ideal S64x64 .bf16) (v24 : FVec Ideal S64 .f32) (v31 : FVec Ideal S64x64 .bf16) (v34 : FVec Ideal S64 .f32)
    (v41 : FVec Ideal S64x1 .bf16) (v44 : FVec Ideal S1 .f32) :
    k1_pay1 (F := Ideal) (k1_pay3 v0) (k1_pay5 v0 v11 v14 v21 v24 v31 v34) v41 v44
      = rows1 (fun p => Cert.Egnn.shiftRow v31 v34 v41 v44
          (Cert.Egnn.msgRow v11 v14 v21 v24 (hi 0 64 (by omega) p) (hi 64 64 (by omega) p) (hi 128 3 (by omega) p)
            (hi 131 16 (by omega) p)) (hi 128 3 (by omega) p)) v0 := by
  rw [k1_pay1_rows, k1_pay5_rows, k1_pay4_rows, k1_pay3_rows]
  rfl

/-! ## From blocks to arrays -/

section Blocks

variable {F : FTy → Type} [FloatOps F]
variable (V : (c : Dev nD) → (b : Ref sig .tc) → Buf (Elt F) ((c : Thread nD τ).loc b))

theorem zero2_r1 : (![0, 0] : Fin 2 → Nat) = fun _ => 0 := funext fun a => by fin_cases a <;> rfl
theorem zero1_r1 : (![0] : Fin 1 → Nat) = fun _ => 0 := funext fun a => by fin_cases a <;> rfl

/-- The printed index maps over the grid: the packed rows and the two outputs move one block of rows per point, the
    weights and biases stay at block zero. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 2) = 0
    ∧ win1_3.index t (1 : Fin 2) = 0
    ∧ win1_4.index t (0 : Fin 1) = 0
    ∧ win1_5.index t (0 : Fin 2) = 0
    ∧ win1_5.index t (1 : Fin 2) = 0
    ∧ win1_6.index t (0 : Fin 1) = 0
    ∧ win1_7.index t (0 : Fin 2) = 0
    ∧ win1_7.index t (1 : Fin 2) = 0
    ∧ win1_8.index t (0 : Fin 1) = 0
    ∧ win1_9.index t (0 : Fin 2) = t.val
    ∧ win1_9.index t (1 : Fin 2) = 0
    ∧ win1_10.index t (0 : Fin 2) = t.val
    ∧ win1_10.index t (1 : Fin 2) = 0 :=
  (by decide +kernel : ∀ t : Fin grid1.N, _)

/-- Entry (p, k) of the packed block at point t is entry (3000·t + p, k) of the packed array. -/
theorem iblk1_0_apply (c : Dev nD) (t : Fin cfg1.N) (x : S3000x147.Idx) (k : S1200000x147.Idx)
    (hk0 : (k 0).val = 3000 * t.val + (x 0).val) (hk1 : (k 1).val = (x 1).val) :
    (iblk1 V c 0 t : Vec F S3000x147 .f32) x = (V c main_v11 : S1200000x147.Idx → Elt F .f32) k := by
  have hx := idx_facts1 t
  unfold iblk1
  rw [View.read_apply]
  show V c main_v11 _ = V c main_v11 k
  congr 1
  funext a; apply Fin.ext
  match a with
    | ⟨0, _⟩ => show win1_0.index t (0 : Fin 2) * 3000 + 1 * (x 0).val = (k 0).val; rw [hx.1, hk0]; omega
    | ⟨1, _⟩ => show win1_0.index t (1 : Fin 2) * 147 + 1 * (x 1).val = (k 1).val; rw [hx.2.1, hk1]; omega

/-- A weight or bias window's block is its whole array, at every point. -/
theorem iblk1_1_eq (c : Dev nD) (t : Fin cfg1.N) : (iblk1 V c 1 t : Vec F S145x64 .bf16) = (V c main_v12 : S145x64.Idx → Elt F .bf16) := by
  have hx := idx_facts1 t
  funext x
  unfold iblk1
  rw [View.read_apply]
  show V c main_v12 _ = V c main_v12 x
  congr 1
  funext a; apply Fin.ext
  match a with
    | ⟨0, _⟩ => show win1_1.index t (0 : Fin 2) * 145 + 1 * (x 0).val = (x 0).val; rw [hx.2.2.1]; omega
    | ⟨1, _⟩ => show win1_1.index t (1 : Fin 2) * 64 + 1 * (x 1).val = (x 1).val; rw [hx.2.2.2.1]; omega
theorem iblk1_2_eq (c : Dev nD) (t : Fin cfg1.N) : (iblk1 V c 2 t : Vec F S64 .f32) = (V c main_arg9 : S64.Idx → Elt F .f32) := by
  have hx := idx_facts1 t
  funext x
  unfold iblk1
  rw [View.read_apply]
  show V c main_arg9 _ = V c main_arg9 x
  congr 1
  funext a; apply Fin.ext
  match a with
    | ⟨0, _⟩ => show win1_2.index t (0 : Fin 1) * 64 + 1 * (x 0).val = (x 0).val; rw [hx.2.2.2.2.1]; omega
theorem iblk1_3_eq (c : Dev nD) (t : Fin cfg1.N) : (iblk1 V c 3 t : Vec F S64x64 .bf16) = (V c main_v13 : S64x64.Idx → Elt F .bf16) := by
  have hx := idx_facts1 t
  funext x
  unfold iblk1
  rw [View.read_apply]
  show V c main_v13 _ = V c main_v13 x
  congr 1
  funext a; apply Fin.ext
  match a with
    | ⟨0, _⟩ => show win1_3.index t (0 : Fin 2) * 64 + 1 * (x 0).val = (x 0).val; rw [hx.2.2.2.2.2.1]; omega
    | ⟨1, _⟩ => show win1_3.index t (1 : Fin 2) * 64 + 1 * (x 1).val = (x 1).val; rw [hx.2.2.2.2.2.2.1]; omega
theorem iblk1_4_eq (c : Dev nD) (t : Fin cfg1.N) : (iblk1 V c 4 t : Vec F S64 .f32) = (V c main_arg11 : S64.Idx → Elt F .f32) := by
  have hx := idx_facts1 t
  funext x
  unfold iblk1
  rw [View.read_apply]
  show V c main_arg11 _ = V c main_arg11 x
  congr 1
  funext a; apply Fin.ext
  match a with
    | ⟨0, _⟩ => show win1_4.index t (0 : Fin 1) * 64 + 1 * (x 0).val = (x 0).val; rw [hx.2.2.2.2.2.2.2.1]; omega
theorem iblk1_5_eq (c : Dev nD) (t : Fin cfg1.N) : (iblk1 V c 5 t : Vec F S64x64 .bf16) = (V c main_v14 : S64x64.Idx → Elt F .bf16) := by
  have hx := idx_facts1 t
  funext x
  unfold iblk1
  rw [View.read_apply]
  show V c main_v14 _ = V c main_v14 x
  congr 1
  funext a; apply Fin.ext
  match a with
    | ⟨0, _⟩ => show win1_5.index t (0 : Fin 2) * 64 + 1 * (x 0).val = (x 0).val; rw [hx.2.2.2.2.2.2.2.2.1]; omega
    | ⟨1, _⟩ => show win1_5.index t (1 : Fin 2) * 64 + 1 * (x 1).val = (x 1).val; rw [hx.2.2.2.2.2.2.2.2.2.1]; omega
theorem iblk1_6_eq (c : Dev nD) (t : Fin cfg1.N) : (iblk1 V c 6 t : Vec F S64 .f32) = (V c main_arg17 : S64.Idx → Elt F .f32) := by
  have hx := idx_facts1 t
  funext x
  unfold iblk1
  rw [View.read_apply]
  show V c main_arg17 _ = V c main_arg17 x
  congr 1
  funext a; apply Fin.ext
  match a with
    | ⟨0, _⟩ => show win1_6.index t (0 : Fin 1) * 64 + 1 * (x 0).val = (x 0).val; rw [hx.2.2.2.2.2.2.2.2.2.2.1]; omega
theorem iblk1_7_eq (c : Dev nD) (t : Fin cfg1.N) : (iblk1 V c 7 t : Vec F S64x1 .bf16) = (V c main_v15 : S64x1.Idx → Elt F .bf16) := by
  have hx := idx_facts1 t
  funext x
  unfold iblk1
  rw [View.read_apply]
  show V c main_v15 _ = V c main_v15 x
  congr 1
  funext a; apply Fin.ext
  match a with
    | ⟨0, _⟩ => show win1_7.index t (0 : Fin 2) * 64 + 1 * (x 0).val = (x 0).val; rw [hx.2.2.2.2.2.2.2.2.2.2.2.1]; omega
    | ⟨1, _⟩ => show win1_7.index t (1 : Fin 2) * 1 + 1 * (x 1).val = (x 1).val; rw [hx.2.2.2.2.2.2.2.2.2.2.2.2.1]; omega
theorem iblk1_8_eq (c : Dev nD) (t : Fin cfg1.N) : (iblk1 V c 8 t : Vec F S1 .f32) = (V c main_arg19 : S1.Idx → Elt F .f32) := by
  have hx := idx_facts1 t
  funext x
  unfold iblk1
  rw [View.read_apply]
  show V c main_arg19 _ = V c main_arg19 x
  congr 1
  funext a; apply Fin.ext
  match a with
    | ⟨0, _⟩ => show win1_8.index t (0 : Fin 1) * 1 + 1 * (x 0).val = (x 0).val; rw [hx.2.2.2.2.2.2.2.2.2.2.2.2.2.1]; omega

/-- What the body leaves in the output blocks is its stored values of the input blocks. -/
theorem out1_9_eq (x0 : Vec F S3000x147 .f32) (x1 : Vec F S145x64 .bf16) (x2 : Vec F S64 .f32) (x3 : Vec F S64x64 .bf16)
    (x4 : Vec F S64 .f32) : out1_9 x0 x1 x2 x3 x4 = k1_pay4 x0 x1 x2 x3 x4 := by
  unfold out1_9
  rw [View.canon_unit_zero zero2_r1]
  simp only [View.ld_unit_zero (S := S3000x147) zero2_r1, View.ld_unit_zero (S := S145x64) zero2_r1, View.ld_unit_zero (S := S64) zero1_r1,
    View.ld_unit_zero (S := S64x64) zero2_r1]
theorem out1_10_eq (x0 : Vec F S3000x147 .f32) (x1 : Vec F S145x64 .bf16) (x2 : Vec F S64 .f32) (x3 : Vec F S64x64 .bf16)
    (x4 : Vec F S64 .f32) (x5 : Vec F S64x64 .bf16) (x6 : Vec F S64 .f32) (x7 : Vec F S64x1 .bf16) (x8 : Vec F S1 .f32) :
    out1_10 x0 x1 x2 x3 x4 x5 x6 x7 x8 = k1_pay1 (k1_pay3 x0) (k1_pay5 x0 x1 x2 x3 x4 x5 x6) x7 x8 := by
  unfold out1_10
  rw [View.canon_unit_zero zero2_r1]
  simp only [View.ld_unit_zero (S := S3000x147) zero2_r1, View.ld_unit_zero (S := S145x64) zero2_r1, View.ld_unit_zero (S := S64) zero1_r1,
    View.ld_unit_zero (S := S64x64) zero2_r1, View.ld_unit_zero (S := S64x1) zero2_r1, View.ld_unit_zero (S := S1) zero1_r1]

end Blocks

/-- A row-wise matrix read at an index of a block is the row-wise matrix of the array read at the index's place in the
    array, when the block's row is the array's row there and the column is the same. -/
theorem rows1_eq_of_row {A a C D : Nat} (f : (Fin C → EReal) → Fin D → EReal) (X : Mat A C) (B : Mat a C)
    (j : (⟨2, ![a, D]⟩ : Shape).Idx) (i : (⟨2, ![A, D]⟩ : Shape).Idx) (h1 : (j 1).val = (i 1).val)
    (hrow : ∀ k : Fin C, B (ix2 ⟨(j 0).val, idx2_lt0 j⟩ k) = X (ix2 ⟨(i 0).val, idx2_lt0 i⟩ k)) :
    rows1 f B j = rows1 f X i := by
  show f (row B ⟨(j 0).val, idx2_lt0 j⟩) ⟨(j 1).val, idx2_lt1 j⟩ = f (row X ⟨(i 0).val, idx2_lt0 i⟩) ⟨(i 1).val, idx2_lt1 i⟩
  have e : row B ⟨(j 0).val, idx2_lt0 j⟩ = row X ⟨(i 0).val, idx2_lt0 i⟩ := funext hrow
  rw [e]
  exact congrArg _ (Fin.ext h1)

section Arrays

variable (V : (c : Dev nD) → (b : Ref sig .tc) → Buf (Elt Ideal) ((c : Thread nD τ).loc b))

/-- The edge's message as a function of its packed row, at given weights. -/
abbrev msgOf (We1 : Mat 145 64) (be1 : Arr 64) (We2 : Mat 64 64) (be2 : Arr 64) (p : Fin 147 → EReal) : Fin 64 → EReal :=
  Cert.Egnn.msgRow We1 be1 We2 be2 (hi 0 64 (by omega) p) (hi 64 64 (by omega) p) (hi 128 3 (by omega) p) (hi 131 16 (by omega) p)

/-- The message array the region leaves: row by row the message of the packed rows. -/
abbrev G1_9 (c : Dev nD) : S1200000x64.Idx → Elt Ideal .f32 :=
  rows1 (msgOf (V c main_v12) (V c main_arg9) (V c main_v13) (V c main_arg11)) (V c main_v11)

/-- The shift array the region leaves: row by row the coordinate shift of the packed rows. -/
abbrev G1_10 (c : Dev nD) : S1200000x3.Idx → Elt Ideal .f32 :=
  rows1 (fun p => Cert.Egnn.shiftRow (V c main_v14) (V c main_arg17) (V c main_v15) (V c main_arg19)
    (msgOf (V c main_v12) (V c main_arg9) (V c main_v13) (V c main_arg11) p) (hi 128 3 (by omega) p)) (V c main_v11)

/-- WHAT POINT t WRITES BACK to the message array is block t of G1_9. -/
theorem flushed1_9_eq (c : Dev nD) (t : Fin cfg1.N) :
    (dat1 (F := Ideal) V c).flushed 9 t = ((cfg1.win 9).blk t).view.read (Elt Ideal) (G1_9 V c) := by
  show (cfg1.win 9).cut (grid1.coords t) ((dat1 V c).after 9 t) = _
  rw [after1_9]
  rw [out1_9_eq (iblk1 V c 0 t) (iblk1 V c 1 t) (iblk1 V c 2 t) (iblk1 V c 3 t) (iblk1 V c 4 t)]
  rw [iblk1_1_eq V c t, iblk1_2_eq V c t, iblk1_3_eq V c t, iblk1_4_eq V c t]
  rw [k1_pay4_rows (iblk1 V c 0 t) (V c main_v12) (V c main_arg9) (V c main_v13) (V c main_arg11)]
  funext j
  have hx := idx_facts1 t
  show rows1 (msgOf (V c main_v12) (V c main_arg9) (V c main_v13) (V c main_arg11)) (iblk1 V c 0 t) j
    = rows1 (msgOf (V c main_v12) (V c main_arg9) (V c main_v13) (V c main_arg11)) (V c main_v11)
        (((cfg1.win 9).blk t).view.emb j)
  have e0 : ((((cfg1.win 9).blk t).view.emb j) 0).val = 3000 * t.val + (j 0).val := by
    show win1_9.index t (0 : Fin 2) * 3000 + 1 * (j 0).val = _
    rw [hx.2.2.2.2.2.2.2.2.2.2.2.2.2.2.1]; omega
  have e1 : ((((cfg1.win 9).blk t).view.emb j) 1).val = (j 1).val := by
    show win1_9.index t (1 : Fin 2) * 64 + 1 * (j 1).val = _
    rw [hx.2.2.2.2.2.2.2.2.2.2.2.2.2.2.2.1]; omega
  refine rows1_eq_of_row _ _ _ j _ e1.symm (fun k => ?_)
  exact iblk1_0_apply V c t _ _ e0 rfl

/-- WHAT POINT t WRITES BACK to the shift array is block t of G1_10. -/
theorem flushed1_10_eq (c : Dev nD) (t : Fin cfg1.N) :
    (dat1 (F := Ideal) V c).flushed 10 t = ((cfg1.win 10).blk t).view.read (Elt Ideal) (G1_10 V c) := by
  show (cfg1.win 10).cut (grid1.coords t) ((dat1 V c).after 10 t) = _
  rw [after1_10]
  rw [out1_10_eq (iblk1 V c 0 t) (iblk1 V c 1 t) (iblk1 V c 2 t) (iblk1 V c 3 t) (iblk1 V c 4 t) (iblk1 V c 5 t)
    (iblk1 V c 6 t) (iblk1 V c 7 t) (iblk1 V c 8 t)]
  rw [iblk1_1_eq V c t, iblk1_2_eq V c t, iblk1_3_eq V c t, iblk1_4_eq V c t, iblk1_5_eq V c t, iblk1_6_eq V c t, iblk1_7_eq V c t, iblk1_8_eq V c t]
  rw [k1_shift_rows (iblk1 V c 0 t) (V c main_v12) (V c main_arg9) (V c main_v13) (V c main_arg11) (V c main_v14)
    (V c main_arg17) (V c main_v15) (V c main_arg19)]
  funext j
  have hx := idx_facts1 t
  show rows1 (fun p => Cert.Egnn.shiftRow (V c main_v14) (V c main_arg17) (V c main_v15) (V c main_arg19)
        (msgOf (V c main_v12) (V c main_arg9) (V c main_v13) (V c main_arg11) p) (hi 128 3 (by omega) p)) (iblk1 V c 0 t) j
    = rows1 (fun p => Cert.Egnn.shiftRow (V c main_v14) (V c main_arg17) (V c main_v15) (V c main_arg19)
        (msgOf (V c main_v12) (V c main_arg9) (V c main_v13) (V c main_arg11) p) (hi 128 3 (by omega) p)) (V c main_v11) (((cfg1.win 10).blk t).view.emb j)
  have e0 : ((((cfg1.win 10).blk t).view.emb j) 0).val = 3000 * t.val + (j 0).val := by
    show win1_10.index t (0 : Fin 2) * 3000 + 1 * (j 0).val = _
    rw [hx.2.2.2.2.2.2.2.2.2.2.2.2.2.2.2.2.1]; omega
  have e1 : ((((cfg1.win 10).blk t).view.emb j) 1).val = (j 1).val := by
    show win1_10.index t (1 : Fin 2) * 3 + 1 * (j 1).val = _
    rw [hx.2.2.2.2.2.2.2.2.2.2.2.2.2.2.2.2.2]; omega
  refine rows1_eq_of_row _ _ _ j _ e1.symm (fun k => ?_)
  exact iblk1_0_apply V c t _ _ e0 rfl

end Arrays

/-! ## The blocks cover the arrays -/

/-- An index of the message array is in point t's block iff each coordinate is in the block's range on its axis. -/
theorem mem_blk1_9 (t : Fin cfg1.N) (i : S1200000x64.Idx) :
    i ∈ ((cfg1.win 9).blk t).view.set ↔ ∀ a : Fin 2, win1_9.index t a * S3000x64.size a ≤ (i a).val
      ∧ (i a).val < win1_9.index t a * S3000x64.size a + S3000x64.size a := by
  show i ∈ ((View.whole main_v16_0).slice (win1_9.rect t)).set ↔ _
  rw [View.set_slice_whole, Rect.mem_set_unit]
  exact Iff.rfl
theorem mem_blk1_10 (t : Fin cfg1.N) (i : S1200000x3.Idx) :
    i ∈ ((cfg1.win 10).blk t).view.set ↔ ∀ a : Fin 2, win1_10.index t a * S3000x3.size a ≤ (i a).val
      ∧ (i a).val < win1_10.index t a * S3000x3.size a + S3000x3.size a := by
  show i ∈ ((View.whole main_v16_1).slice (win1_10.rect t)).set ↔ _
  rw [View.set_slice_whole, Rect.mem_set_unit]
  exact Iff.rfl

/-- Row r of an output array is in the block of point r / 3000. -/
theorem covered1_9 (i : S1200000x64.Idx) :
    ∃ t : Fin cfg1.N, (cfg1.win 9).flush t = true ∧ i ∈ ((cfg1.win 9).blk t).view.set := by
  have hi0 : (i 0).val < 1200000 := (i 0).isLt
  have hi1 : (i 1).val < 64 := (i 1).isLt
  have hN : cfg1.N = 400 := N_1
  have ht : (i 0).val / 3000 < cfg1.N := by rw [hN]; omega
  refine ⟨⟨(i 0).val / 3000, ht⟩, flush1_9 _, ?_⟩
  have hx := idx_facts1 ⟨(i 0).val / 3000, ht⟩
  rw [mem_blk1_9]
  intro a
  match a with
  | ⟨0, _⟩ =>
    show win1_9.index ⟨(i 0).val / 3000, ht⟩ (0 : Fin 2) * 3000 ≤ (i 0).val
      ∧ (i 0).val < win1_9.index ⟨(i 0).val / 3000, ht⟩ (0 : Fin 2) * 3000 + 3000
    rw [hx.2.2.2.2.2.2.2.2.2.2.2.2.2.2.1]
    show (i 0).val / 3000 * 3000 ≤ (i 0).val ∧ (i 0).val < (i 0).val / 3000 * 3000 + 3000
    omega
  | ⟨1, _⟩ =>
    show win1_9.index ⟨(i 0).val / 3000, ht⟩ (1 : Fin 2) * 64 ≤ (i 1).val
      ∧ (i 1).val < win1_9.index ⟨(i 0).val / 3000, ht⟩ (1 : Fin 2) * 64 + 64
    rw [hx.2.2.2.2.2.2.2.2.2.2.2.2.2.2.2.1]
    omega
theorem covered1_10 (i : S1200000x3.Idx) :
    ∃ t : Fin cfg1.N, (cfg1.win 10).flush t = true ∧ i ∈ ((cfg1.win 10).blk t).view.set := by
  have hi0 : (i 0).val < 1200000 := (i 0).isLt
  have hi1 : (i 1).val < 3 := (i 1).isLt
  have hN : cfg1.N = 400 := N_1
  have ht : (i 0).val / 3000 < cfg1.N := by rw [hN]; omega
  refine ⟨⟨(i 0).val / 3000, ht⟩, flush1_10 _, ?_⟩
  have hx := idx_facts1 ⟨(i 0).val / 3000, ht⟩
  rw [mem_blk1_10]
  intro a
  match a with
  | ⟨0, _⟩ =>
    show win1_10.index ⟨(i 0).val / 3000, ht⟩ (0 : Fin 2) * 3000 ≤ (i 0).val
      ∧ (i 0).val < win1_10.index ⟨(i 0).val / 3000, ht⟩ (0 : Fin 2) * 3000 + 3000
    rw [hx.2.2.2.2.2.2.2.2.2.2.2.2.2.2.2.2.1]
    show (i 0).val / 3000 * 3000 ≤ (i 0).val ∧ (i 0).val < (i 0).val / 3000 * 3000 + 3000
    omega
  | ⟨1, _⟩ =>
    show win1_10.index ⟨(i 0).val / 3000, ht⟩ (1 : Fin 2) * 3 ≤ (i 1).val
      ∧ (i 1).val < win1_10.index ⟨(i 0).val / 3000, ht⟩ (1 : Fin 2) * 3 + 3
    rw [hx.2.2.2.2.2.2.2.2.2.2.2.2.2.2.2.2.2]
    omega

/-! ## The arrays after the region -/

section Final

variable (V : (c : Dev nD) → (b : Ref sig .tc) → Buf (Elt Ideal) ((c : Thread nD τ).loc b))

/-- THE MESSAGE ARRAY after the region: row by row the edge's message of the packed rows, at the region's weights. -/
theorem arr1_9 (c : Dev nD) :
    (dat1 (F := Ideal) V c).arrAt 9 cfg1.N
      = rows1 (fun p => Cert.Egnn.msgRow (V c main_v12) (V c main_arg9) (V c main_v13) (V c main_arg11) (hi 0 64 (by omega) p)
          (hi 64 64 (by omega) p) (hi 128 3 (by omega) p) (hi 131 16 (by omega) p)) (V c main_v11) :=
  (dat1 V c).arrAt_eq_of_cover 9 (G1_9 V c) (fun t _ => flushed1_9_eq V c t) covered1_9

/-- THE SHIFT ARRAY after the region: row by row the edge's coordinate shift of the packed rows. -/
theorem arr1_10 (c : Dev nD) :
    (dat1 (F := Ideal) V c).arrAt 10 cfg1.N
      = rows1 (fun p => Cert.Egnn.shiftRow (V c main_v14) (V c main_arg17) (V c main_v15) (V c main_arg19)
          (Cert.Egnn.msgRow (V c main_v12) (V c main_arg9) (V c main_v13) (V c main_arg11) (hi 0 64 (by omega) p)
            (hi 64 64 (by omega) p) (hi 128 3 (by omega) p) (hi 131 16 (by omega) p)) (hi 128 3 (by omega) p)) (V c main_v11) :=
  (dat1 V c).arrAt_eq_of_cover 10 (G1_10 V c) (fun t _ => flushed1_10_eq V c t) covered1_10

end Final

end Cert.KernelIdeal.Hand

end
-- ==== Proof.KI.Value2.lean ====
/-
  THE VALUE OF REGION 2 over the extended reals: the array the node update leaves is, row by row, the node update of
  the specification — the output layer of the two-layer network on each node's hidden state beside its aggregated
  message — of the arrays the region finds.

  First the stored value of one block in row form: the two blocks side by side, the first layer with its positive part,
  the second layer and the output layer are each a row-wise map, and a row-wise map after a row-wise map is the row-wise
  map of the composite; a change of float format and a cast to the same shape change nothing at the extended reals.
  Then from the blocks to the array: at point t the two node windows' blocks are rows t · 5000 … t · 5000 + 4999 of their
  arrays, the weight and bias windows' blocks are their whole arrays, so what point t writes back is block t of the
  row-wise function of the whole arrays; every row r lies in the block of point r / 5000; hence the array.
-/
import proofs.«428612_j50654844289863_1_alg».proof.Proof.KI.Region2
import proofs.«428612_j50654844289863_1_alg».proof.Proof.Spec
import proofs.«428612_j50654844289863_1_alg».proof.Proof.LibRowDense
import proofs.«428612_j50654844289863_1_alg».proof.Proof.LibRowLayout
import proofs.«428612_j50654844289863_1_alg».proof.Proof.LibRowCat4
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.RowOps Idealize.ShloMosaic.ValueIdx
open Idealize.ShloMosaic.Pipeline (Dat)

variable (V : (c : Dev nD) → (b : Ref sig .tc) → Buf (Elt Ideal) ((c : Thread nD τ).loc b))

/-! ## The stored value, row by row -/

theorem rowsCols_128_r2 : IsRowsCols (A := 5000) (K := 128) (B := 64) dot_S5000x128_S128x64_S5000x64_1_0_0_1_n_n :=
  ⟨rfl, rfl, rfl, rfl, rfl, rfl, rfl, rfl⟩
theorem rowsCols_64_r2 : IsRowsCols (A := 5000) (K := 64) (B := 64) dot_S5000x64_S64x64_S5000x64_1_0_0_1_n_n :=
  ⟨rfl, rfl, rfl, rfl, rfl, rfl, rfl, rfl⟩

theorem pay2_rows (v0 v2 : Vec Ideal S5000x64 .f32) (v6 : Vec Ideal S128x64 .bf16) (v9 : Vec Ideal S64 .f32)
    (v16 : Vec Ideal S64x64 .bf16) (v19 : Vec Ideal S64 .f32) (v24 : Vec Ideal S64x64 .bf16) (v27 : Vec Ideal S64 .f32) :
    k2_pay1 (F := Ideal) v0 v2 v6 v9 v16 v19 v24 v27
      = rows2 (Cert.Egnn.nodeRow (v6 : Mat 128 64) (v9 : Arr 64) (v16 : Mat 64 64) (v19 : Arr 64) (v24 : Mat 64 64) (v27 : Arr 64))
          (v0 : Mat 5000 64) (v2 : Mat 5000 64) := by
  unfold k2_pay1
  dsimp only
  rw [shapeCast_self v0, shapeCast_self v2, shapeCast_self v6, shapeCast_self v16, shapeCast_self v24]
  rw [concat2_rows (A := 5000) (a := 64) (b := 64) (n := 128) v0 v2 concatenates_S5000x64_S5000x64_S5000x128_d1]
  erw [kdense_relu dot_S5000x128_S128x64_S5000x64_1_0_0_1_n_n rowsCols_128_r2
    (rows2 (fun x y => cat2 (n := 128) x y) (v0 : Mat 5000 64) (v2 : Mat 5000 64)) (v6 : Mat 128 64) (v9 : Arr 64)
    shapeCasts_S64_S1x64 broadcasts_S1x64_S5000x64]
  erw [kdense dot_S5000x64_S64x64_S5000x64_1_0_0_1_n_n rowsCols_64_r2
    (rows1 (fun x => relu (dense (v6 : Mat 128 64) (v9 : Arr 64) x))
      (rows2 (fun x y => cat2 (n := 128) x y) (v0 : Mat 5000 64) (v2 : Mat 5000 64))) (v16 : Mat 64 64) (v19 : Arr 64)
    shapeCasts_S64_S1x64 broadcasts_S1x64_S5000x64]
  erw [kdense dot_S5000x64_S64x64_S5000x64_1_0_0_1_n_n rowsCols_64_r2
    (rows1 (fun x => dense (v16 : Mat 64 64) (v19 : Arr 64) x)
      (rows1 (fun x => relu (dense (v6 : Mat 128 64) (v9 : Arr 64) x))
        (rows2 (fun x y => cat2 (n := 128) x y) (v0 : Mat 5000 64) (v2 : Mat 5000 64)))) (v24 : Mat 64 64) (v27 : Arr 64)
    shapeCasts_S64_S1x64 broadcasts_S1x64_S5000x64]
  rfl

/-! ## From the blocks to the array -/

theorem hz2_r2 : (![0, 0] : Fin 2 → Nat) = fun _ => 0 := funext fun a => by fin_cases a <;> rfl
theorem hz1_r2 : (![0] : Fin 1 → Nat) = fun _ => 0 := funext fun a => by fin_cases a; rfl

/-- The printed index maps, decided over the twenty points: the two node windows and the output move one block of rows
    per point, the weight and bias windows stay on their whole arrays. -/
theorem idx_facts2_r2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = 0 ∧ win2_6.index t (1 : Fin 2) = 0
    ∧ win2_7.index t (0 : Fin 1) = 0
    ∧ win2_8.index t (0 : Fin 2) = t.val ∧ win2_8.index t (1 : Fin 2) = 0 :=
  (by decide +kernel : ∀ t : Fin grid2.N, _)

/-- Row `p` of block `q` of a row-wise matrix is the row function of rows `q · 5000 + p` of the two matrices. -/
theorem block_rows2_r2 (q : Nat) (hq : q < 20) (f : (Fin 64 → EReal) → (Fin 64 → EReal) → Fin 64 → EReal)
    (H A : Mat 100000 64) (Hb Ab : Mat 5000 64)
    (hH : ∀ (p : Fin 5000) (k : Fin 64), Hb (ix2 p k) = H (ix2 (⟨q * 5000 + p.val, by omega⟩ : Fin 100000) k))
    (hA : ∀ (p : Fin 5000) (k : Fin 64), Ab (ix2 p k) = A (ix2 (⟨q * 5000 + p.val, by omega⟩ : Fin 100000) k))
    (p : Fin 5000) (k : Fin 64) :
    rows2 f Hb Ab (ix2 p k) = rows2 f H A (ix2 (⟨q * 5000 + p.val, by omega⟩ : Fin 100000) k) := by
  rw [rows2_apply, rows2_apply]
  have e1 : row Hb p = row H (⟨q * 5000 + p.val, by omega⟩ : Fin 100000) := funext fun k => hH p k
  have e2 : row Ab p = row A (⟨q * 5000 + p.val, by omega⟩ : Fin 100000) := funext fun k => hA p k
  rw [e1, e2]

/-- The stored value of point `q` at entry `(p, k)` of its block, from blocks that are rows `q · 5000 …` of the node
    arrays and the whole weight and bias arrays: the node update of row `q · 5000 + p`. -/
theorem point_value2_r2 (q : Nat) (hq : q < 20)
    (Wn1 : Mat 128 64) (bn1 : Arr 64) (Wn2 : Mat 64 64) (bn2 : Arr 64) (Wout : Mat 64 64) (bout : Arr 64) (H A : Mat 100000 64)
    (x0 x1 : Vec Ideal S5000x64 .f32) (x2 : Vec Ideal S128x64 .bf16) (x3 : Vec Ideal S64 .f32) (x4 : Vec Ideal S64x64 .bf16)
    (x5 : Vec Ideal S64 .f32) (x6 : Vec Ideal S64x64 .bf16) (x7 : Vec Ideal S64 .f32)
    (h0 : ∀ (p : Fin 5000) (k : Fin 64), x0 (ix2 p k) = H (ix2 (⟨q * 5000 + p.val, by omega⟩ : Fin 100000) k))
    (h1 : ∀ (p : Fin 5000) (k : Fin 64), x1 (ix2 p k) = A (ix2 (⟨q * 5000 + p.val, by omega⟩ : Fin 100000) k))
    (h2 : x2 = Wn1) (h3 : x3 = bn1) (h4 : x4 = Wn2) (h5 : x5 = bn2) (h6 : x6 = Wout) (h7 : x7 = bout)
    (p : Fin 5000) (k : Fin 64) :
    k2_pay1 (F := Ideal) x0 x1 x2 x3 x4 x5 x6 x7 (ix2 p k)
      = rows2 (Cert.Egnn.nodeRow Wn1 bn1 Wn2 bn2 Wout bout) H A (ix2 (⟨q * 5000 + p.val, by omega⟩ : Fin 100000) k) := by
  subst h2 h3 h4 h5 h6 h7
  rw [pay2_rows]
  exact block_rows2_r2 q hq _ H A x0 x1 h0 h1 p k

/-- A node window's block at point `t` is rows `t · 5000 …` of its array. -/
theorem iblk2_0_apply (c : Dev nD) (t : Fin cfg2.N) (ht : t.val < 20) (p : Fin 5000) (k : Fin 64) :
    (iblk2 V c 0 t : Vec Ideal S5000x64 .f32) (ix2 p k)
      = (V c main_v5 : Mat 100000 64) (ix2 (⟨t.val * 5000 + p.val, by omega⟩ : Fin 100000) k) := by
  obtain ⟨e0, e1, -⟩ := idx_facts2_r2 t
  show V c main_v5 (((cfg2.win 0).blk t).view.emb (ix2 p k)) = _
  refine congrArg (V c main_v5) (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 64 + 1 * k.val = k.val; rw [e1]; omega
theorem iblk2_1_apply (c : Dev nD) (t : Fin cfg2.N) (ht : t.val < 20) (p : Fin 5000) (k : Fin 64) :
    (iblk2 V c 1 t : Vec Ideal S5000x64 .f32) (ix2 p k)
      = (V c main_v32 : Mat 100000 64) (ix2 (⟨t.val * 5000 + p.val, by omega⟩ : Fin 100000) k) := by
  obtain ⟨-, -, e0, e1, -⟩ := idx_facts2_r2 t
  show V c main_v32 (((cfg2.win 1).blk t).view.emb (ix2 p k)) = _
  refine congrArg (V c main_v32) (funext fun a => Fin.ext ?_)
  match a with
  | ⟨0, _⟩ => show win2_1.index t (0 : Fin 2) * 5000 + 1 * p.val = t.val * 5000 + p.val; rw [e0]; omega
  | ⟨1, _⟩ => show win2_1.index t (1 : Fin 2) * 64 + 1 * k.val = k.val; rw [e1]; omega

/-- A weight or bias window's block at every point is its whole array. -/
theorem iblk2_2_eq (c : Dev nD) (t : Fin cfg2.N) : (iblk2 V c 2 t : Vec Ideal S128x64 .bf16) = V c main_v33 := by
  obtain ⟨-, -, -, -, e0, e1, -⟩ := idx_facts2_r2 t
  funext y
  show V c main_v33 (((cfg2.win 2).blk t).view.emb y) = V c main_v33 y
  refine congrArg (V c main_v33) (funext fun a => Fin.ext ?_)
  match a with
  | ⟨0, _⟩ => show win2_2.index t (0 : Fin 2) * 128 + 1 * (y 0).val = (y 0).val; rw [e0]; omega
  | ⟨1, _⟩ => show win2_2.index t (1 : Fin 2) * 64 + 1 * (y 1).val = (y 1).val; rw [e1]; omega
theorem iblk2_3_eq (c : Dev nD) (t : Fin cfg2.N) : (iblk2 V c 3 t : Vec Ideal S64 .f32) = V c main_arg13 := by
  obtain ⟨-, -, -, -, -, -, e0, -⟩ := idx_facts2_r2 t
  funext y
  show V c main_arg13 (((cfg2.win 3).blk t).view.emb y) = V c main_arg13 y
  refine congrArg (V c main_arg13) (funext fun a => Fin.ext ?_)
  match a with
  | ⟨0, _⟩ => show win2_3.index t (0 : Fin 1) * 64 + 1 * (y 0).val = (y 0).val; rw [e0]; omega
theorem iblk2_4_eq (c : Dev nD) (t : Fin cfg2.N) : (iblk2 V c 4 t : Vec Ideal S64x64 .bf16) = V c main_v34 := by
  obtain ⟨-, -, -, -, -, -, -, e0, e1, -⟩ := idx_facts2_r2 t
  funext y
  show V c main_v34 (((cfg2.win 4).blk t).view.emb y) = V c main_v34 y
  refine congrArg (V c main_v34) (funext fun a => Fin.ext ?_)
  match a with
  | ⟨0, _⟩ => show win2_4.index t (0 : Fin 2) * 64 + 1 * (y 0).val = (y 0).val; rw [e0]; omega
  | ⟨1, _⟩ => show win2_4.index t (1 : Fin 2) * 64 + 1 * (y 1).val = (y 1).val; rw [e1]; omega
theorem iblk2_5_eq (c : Dev nD) (t : Fin cfg2.N) : (iblk2 V c 5 t : Vec Ideal S64 .f32) = V c main_arg15 := by
  obtain ⟨-, -, -, -, -, -, -, -, -, e0, -⟩ := idx_facts2_r2 t
  funext y
  show V c main_arg15 (((cfg2.win 5).blk t).view.emb y) = V c main_arg15 y
  refine congrArg (V c main_arg15) (funext fun a => Fin.ext ?_)
  match a with
  | ⟨0, _⟩ => show win2_5.index t (0 : Fin 1) * 64 + 1 * (y 0).val = (y 0).val; rw [e0]; omega
theorem iblk2_6_eq (c : Dev nD) (t : Fin cfg2.N) : (iblk2 V c 6 t : Vec Ideal S64x64 .bf16) = V c main_v35 := by
  obtain ⟨-, -, -, -, -, -, -, -, -, -, e0, e1, -⟩ := idx_facts2_r2 t
  funext y
  show V c main_v35 (((cfg2.win 6).blk t).view.emb y) = V c main_v35 y
  refine congrArg (V c main_v35) (funext fun a => Fin.ext ?_)
  match a with
  | ⟨0, _⟩ => show win2_6.index t (0 : Fin 2) * 64 + 1 * (y 0).val = (y 0).val; rw [e0]; omega
  | ⟨1, _⟩ => show win2_6.index t (1 : Fin 2) * 64 + 1 * (y 1).val = (y 1).val; rw [e1]; omega
theorem iblk2_7_eq (c : Dev nD) (t : Fin cfg2.N) : (iblk2 V c 7 t : Vec Ideal S64 .f32) = V c main_arg7 := by
  obtain ⟨-, -, -, -, -, -, -, -, -, -, -, -, e0, -⟩ := idx_facts2_r2 t
  funext y
  show V c main_arg7 (((cfg2.win 7).blk t).view.emb y) = V c main_arg7 y
  refine congrArg (V c main_arg7) (funext fun a => Fin.ext ?_)
  match a with
  | ⟨0, _⟩ => show win2_7.index t (0 : Fin 1) * 64 + 1 * (y 0).val = (y 0).val; rw [e0]; omega

/-- The node update of every node, from the arrays the region finds. -/
abbrev G2_8_r2 (c : Dev nD) : Mat 100000 64 :=
  rows2 (Cert.Egnn.nodeRow (V c main_v33) (V c main_arg13) (V c main_v34) (V c main_arg15) (V c main_v35) (V c main_arg7))
    (V c main_v5) (V c main_v32)

/-- What point `t` writes back is block `t` of the node update of every node. -/
theorem flushed2_8_eq (c : Dev nD) (t : Fin cfg2.N) :
    (dat2 (F := Ideal) V c).flushed 8 t = ((cfg2.win 8).blk t).view.read (Elt Ideal) (G2_8_r2 V c) := by
  have ht : t.val < 20 := Nat.lt_of_lt_of_eq t.isLt N_2
  show (cfg2.win 8).cut (grid2.coords t) ((dat2 V c).after 8 t) = _
  rw [after2_8]
  unfold out2_8
  rw [View.canon_unit_zero hz2_r2]
  simp only [View.ld_unit_zero (S := S5000x64) hz2_r2, View.ld_unit_zero (S := S128x64) hz2_r2, View.ld_unit_zero (S := S64x64) hz2_r2,
    View.ld_unit_zero (S := S64) hz1_r2]
  refine mat_ext (A := 5000) (B := 64) fun p k => ?_
  refine (point_value2_r2 t.val ht (V c main_v33) (V c main_arg13) (V c main_v34) (V c main_arg15) (V c main_v35) (V c main_arg7)
    (V c main_v5) (V c main_v32) (iblk2 V c 0 t) (iblk2 V c 1 t) (iblk2 V c 2 t) (iblk2 V c 3 t) (iblk2 V c 4 t) (iblk2 V c 5 t)
    (iblk2 V c 6 t) (iblk2 V c 7 t) (iblk2_0_apply V c t ht) (iblk2_1_apply V c t ht) (iblk2_2_eq V c t) (iblk2_3_eq V c t)
    (iblk2_4_eq V c t) (iblk2_5_eq V c t) (iblk2_6_eq V c t) (iblk2_7_eq V c t) p k).trans ?_
  obtain ⟨-, -, -, -, -, -, -, -, -, -, -, -, -, e0, e1⟩ := idx_facts2_r2 t
  show G2_8_r2 V c _ = G2_8_r2 V c (((cfg2.win 8).blk t).view.emb (ix2 p k))
  refine congrArg (G2_8_r2 V c) (funext fun a => Fin.ext ?_)
  match a with
  | ⟨0, _⟩ => show t.val * 5000 + p.val = win2_8.index t (0 : Fin 2) * 5000 + 1 * p.val; rw [e0]; omega
  | ⟨1, _⟩ => show k.val = win2_8.index t (1 : Fin 2) * 64 + 1 * k.val; rw [e1]; omega

/-- An index of the array is in point `t`'s block iff each coordinate is in the block's range on its axis. -/
theorem mem_blk2_8_r2 (t : Fin cfg2.N) (i : S100000x64.Idx) :
    i ∈ ((cfg2.win 8).blk t).view.set ↔ ∀ a : Fin 2, win2_8.index t a * S5000x64.size a ≤ (i a).val
      ∧ (i a).val < win2_8.index t a * S5000x64.size a + S5000x64.size a := by
  show i ∈ ((View.whole main_v36).slice (win2_8.rect t)).set ↔ _
  rw [View.set_slice_whole, Rect.mem_set_unit]
  exact Iff.rfl

/-- Every row is in the block of the point its number divided by 5000 names. -/
theorem cover2_arr_r2 (i : S100000x64.Idx) :
    ∃ t : Fin cfg2.N, (cfg2.win 8).flush t = true ∧ i ∈ ((cfg2.win 8).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_8 _, ?_⟩
  rw [mem_blk2_8_r2]
  obtain ⟨-, -, -, -, -, -, -, -, -, -, -, -, -, e0, e1⟩ := idx_facts2_r2 ⟨(i 0).val / 5000, by rw [hN]; omega⟩
  intro a
  match a with
  | ⟨0, _⟩ =>
    show win2_8.index _ (0 : Fin 2) * 5000 ≤ (i 0).val ∧ (i 0).val < win2_8.index _ (0 : Fin 2) * 5000 + 5000
    rw [e0]; show (i 0).val / 5000 * 5000 ≤ (i 0).val ∧ (i 0).val < (i 0).val / 5000 * 5000 + 5000; omega
  | ⟨1, _⟩ =>
    show win2_8.index _ (1 : Fin 2) * 64 ≤ (i 1).val ∧ (i 1).val < win2_8.index _ (1 : Fin 2) * 64 + 64
    rw [e1]; omega

/-- THE ARRAY after the region: the node update of every node, row by row. -/
theorem arr2_8 (c : Dev nD) : (dat2 (F := Ideal) V c).arrAt 8 cfg2.N
    = rows2 (Cert.Egnn.nodeRow (V c main_v33) (V c main_arg13) (V c main_v34) (V c main_arg15) (V c main_v35) (V c main_arg7))
        (V c main_v5) (V c main_v32) :=
  (dat2 (F := Ideal) V c).arrAt_eq_of_cover 8 (G2_8_r2 V c) (fun t _ => flushed2_8_eq V c t) (cover2_arr_r2)

end Cert.KernelIdeal.Hand

end
-- ==== Proof.SpecAll.lean ====
/-
  THE TWO RESULTS OF THE LAYER AS FUNCTIONS OF THE TWENTY ARGUMENT ARRAYS: the output features and the new coordinates of
  Spec.lean, with the edges' row and column node numbers read off the two rows of the index array.
-/
import proofs.«428612_j50654844289863_1_alg».proof.Proof.Spec

noncomputable section

namespace Cert.Egnn

open Idealize.ShloMosaic Idealize.ShloMosaic.RowOps

/-- Row `r` (0 or 1) of the 2 × E index array, as a vector of E words. -/
def idxRow (off : Fin 2 → Nat) (ei : IVec (⟨2, ![2, 1200000]⟩ : Shape) 32)
    (hs : (⟨2, ![2, 1200000]⟩ : Shape).Slices off (⟨2, ![1, 1200000]⟩ : Shape))
    (hc : (⟨2, ![1, 1200000]⟩ : Shape).ShapeCasts sE) : IVec sE 32 :=
  shapeCast sE (extractStridedSlice (⟨2, ![1, 1200000]⟩ : Shape) off ei hs) hc

/-- The edges' `row` node numbers. -/
def rowIdx (ei : IVec (⟨2, ![2, 1200000]⟩ : Shape) 32) : IVec sE 32 := idxRow ![0, 0] ei (by decide) (by decide)
/-- The edges' `col` node numbers. -/
def colIdx (ei : IVec (⟨2, ![2, 1200000]⟩ : Shape) 32) : IVec sE 32 := idxRow ![1, 0] ei (by decide) (by decide)

/-- Every edge's message, from the argument arrays. -/
def msgsAll (x : Mat 100000 32) (ea : Mat 1200000 16) (co : Mat 100000 3) (ei : IVec (⟨2, ![2, 1200000]⟩ : Shape) 32)
    (Win : Mat 32 64) (bin : Arr 64) (We1 : Mat 145 64) (be1 : Arr 64) (We2 : Mat 64 64) (be2 : Arr 64) : Mat 1200000 64 :=
  msgs We1 be1 We2 be2 (hid x Win bin) co ea (rowIdx ei) (colIdx ei)

/-- The output features, from the argument arrays. -/
def outAll (x : Mat 100000 32) (ea : Mat 1200000 16) (co : Mat 100000 3) (ei : IVec (⟨2, ![2, 1200000]⟩ : Shape) 32)
    (Win : Mat 32 64) (bin : Arr 64) (Wout : Mat 64 64) (bout : Arr 64) (We1 : Mat 145 64) (be1 : Arr 64)
    (We2 : Mat 64 64) (be2 : Arr 64) (Wn1 : Mat 128 64) (bn1 : Arr 64) (Wn2 : Mat 64 64) (bn2 : Arr 64) : Mat 100000 64 :=
  outFeat Wn1 bn1 Wn2 bn2 Wout bout (hid x Win bin) (aggM (rowIdx ei) (msgsAll x ea co ei Win bin We1 be1 We2 be2))

/-- The new coordinates, from the argument arrays. -/
def coordsAll (x : Mat 100000 32) (ea : Mat 1200000 16) (co : Mat 100000 3) (ei : IVec (⟨2, ![2, 1200000]⟩ : Shape) 32)
    (Win : Mat 32 64) (bin : Arr 64) (We1 : Mat 145 64) (be1 : Arr 64) (We2 : Mat 64 64) (be2 : Arr 64)
    (Wc1 : Mat 64 64) (bc1 : Arr 64) (Wc2 : Mat 64 1) (bc2 : Arr 1) : Mat 100000 3 :=
  coordsNew co (rowIdx ei)
    (shifts Wc1 bc1 Wc2 bc2 (msgsAll x ea co ei Win bin We1 be1 We2 be2) (diff co (rowIdx ei) (colIdx ei)))

end Cert.Egnn

end
-- ==== Proof.TakeMask.lean ====
/-
  READING ROWS AT NODE NUMBERS THAT ARE IN RANGE. The take of rows at a vector of node numbers first wraps a negative
  number from the end, then masks every row whose wrapped number falls outside the table with a NaN. When every number
  already lies in [0, 100000) neither step does anything: no word is negative, so the wrap is the identity; every
  wrapped word passes both range tests, so the mask is all ones and the masked select returns the gathered rows.
-/
import proofs.«428612_j50654844289863_1_alg».proof.Proof.Spec
import Idealize.ShloMosaic.PureOps
import Idealize.ShloMosaic.Lib.StableHlo.Predicate
import Idealize.ShloMosaic.Lib.ReduceAll

noncomputable section

namespace Cert.Egnn.TakeMask

open Idealize.ShloMosaic

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_ones f l fun n hn => h n (List.mem_cons_of_mem _ hn)

/-- A `stablehlo.reduce` by `and` from the constant 1 over an array of ones is all ones. -/
theorem reduce_andi_ones {s t u : Shape} {axes : List (Fin s.rank)} (x : s.Idx → BitVec 1) (hx : ∀ i, x i = 1#1)
    (h : s.ReducesTo axes t) (hu : 0 < u.numel) :
    Host.reduce IntOp.andi x (constantI u 1 1#1) h hu = fun _ => 1#1 := by
  funext j
  rw [Host.reduce_eq_foldl]
  exact foldl_andi_ones x _ fun i _ => hx i

/-- A word below 100000 is not negative. -/
theorem not_slt_zero {a : BitVec 32} (ha : a.toNat < 100000) : ¬ IntOp.cmpi .slt a 0#32 = 1#1 := by
  intro h
  have h' := (StableHlo.Predicate.slt_iff_toNat (a := a) (b := 0#32) (by omega) (by decide)).1 h
  exact absurd h' (by simp)

/-- No word is negative, so the wrap leaves every word as it is. -/
theorem wrap_id (idx : IVec sE 32) (hidx : ∀ k, (idx k).toNat < 100000)
    (h0 h1 : s0.BroadcastsInDim sE ![]) :
    select (cmpi .slt idx (broadcastInDim sE ![] h0 (constantI s0 32 0#32)))
      (addi idx (broadcastInDim sE ![] h1 (constantI s0 32 100000#32))) idx = idx := by
  funext k
  show Scalar.select (IntOp.cmpi .slt (idx k) 0#32) _ (idx k) = idx k
  unfold Scalar.select
  exact if_neg (not_slt_zero (hidx k))

/-- The wrapped column is the words as a column. -/
theorem wrapCol_eq (idx : IVec sE 32) (hidx : ∀ k, (idx k).toNat < 100000) : wrapCol idx = asCol idx := by
  unfold wrapCol asCol
  rw [wrap_id idx hidx]

/-- Every word of the wrapped column is below 100000. -/
theorem wrapCol_lt (idx : IVec sE 32) (hidx : ∀ k, (idx k).toNat < 100000) (i : sE1.Idx) :
    (wrapCol idx i).toNat < 100000 := by
  rw [wrapCol_eq idx hidx]
  exact hidx _

/-- The range mask of the take: every wrapped word is at least 0 and at most 99999, so every row passes. -/
theorem mask_ones (idx : IVec sE 32) (hidx : ∀ k, (idx k).toNat < 100000)
    (hb1 : s0.BroadcastsInDim sE1 ![])
    (hb2 : (⟨1, ![1]⟩ : Shape).BroadcastsInDim (⟨2, ![1, 1]⟩ : Shape) ![1])
    (hb3 : (⟨2, ![1, 1]⟩ : Shape).BroadcastsInDim sE1 ![0, 1])
    (hred : sE1.ReducesTo [1] sE) (hS : 0 < s0.numel) :
    Host.reduce IntOp.andi
      (andi (cmpi .sge (wrapCol idx) (broadcastInDim sE1 ![] hb1 (constantI s0 32 0#32)))
        (cmpi .sle (wrapCol idx)
          (broadcastInDim sE1 ![0, 1] hb3
            (broadcastInDim (⟨2, ![1, 1]⟩ : Shape) ![1] hb2 (constantI (⟨1, ![1]⟩ : Shape) 32 99999#32)))))
      (constantI s0 1 1#1) hred hS = fun _ => 1#1 := by
  apply reduce_andi_ones
  intro i
  have hW := wrapCol_lt idx hidx i
  show IntOp.andi (IntOp.cmpi .sge (wrapCol idx i) 0#32) (IntOp.cmpi .sle (wrapCol idx i) 99999#32) = 1#1
  rw [IntOp.andi_eq_one]
  exact ⟨(StableHlo.Predicate.sge_iff_toNat (by omega) (by decide)).2 (by simp),
    (StableHlo.Predicate.sle_iff_toNat (by omega) (by decide)).2 (by
      show (wrapCol idx i).toNat ≤ 99999
      omega)⟩

/-- The masked take is the plain gather: every row's mask bit is 1, so the select keeps the gathered row. -/
theorem take_eq {D : Nat} (X : FVec Ideal (⟨2, ![100000, D]⟩ : Shape) .f32)
    (d : GatherDims (⟨2, ![100000, D]⟩ : Shape) sE1 (⟨2, ![1200000, D]⟩ : Shape))
    (idx : IVec sE 32) (hidx : ∀ k, (idx k).toNat < 100000)
    (hb1 : s0.BroadcastsInDim sE1 ![])
    (hb2 : (⟨1, ![1]⟩ : Shape).BroadcastsInDim (⟨2, ![1, 1]⟩ : Shape) ![1])
    (hb3 : (⟨2, ![1, 1]⟩ : Shape).BroadcastsInDim sE1 ![0, 1])
    (hred : sE1.ReducesTo [1] sE) (hS : 0 < s0.numel)
    (hbK : sE.BroadcastsInDim (⟨2, ![1200000, D]⟩ : Shape) ![0])
    (hbN : s0.BroadcastsInDim (⟨2, ![1200000, D]⟩ : Shape) ![]) :
    select
      (broadcastInDim (⟨2, ![1200000, D]⟩ : Shape) ![0] hbK
        (Host.reduce IntOp.andi
          (andi (cmpi .sge (wrapCol idx) (broadcastInDim sE1 ![] hb1 (constantI s0 32 0#32)))
            (cmpi .sle (wrapCol idx)
              (broadcastInDim sE1 ![0, 1] hb3
                (broadcastInDim (⟨2, ![1, 1]⟩ : Shape) ![1] hb2 (constantI (⟨1, ![1]⟩ : Shape) 32 99999#32)))))
          (constantI s0 1 1#1) hred hS))
      (Host.gather d X (wrapCol idx))
      (broadcastInDim (⟨2, ![1200000, D]⟩ : Shape) ![] hbN (constant (F := Ideal) s0 .f32 0x7FC00000#32))
      = Host.gather d X (wrapCol idx) := by
  rw [mask_ones idx hidx hb1 hb2 hb3 hred hS]
  funext i
  show Scalar.select 1#1 _ _ = _
  unfold Scalar.select
  exact if_pos rfl

end Cert.Egnn.TakeMask

end
-- ==== Proof.PreRange.lean ====
/-
  THE NODE NUMBERS ARE IN RANGE. The printed precondition ends in the two conjuncts "every entry of the edge index is at
  least 0" and "every entry is below 100000", each a reduce-by-and of a signed word comparison over the whole
  [2 × 1200000] array. Read back, they bound every entry as an unsigned word below 100000; the rows of node numbers the
  programs slice out of that array and reshape to vectors are entries of it, so they are bounded too.
-/
import proofs.«428612_j50654844289863_1_alg».proof.Pre_finite_inputs
import proofs.«428612_j50654844289863_1_alg».proof.Proof.Gen.Pre_finite_inputs
import Idealize.ShloMosaic.PureOps
import Idealize.ShloMosaic.Lib.ReduceAll
import Idealize.ShloMosaic.Lib.StableHlo.Predicate
import Idealize.ShloMosaic.Lib.ValueIdx

noncomputable section

namespace Cert.Egnn.PreRange

open Idealize.ShloMosaic Cert.Pre_finite_inputs Cert.Pre_finite_inputs.Facts

/-- The rank-0 shape has one index. -/
instance : Subsingleton S_.Idx := ⟨fun a b => funext fun d => d.elim0⟩

/-- A word in [0, 100000) signed is below 100000 unsigned. -/
theorem toNat_lt (w : BitVec 32) (h0 : IntOp.cmpi .sge w 0#32 = 1#1) (h1 : IntOp.cmpi .slt w 100000#32 = 1#1) :
    w.toNat < 100000 := by
  unfold IntOp.cmpi at h0 h1
  rw [StableHlo.Predicate.ofBool_eq_one_iff] at h0 h1
  simp only [BitVec.slt, BitVec.sle, decide_eq_true_eq] at h0 h1
  have z : (0#32 : BitVec 32).toInt = 0 := by decide
  have c : (100000#32 : BitVec 32).toInt = 100000 := by decide
  rw [z] at h0
  rw [c] at h1
  have h32 := w.isLt
  rw [BitVec.toInt_eq_toNat_cond] at h0 h1
  split at h0 <;> omega

/-- The last part of the printed precondition ends in the two range conjuncts: where it is 1, every entry of the edge
    index is a word below 100000. -/
theorem part5_range {F : FTy → Type} [FloatOps F] (a3 : IVec S2x1200000 32) (a19 : FVec F S1 .f32) (v83 : IVec S_ 1)
    (v84 : FVec F S64x1 .f32) (cst : FVec F S_ .f32)
    (h : fn_part5 (F := F) a3 a19 v83 v84 cst ValueIdx.ix0 = 1#1) (j : S2x1200000.Idx) : (a3 j).toNat < 100000 := by
  dsimp only [fn_part5] at h
  obtain ⟨h1, hC⟩ := IntOp.andi_eq_one.1 h
  obtain ⟨_, hB⟩ := IntOp.andi_eq_one.1 h1
  exact toNat_lt _ (Host.reduce_andi_all _ _ _ _ _ hB j) (Host.reduce_andi_all _ _ _ _ _ hC j)

/-- Under the printed precondition every entry of the edge index, as an unsigned word, is below 100000. -/
theorem index_range {F : FTy → Type} [FloatOps F]
    (a0 : FVec F S100000x32 .f32) (a1 : FVec F S1200000x16 .f32) (a2 : FVec F S100000x3 .f32) (a3 : IVec S2x1200000 32)
    (a4 : FVec F S32x64 .f32) (a5 : FVec F S64 .f32) (a6 : FVec F S64x64 .f32) (a7 : FVec F S64 .f32)
    (a8 : FVec F S145x64 .f32) (a9 : FVec F S64 .f32) (a10 : FVec F S64x64 .f32) (a11 : FVec F S64 .f32)
    (a12 : FVec F S128x64 .f32) (a13 : FVec F S64 .f32) (a14 : FVec F S64x64 .f32) (a15 : FVec F S64 .f32)
    (a16 : FVec F S64x64 .f32) (a17 : FVec F S64 .f32) (a18 : FVec F S64x1 .f32) (a19 : FVec F S1 .f32)
    (h : fn (F := F) a0 a1 a2 a3 a4 a5 a6 a7 a8 a9 a10 a11 a12 a13 a14 a15 a16 a17 a18 a19 = fun _ => 1#1) :
    ∀ j : S2x1200000.Idx, (a3 j).toNat < 100000 := by
  intro j
  have e := congrFun h ValueIdx.ix0
  dsimp only [fn, fn_part1, fn_part2, fn_part3, fn_part4] at e
  exact part5_range _ _ _ _ _ e j

/-- A row of the edge index, sliced out at any offset and reshaped to a vector, reads entries of the edge index. -/
theorem sliced_mem {α : Type} (a3 : S2x1200000.Idx → α) (off : Fin 2 → Nat)
    (hs : S2x1200000.Slices off (⟨2, ![1, 1200000]⟩ : Shape))
    (hc : (⟨2, ![1, 1200000]⟩ : Shape).ShapeCasts (⟨1, ![1200000]⟩ : Shape)) (k : (⟨1, ![1200000]⟩ : Shape).Idx) :
    ∃ j, shapeCast (⟨1, ![1200000]⟩ : Shape) (extractStridedSlice (⟨2, ![1, 1200000]⟩ : Shape) off a3 hs) hc k = a3 j :=
  ⟨_, rfl⟩

/-- So the vector of node numbers sliced out at any offset (row 0: the edges' `row`; row 1: their `col`) is in range
    when every entry of the edge index is. -/
theorem sliced_range (a3 : IVec S2x1200000 32) (hr : ∀ j, (a3 j).toNat < 100000) (off : Fin 2 → Nat)
    (hs : S2x1200000.Slices off (⟨2, ![1, 1200000]⟩ : Shape))
    (hc : (⟨2, ![1, 1200000]⟩ : Shape).ShapeCasts (⟨1, ![1200000]⟩ : Shape)) (k : (⟨1, ![1200000]⟩ : Shape).Idx) :
    (shapeCast (⟨1, ![1200000]⟩ : Shape) (extractStridedSlice (⟨2, ![1, 1200000]⟩ : Shape) off a3 hs) hc k).toNat < 100000 := by
  obtain ⟨j, e⟩ := sliced_mem a3 off hs hc k
  rw [e]; exact hr j

/-- The edges' `row` numbers, as the programs compute them (offset ![0, 0]). -/
theorem row_range (a3 : IVec S2x1200000 32) (hr : ∀ j, (a3 j).toNat < 100000)
    (hs : S2x1200000.Slices ![0, 0] (⟨2, ![1, 1200000]⟩ : Shape))
    (hc : (⟨2, ![1, 1200000]⟩ : Shape).ShapeCasts (⟨1, ![1200000]⟩ : Shape)) (k : (⟨1, ![1200000]⟩ : Shape).Idx) :
    (shapeCast (⟨1, ![1200000]⟩ : Shape) (extractStridedSlice (⟨2, ![1, 1200000]⟩ : Shape) ![0, 0] a3 hs) hc k).toNat
      < 100000 :=
  sliced_range a3 hr _ hs hc k

/-- The edges' `col` numbers (offset ![1, 0]). -/
theorem col_range (a3 : IVec S2x1200000 32) (hr : ∀ j, (a3 j).toNat < 100000)
    (hs : S2x1200000.Slices ![1, 0] (⟨2, ![1, 1200000]⟩ : Shape))
    (hc : (⟨2, ![1, 1200000]⟩ : Shape).ShapeCasts (⟨1, ![1200000]⟩ : Shape)) (k : (⟨1, ![1200000]⟩ : Shape).Idx) :
    (shapeCast (⟨1, ![1200000]⟩ : Shape) (extractStridedSlice (⟨2, ![1, 1200000]⟩ : Shape) ![1, 0] a3 hs) hc k).toNat
      < 100000 :=
  sliced_range a3 hr _ hs hc k

end Cert.Egnn.PreRange

end
-- ==== Proof.KI.ValueGlue.lean ====
/-
  GLUE between the regions' values and the layer of the specification, over any arrays.

  A row-wise map of the four cuts of four rows put side by side is the row-wise map of the four rows; so the message and
  shift arrays the edge region leaves, row-wise maps of the packed rows [h_row, h_col, d, attr], are the specification's
  messages and shifts of the four matrices. The masked take of rows the host performs is the specification's take when
  the node numbers are in range, and under the precondition they are. The host's sums into nodes, quotient and final sum
  are the specification's own terms.
-/
import proofs.«428612_j50654844289863_1_alg».proof.Defs
import proofs.«428612_j50654844289863_1_alg».proof.Proof.Gen.KernelIdeal
import proofs.«428612_j50654844289863_1_alg».proof.Proof.Gen.Pre_finite_inputs
import proofs.«428612_j50654844289863_1_alg».proof.Proof.Spec
import proofs.«428612_j50654844289863_1_alg».proof.Proof.SpecAll
import proofs.«428612_j50654844289863_1_alg».proof.Proof.LibRowCat4
import proofs.«428612_j50654844289863_1_alg».proof.Proof.LibRowEdge
import proofs.«428612_j50654844289863_1_alg».proof.Proof.TakeMask
import proofs.«428612_j50654844289863_1_alg».proof.Proof.PreRange

noncomputable section

namespace Idealize.ShloMosaic.RowOps

open Idealize.ShloMosaic Idealize.ShloMosaic.ValueIdx

/-- A row-wise map that first cuts its row into four pieces, on four matrices put side by side, is the row-wise map of
    the four matrices. The cuts' offsets are given with what they equal, so that literal offsets fit. -/
theorem rows1_cuts_rows4 {A a b c d n D : Nat} (hn : a + (b + (c + d)) = n)
    (f : (Fin a → EReal) → (Fin b → EReal) → (Fin c → EReal) → (Fin d → EReal) → Fin D → EReal)
    (o₂ o₃ o₄ : Nat) (e₂ : o₂ = a) (e₃ : o₃ = a + b) (e₄ : o₄ = a + b + c)
    (h₁ : 0 + a ≤ n) (h₂ : o₂ + b ≤ n) (h₃ : o₃ + c ≤ n) (h₄ : o₄ + d ≤ n)
    (X₁ : Mat A a) (X₂ : Mat A b) (X₃ : Mat A c) (X₄ : Mat A d) :
    rows1 (fun p => f (hi 0 a h₁ p) (hi o₂ b h₂ p) (hi o₃ c h₃ p) (hi o₄ d h₄ p))
      (rows4 (fun x₁ x₂ x₃ x₄ => cat4 (n := n) x₁ x₂ x₃ x₄) X₁ X₂ X₃ X₄) = rows4 f X₁ X₂ X₃ X₄ := by
  subst e₂ e₃ e₄
  rw [rows1_rows4]
  funext j
  unfold rows4
  simp only [hi_cat4_1 hn, hi_cat4_2 hn, hi_cat4_3 hn, hi_cat4_4 hn]

end Idealize.ShloMosaic.RowOps

namespace Cert.KernelIdeal.Hand

open Cert.KernelIdeal Cert.KernelIdeal.Gen
open Idealize.ShloMosaic Idealize.ShloMosaic.TcCoe Idealize.ShloMosaic.ValueIdx Idealize.ShloMosaic.RowOps
open Idealize.SL.Sem

/-! ## The edge region's arrays over the packed rows -/

/-- The message array over the packed rows is the row-wise message of the four matrices. -/
theorem k_msgs (We1 : Mat 145 64) (be1 : Arr 64) (We2 : Mat 64 64) (be2 : Arr 64)
    (G1 G2 : Mat 1200000 64) (D : Mat 1200000 3) (ea : Mat 1200000 16) :
    rows1 (fun p => Cert.Egnn.msgRow We1 be1 We2 be2 (hi 0 64 (by omega) p) (hi 64 64 (by omega) p)
        (hi 128 3 (by omega) p) (hi 131 16 (by omega) p))
      (concatenate S1200000x147 1 [⟨S1200000x64, G1⟩, ⟨S1200000x64, G2⟩, ⟨S1200000x3, D⟩, ⟨S1200000x16, ea⟩]
        concatenates_S1200000x64_S1200000x64_S1200000x3_S1200000x16_S1200000x147_d1)
    = rows4 (Cert.Egnn.msgRow We1 be1 We2 be2) G1 G2 D ea := by
  rw [concat4_rows]
  exact rows1_cuts_rows4 (a := 64) (b := 64) (c := 3) (d := 16) (n := 147) rfl (Cert.Egnn.msgRow We1 be1 We2 be2)
    64 128 131 rfl rfl rfl _ _ _ _ G1 G2 D ea

/-- The shift array over the packed rows is the specification's shifts of the messages and the differences. -/
theorem k_shifts (We1 : Mat 145 64) (be1 : Arr 64) (We2 : Mat 64 64) (be2 : Arr 64)
    (Wc1 : Mat 64 64) (bc1 : Arr 64) (Wc2 : Mat 64 1) (bc2 : Arr 1)
    (G1 G2 : Mat 1200000 64) (D : Mat 1200000 3) (ea : Mat 1200000 16) :
    rows1 (fun p => Cert.Egnn.shiftRow Wc1 bc1 Wc2 bc2
        (Cert.Egnn.msgRow We1 be1 We2 be2 (hi 0 64 (by omega) p) (hi 64 64 (by omega) p) (hi 128 3 (by omega) p)
          (hi 131 16 (by omega) p)) (hi 128 3 (by omega) p))
      (concatenate S1200000x147 1 [⟨S1200000x64, G1⟩, ⟨S1200000x64, G2⟩, ⟨S1200000x3, D⟩, ⟨S1200000x16, ea⟩]
        concatenates_S1200000x64_S1200000x64_S1200000x3_S1200000x16_S1200000x147_d1)
    = Cert.Egnn.shifts Wc1 bc1 Wc2 bc2 (rows4 (Cert.Egnn.msgRow We1 be1 We2 be2) G1 G2 D ea) D := by
  rw [concat4_rows]
  exact (rows1_cuts_rows4 (a := 64) (b := 64) (c := 3) (d := 16) (n := 147) rfl
    (fun x₁ x₂ x₃ x₄ => Cert.Egnn.shiftRow Wc1 bc1 Wc2 bc2 (Cert.Egnn.msgRow We1 be1 We2 be2 x₁ x₂ x₃ x₄) x₃)
    64 128 131 rfl rfl rfl _ _ _ _ G1 G2 D ea).trans rfl

/-! ## The masked take is the specification's take -/

/-- The printed take of rows of an N × 64 table: wrapped, masked, and under in-range node numbers the plain take. -/
theorem take64_of_mask (X : Mat 100000 64) (idx : IVec Cert.Egnn.sE 32) (hidx : ∀ k, (idx k).toNat < 100000) :
    select
      (broadcastInDim S1200000x64 ![0] bcast_S1200000_S1200000x64_0
        (Host.reduce IntOp.andi
          (andi
            (cmpi .sge
              (broadcastInDim S1200000x1 ![0] bcast_S1200000_S1200000x1_0
                (select (cmpi .slt idx (broadcastInDim S1200000 ![] bcast_S_S1200000 (constantI S_ 32 0#32)))
                  (addi idx (broadcastInDim S1200000 ![] bcast_S_S1200000 (constantI S_ 32 100000#32))) idx))
              (broadcastInDim S1200000x1 ![] bcast_S_S1200000x1 (constantI S_ 32 0#32)))
            (cmpi .sle
              (broadcastInDim S1200000x1 ![0] bcast_S1200000_S1200000x1_0
                (select (cmpi .slt idx (broadcastInDim S1200000 ![] bcast_S_S1200000 (constantI S_ 32 0#32)))
                  (addi idx (broadcastInDim S1200000 ![] bcast_S_S1200000 (constantI S_ 32 100000#32))) idx))
              (broadcastInDim S1200000x1 ![0, 1] bcast_S1x1_S1200000x1_0_1
                (broadcastInDim S1x1 ![1] bcast_S1_S1x1_1 (constantI S1 32 99999#32)))))
          (constantI S_ 1 1#1) reducesTo_S1200000x1_S1200000_d1 h_S_))
      (Host.gather gather_S100000x64_S1200000x1_S1200000x64_1_0_n_n_0_1_164 X
        (broadcastInDim S1200000x1 ![0] bcast_S1200000_S1200000x1_0
          (select (cmpi .slt idx (broadcastInDim S1200000 ![] bcast_S_S1200000 (constantI S_ 32 0#32)))
            (addi idx (broadcastInDim S1200000 ![] bcast_S_S1200000 (constantI S_ 32 100000#32))) idx)))
      (broadcastInDim S1200000x64 ![] bcast_S_S1200000x64 (constant (F := Ideal) S_ .f32 0x7FC00000#32))
    = Cert.Egnn.take64 X idx :=
  Cert.Egnn.TakeMask.take_eq (D := 64) X gather_S100000x64_S1200000x1_S1200000x64_1_0_n_n_0_1_164 idx hidx
    bcast_S_S1200000x1 bcast_S1_S1x1_1 bcast_S1x1_S1200000x1_0_1 reducesTo_S1200000x1_S1200000_d1 h_S_
    bcast_S1200000_S1200000x64_0 bcast_S_S1200000x64

/-- The same for an N × 3 table. -/
theorem take3_of_mask (X : Mat 100000 3) (idx : IVec Cert.Egnn.sE 32) (hidx : ∀ k, (idx k).toNat < 100000) :
    select
      (broadcastInDim S1200000x3 ![0] bcast_S1200000_S1200000x3_0
        (Host.reduce IntOp.andi
          (andi
            (cmpi .sge
              (broadcastInDim S1200000x1 ![0] bcast_S1200000_S1200000x1_0
                (select (cmpi .slt idx (broadcastInDim S1200000 ![] bcast_S_S1200000 (constantI S_ 32 0#32)))
                  (addi idx (broadcastInDim S1200000 ![] bcast_S_S1200000 (constantI S_ 32 100000#32))) idx))
              (broadcastInDim S1200000x1 ![] bcast_S_S1200000x1 (constantI S_ 32 0#32)))
            (cmpi .sle
              (broadcastInDim S1200000x1 ![0] bcast_S1200000_S1200000x1_0
                (select (cmpi .slt idx (broadcastInDim S1200000 ![] bcast_S_S1200000 (constantI S_ 32 0#32)))
                  (addi idx (broadcastInDim S1200000 ![] bcast_S_S1200000 (constantI S_ 32 100000#32))) idx))
              (broadcastInDim S1200000x1 ![0, 1] bcast_S1x1_S1200000x1_0_1
                (broadcastInDim S1x1 ![1] bcast_S1_S1x1_1 (constantI S1 32 99999#32)))))
          (constantI S_ 1 1#1) reducesTo_S1200000x1_S1200000_d1 h_S_))
      (Host.gather gather_S100000x3_S1200000x1_S1200000x3_1_0_n_n_0_1_13 X
        (broadcastInDim S1200000x1 ![0] bcast_S1200000_S1200000x1_0
          (select (cmpi .slt idx (broadcastInDim S1200000 ![] bcast_S_S1200000 (constantI S_ 32 0#32)))
            (addi idx (broadcastInDim S1200000 ![] bcast_S_S1200000 (constantI S_ 32 100000#32))) idx)))
      (broadcastInDim S1200000x3 ![] bcast_S_S1200000x3 (constant (F := Ideal) S_ .f32 0x7FC00000#32))
    = Cert.Egnn.take3 X idx :=
  Cert.Egnn.TakeMask.take_eq (D := 3) X gather_S100000x3_S1200000x1_S1200000x3_1_0_n_n_0_1_13 idx hidx
    bcast_S_S1200000x1 bcast_S1_S1x1_1 bcast_S1x1_S1200000x1_0_1 reducesTo_S1200000x1_S1200000_d1 h_S_
    bcast_S1200000_S1200000x3_0 bcast_S_S1200000x3

/-! ## The host's sums into nodes, quotient and final sum are the specification's terms -/

/-- The messages summed into their row nodes. -/
theorem k_agg (row : IVec Cert.Egnn.sE 32) (M : Mat 1200000 64) :
    Host.scatterAdd scatter_S100000x64_S1200000x1_S1200000x64_1_0_0_1
      (broadcastInDim S100000x64 ![] bcast_S_S100000x64 (constant (F := Ideal) S_ .f32 0x00000000#32))
      (broadcastInDim S1200000x1 ![0] bcast_S1200000_S1200000x1_0 row) M
    = Cert.Egnn.aggM row M := rfl

/-- The new coordinates: the shifts summed into their row nodes over the number of such edges (at least one), added
    to the coordinates. -/
theorem k_coords (co : Mat 100000 3) (row : IVec Cert.Egnn.sE 32) (T : Mat 1200000 3) :
    addf co (Host.divf
      (Host.scatterAdd scatter_S100000x3_S1200000x1_S1200000x3_1_0_0_1
        (broadcastInDim S100000x3 ![] bcast_S_S100000x3 (constant (F := Ideal) S_ .f32 0x00000000#32))
        (broadcastInDim S1200000x1 ![0] bcast_S1200000_S1200000x1_0 row) T)
      (broadcastInDim S100000x3 ![0, 1] bcast_S100000x1_S100000x3_0_1
        (broadcastInDim S100000x1 ![0] bcast_S100000_S100000x1_0
          (maximumf
            (Host.scatterAdd scatter_S100000_S1200000x1_S1200000_n_0_0_1
              (broadcastInDim S100000 ![] bcast_S_S100000 (constant (F := Ideal) S_ .f32 0x00000000#32))
              (broadcastInDim S1200000x1 ![0] bcast_S1200000_S1200000x1_0 row)
              (broadcastInDim S1200000 ![] bcast_S_S1200000 (constant (F := Ideal) S_ .f32 0x3F800000#32)))
            (broadcastInDim S100000 ![] bcast_S_S100000 (constant (F := Ideal) S_ .f32 0x3F800000#32))))))
    = Cert.Egnn.coordsNew co row T := rfl

/-- The node update of every node is the specification's output features. -/
theorem k_out (Wn1 : Mat 128 64) (bn1 : Arr 64) (Wn2 : Mat 64 64) (bn2 : Arr 64) (Wout : Mat 64 64) (bout : Arr 64)
    (H A : Mat 100000 64) :
    rows2 (Cert.Egnn.nodeRow Wn1 bn1 Wn2 bn2 Wout bout) H A = Cert.Egnn.outFeat Wn1 bn1 Wn2 bn2 Wout bout H A := rfl

/-- The message matrix over the gathered rows is the specification's. -/
theorem k_M (We1 : Mat 145 64) (be1 : Arr 64) (We2 : Mat 64 64) (be2 : Arr 64) (H : Mat 100000 64) (co : Mat 100000 3)
    (ea : Mat 1200000 16) (r cl : IVec Cert.Egnn.sE 32) :
    rows4 (Cert.Egnn.msgRow We1 be1 We2 be2) (Cert.Egnn.take64 H r) (Cert.Egnn.take64 H cl) (Cert.Egnn.diff co r cl) ea
    = Cert.Egnn.msgs We1 be1 We2 be2 H co ea r cl := rfl

/-! ## The node numbers in range -/

/-- Under the precondition every entry of the edge index is in range, -/
theorem ei_range (m : (ℓ : Loc nD τ sig) → Buf (Elt Ideal) ℓ) (hpre : Cert.Pre_KernelIdeal m) (c : Dev nD) :
    ∀ j, ((m ((c.tc : Thread nD τ).loc main_arg3) : IVec S2x1200000 32) j).toNat < 100000 :=
  Cert.Egnn.PreRange.index_range (F := Ideal) _ _ _ _ _ _ _ _ _ _ _ _ _ _ _ _ _ _ _ _ (hpre c)

/-- so the edges' first node numbers are, -/
theorem rowIdx_range (ei : IVec (⟨2, ![2, 1200000]⟩ : Shape) 32) (hr : ∀ j, (ei j).toNat < 100000) :
    ∀ k, (Cert.Egnn.rowIdx ei k).toNat < 100000 :=
  fun k => Cert.Egnn.PreRange.row_range ei hr (by decide) (by decide) k

/-- and their second. -/
theorem colIdx_range (ei : IVec (⟨2, ![2, 1200000]⟩ : Shape) 32) (hr : ∀ j, (ei j).toNat < 100000) :
    ∀ k, (Cert.Egnn.colIdx ei k).toNat < 100000 :=
  fun k => Cert.Egnn.PreRange.col_range ei hr (by decide) (by decide) k

end Cert.KernelIdeal.Hand

end
-- ==== Proof.KI.HostVals.lean ====
/-
  WHAT THE HOST OPERATIONS LEAVE IN THE BUFFERS THE PROOF READS. Each buffer of the chain between @main's items, at the
  references that matter, is the printed operation applied to the contents of its operand references. Bookkeeping only:
  every stretch of host operations is read once over an arbitrary starting valuation, then placed in the chain, where a
  buffer that a stretch or a region does not write holds what it held before.
-/
import proofs.«428612_j50654844289863_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ)

/-! ## The index column and the range mask of a row gather, as the host spells them -/

/-- The index column of a row gather over a table of 100000 rows: a negative number wrapped once, then as a column. -/
def wrapCol (R : IVec S1200000 32) : IVec S1200000x1 32 :=
  broadcastInDim S1200000x1 ![0] bcast_S1200000_S1200000x1_0
    (select (cmpi .slt R (broadcastInDim S1200000 ![] bcast_S_S1200000 (constantI S_ 32 0#32)))
      (addi R (broadcastInDim S1200000 ![] bcast_S_S1200000 (constantI S_ 32 100000#32))) R)

/-- The mask of a row gather: per row, whether its wrapped number is a row of the table. -/
def inRange (R : IVec S1200000 32) : IVec S1200000 1 :=
  Host.reduce IntOp.andi
    (andi (cmpi .sge (wrapCol R) (broadcastInDim S1200000x1 ![] bcast_S_S1200000x1 (constantI S_ 32 0#32)))
      (cmpi .sle (wrapCol R) (broadcastInDim S1200000x1 ![0, 1] bcast_S1x1_S1200000x1_0_1
        (broadcastInDim S1x1 ![1] bcast_S1_S1x1_1 (constantI S1 32 99999#32)))))
    (constantI S_ 1 1#1) reducesTo_S1200000x1_S1200000_d1 h_S_

/-- Contents moved to a typed reference's buffer and back are the contents. -/
theorem ofBuf_toBuf {T : BufTy} (x : StableHlo.TRef sig T) (v : T.Contents (Elt F)) : x.ofBuf (x.toBuf v) = v := by
  obtain ⟨r, h, _, _⟩ := x
  subst h
  rfl

/-! ## Each stretch of host operations, read over an arbitrary starting valuation -/

section Stretches

open Idealize.ShloMosaic.StableHlo

/-- The edges' row numbers: row 0 of the index pairs, as a vector. -/
theorem ops0_v1 (V : Valuation τ sig (Elt F)) :
    StableHlo.after hostOps0 V (Proc.devRef .tc main_v1)
      = shapeCast S1200000 (extractStridedSlice S1x1200000 ![0, 0] (V (Proc.devRef .tc main_arg3)) slices_S2x1200000_S1x1200000_0_0) shapeCasts_S1x1200000_S1200000 := by
  after_results <;> rfl

/-- The edges' column numbers: row 1 of the index pairs, as a vector. -/
theorem ops0_v3 (V : Valuation τ sig (Elt F)) :
    StableHlo.after hostOps0 V (Proc.devRef .tc main_v3)
      = shapeCast S1200000 (extractStridedSlice S1x1200000 ![1, 0] (V (Proc.devRef .tc main_arg3)) slices_S2x1200000_S1x1200000_1_0) shapeCasts_S1x1200000_S1200000 := by
  after_results <;> rfl

theorem ops0_v4 (V : Valuation τ sig (Elt F)) :
    StableHlo.after hostOps0 V (Proc.devRef .tc main_v4) = truncf .bf16 (V (Proc.devRef .tc main_arg4)) bitsLt_bf16_f32 := by
  after_results <;> rfl

/-- The hidden states' rows at the edges' row numbers: a masked row gather. -/
theorem take0 (V : Valuation τ sig (Elt F)) :
    StableHlo.after hostOps1 V (Proc.devRef .tc main_v6)
      = select (broadcastInDim S1200000x64 ![0] bcast_S1200000_S1200000x64_0 (inRange (V (Proc.devRef .tc main_v1))))
          (Host.gather gather_S100000x64_S1200000x1_S1200000x64_1_0_n_n_0_1_164 (V (Proc.devRef .tc main_v5)) (wrapCol (V (Proc.devRef .tc main_v1))))
          (broadcastInDim S1200000x64 ![] bcast_S_S1200000x64 (constant S_ .f32 0x7FC00000#32)) := by
  after_results_simp
  simp only [ofBuf_toBuf]
  have e1 : ((TRef.of main_v1 : TRef sig ⟨S1200000, .i32⟩).ofBuf (V (Proc.devRef .tc main_v1)) : IVec S1200000 32) = V (Proc.devRef .tc main_v1) := rfl
  have e5 : ((TRef.of main_v5 : TRef sig ⟨S100000x64, .f32⟩).ofBuf (V (Proc.devRef .tc main_v5)) : FVec F S100000x64 .f32) = V (Proc.devRef .tc main_v5) := rfl
  have e6 : ∀ X : FVec F S1200000x64 .f32, ((TRef.of main_v6 : TRef sig ⟨S1200000x64, .f32⟩).toBuf (Val := Elt F) X : FVec F S1200000x64 .f32) = X := fun _ => rfl
  rw [e1, e5, e6]
  unfold wrapCol inRange
  rfl

/-- The hidden states' rows at the edges' column numbers. -/
theorem take1 (V : Valuation τ sig (Elt F)) :
    StableHlo.after hostOps1_1 V (Proc.devRef .tc main_v7)
      = select (broadcastInDim S1200000x64 ![0] bcast_S1200000_S1200000x64_0 (inRange (V (Proc.devRef .tc main_v3))))
          (Host.gather gather_S100000x64_S1200000x1_S1200000x64_1_0_n_n_0_1_164 (V (Proc.devRef .tc main_v5)) (wrapCol (V (Proc.devRef .tc main_v3))))
          (broadcastInDim S1200000x64 ![] bcast_S_S1200000x64 (constant S_ .f32 0x7FC00000#32)) := by
  after_results_simp
  simp only [ofBuf_toBuf]
  have e1 : ((TRef.of main_v3 : TRef sig ⟨S1200000, .i32⟩).ofBuf (V (Proc.devRef .tc main_v3)) : IVec S1200000 32) = V (Proc.devRef .tc main_v3) := rfl
  have e5 : ((TRef.of main_v5 : TRef sig ⟨S100000x64, .f32⟩).ofBuf (V (Proc.devRef .tc main_v5)) : FVec F S100000x64 .f32) = V (Proc.devRef .tc main_v5) := rfl
  have e6 : ∀ X : FVec F S1200000x64 .f32, ((TRef.of main_v7 : TRef sig ⟨S1200000x64, .f32⟩).toBuf (Val := Elt F) X : FVec F S1200000x64 .f32) = X := fun _ => rfl
  rw [e1, e5, e6]
  unfold wrapCol inRange
  rfl

/-- The coordinates' rows at the edges' row numbers. -/
theorem take2 (V : Valuation τ sig (Elt F)) :
    StableHlo.after hostOps1_2 V (Proc.devRef .tc main_v8)
      = select (broadcastInDim S1200000x3 ![0] bcast_S1200000_S1200000x3_0 (inRange (V (Proc.devRef .tc main_v1))))
          (Host.gather gather_S100000x3_S1200000x1_S1200000x3_1_0_n_n_0_1_13 (V (Proc.devRef .tc main_arg2)) (wrapCol (V (Proc.devRef .tc main_v1))))
          (broadcastInDim S1200000x3 ![] bcast_S_S1200000x3 (constant S_ .f32 0x7FC00000#32)) := by
  after_results_simp
  simp only [ofBuf_toBuf]
  have e1 : ((TRef.of main_v1 : TRef sig ⟨S1200000, .i32⟩).ofBuf (V (Proc.devRef .tc main_v1)) : IVec S1200000 32) = V (Proc.devRef .tc main_v1) := rfl
  have e5 : ((TRef.of main_arg2 : TRef sig ⟨S100000x3, .f32⟩).ofBuf (V (Proc.devRef .tc main_arg2)) : FVec F S100000x3 .f32) = V (Proc.devRef .tc main_arg2) := rfl
  have e6 : ∀ X : FVec F S1200000x3 .f32, ((TRef.of main_v8 : TRef sig ⟨S1200000x3, .f32⟩).toBuf (Val := Elt F) X : FVec F S1200000x3 .f32) = X := fun _ => rfl
  rw [e1, e5, e6]
  unfold wrapCol inRange
  rfl

/-- The coordinates' rows at the edges' column numbers. -/
theorem take3 (V : Valuation τ sig (Elt F)) :
    StableHlo.after hostOps1_3 V (Proc.devRef .tc main_v9)
      = select (broadcastInDim S1200000x3 ![0] bcast_S1200000_S1200000x3_0 (inRange (V (Proc.devRef .tc main_v3))))
          (Host.gather gather_S100000x3_S1200000x1_S1200000x3_1_0_n_n_0_1_13 (V (Proc.devRef .tc main_arg2)) (wrapCol (V (Proc.devRef .tc main_v3))))
          (broadcastInDim S1200000x3 ![] bcast_S_S1200000x3 (constant S_ .f32 0x7FC00000#32)) := by
  after_results_simp
  simp only [ofBuf_toBuf]
  have e1 : ((TRef.of main_v3 : TRef sig ⟨S1200000, .i32⟩).ofBuf (V (Proc.devRef .tc main_v3)) : IVec S1200000 32) = V (Proc.devRef .tc main_v3) := rfl
  have e5 : ((TRef.of main_arg2 : TRef sig ⟨S100000x3, .f32⟩).ofBuf (V (Proc.devRef .tc main_arg2)) : FVec F S100000x3 .f32) = V (Proc.devRef .tc main_arg2) := rfl
  have e6 : ∀ X : FVec F S1200000x3 .f32, ((TRef.of main_v9 : TRef sig ⟨S1200000x3, .f32⟩).toBuf (Val := Elt F) X : FVec F S1200000x3 .f32) = X := fun _ => rfl
  rw [e1, e5, e6]
  unfold wrapCol inRange
  rfl

/-- The coordinate differences. -/
theorem ops14_v10 (V : Valuation τ sig (Elt F)) :
    StableHlo.after hostOps1_4 V (Proc.devRef .tc main_v10) = subf (V (Proc.devRef .tc main_v8)) (V (Proc.devRef .tc main_v9)) := by
  after_results <;> rfl

/-- The packed edge rows: the two gathered hidden states, the difference, the edge attributes, side by side. -/
theorem ops14_v11 (V : Valuation τ sig (Elt F)) :
    StableHlo.after hostOps1_4 V (Proc.devRef .tc main_v11)
      = concatenate S1200000x147 1 [⟨S1200000x64, V (Proc.devRef .tc main_v6)⟩, ⟨S1200000x64, V (Proc.devRef .tc main_v7)⟩,
          ⟨S1200000x3, subf (V (Proc.devRef .tc main_v8)) (V (Proc.devRef .tc main_v9))⟩, ⟨S1200000x16, V (Proc.devRef .tc main_arg1)⟩]
          concatenates_S1200000x64_S1200000x64_S1200000x3_S1200000x16_S1200000x147_d1 := by
  after_results <;> rfl

theorem ops14_v12 (V : Valuation τ sig (Elt F)) :
    StableHlo.after hostOps1_4 V (Proc.devRef .tc main_v12) = truncf .bf16 (V (Proc.devRef .tc main_arg8)) bitsLt_bf16_f32 := by
  after_results <;> rfl

theorem ops14_v13 (V : Valuation τ sig (Elt F)) :
    StableHlo.after hostOps1_4 V (Proc.devRef .tc main_v13) = truncf .bf16 (V (Proc.devRef .tc main_arg10)) bitsLt_bf16_f32 := by
  after_results <;> rfl

theorem ops14_v14 (V : Valuation τ sig (Elt F)) :
    StableHlo.after hostOps1_4 V (Proc.devRef .tc main_v14) = truncf .bf16 (V (Proc.devRef .tc main_arg16)) bitsLt_bf16_f32 := by
  after_results <;> rfl

theorem ops14_v15 (V : Valuation τ sig (Elt F)) :
    StableHlo.after hostOps1_4 V (Proc.devRef .tc main_v15) = truncf .bf16 (V (Proc.devRef .tc main_arg18)) bitsLt_bf16_f32 := by
  after_results <;> rfl

/-- The coordinate shifts summed into their nodes. -/
theorem ops2_v19 (V : Valuation τ sig (Elt F)) :
    StableHlo.after hostOps2 V (Proc.devRef .tc main_v19)
      = Host.scatterAdd scatter_S100000x3_S1200000x1_S1200000x3_1_0_0_1
          (broadcastInDim S100000x3 ![] bcast_S_S100000x3 (constant S_ .f32 0x00000000#32))
          (broadcastInDim S1200000x1 ![0] bcast_S1200000_S1200000x1_0 (V (Proc.devRef .tc main_v1)))
          (V (Proc.devRef .tc main_v16_1)) := by
  after_results_simp <;> rfl

/-- The number of edges of each node: ones summed into the nodes. -/
theorem ops2_v23 (V : Valuation τ sig (Elt F)) :
    StableHlo.after hostOps2 V (Proc.devRef .tc main_v23)
      = Host.scatterAdd scatter_S100000_S1200000x1_S1200000_n_0_0_1
          (broadcastInDim S100000 ![] bcast_S_S100000 (constant S_ .f32 0x00000000#32))
          (broadcastInDim S1200000x1 ![0] bcast_S1200000_S1200000x1_0 (V (Proc.devRef .tc main_v1)))
          (broadcastInDim S1200000 ![] bcast_S_S1200000 (constant S_ .f32 0x3F800000#32)) := by
  after_results_simp <;> rfl

/-- The messages summed into their nodes. -/
theorem ops2_v32 (V : Valuation τ sig (Elt F)) :
    StableHlo.after hostOps2 V (Proc.devRef .tc main_v32)
      = Host.scatterAdd scatter_S100000x64_S1200000x1_S1200000x64_1_0_0_1
          (broadcastInDim S100000x64 ![] bcast_S_S100000x64 (constant S_ .f32 0x00000000#32))
          (broadcastInDim S1200000x1 ![0] bcast_S1200000_S1200000x1_0 (V (Proc.devRef .tc main_v1)))
          (V (Proc.devRef .tc main_v16_0)) := by
  after_results_simp <;> rfl

/-- The new coordinates: the old ones plus the summed shifts over the number of edges, at least one. -/
theorem ops2_v29 (V : Valuation τ sig (Elt F)) :
    StableHlo.after hostOps2 V (Proc.devRef .tc main_v29)
      = addf (V (Proc.devRef .tc main_arg2))
          (Host.divf (StableHlo.after hostOps2 V (Proc.devRef .tc main_v19))
            (broadcastInDim S100000x3 ![0, 1] bcast_S100000x1_S100000x3_0_1
              (broadcastInDim S100000x1 ![0] bcast_S100000_S100000x1_0
                (maximumf (StableHlo.after hostOps2 V (Proc.devRef .tc main_v23))
                  (broadcastInDim S100000 ![] bcast_S_S100000 (constant S_ .f32 0x3F800000#32)))))) := by
  after_results_simp <;> rfl

theorem ops2_v33 (V : Valuation τ sig (Elt F)) :
    StableHlo.after hostOps2 V (Proc.devRef .tc main_v33) = truncf .bf16 (V (Proc.devRef .tc main_arg12)) bitsLt_bf16_f32 := by
  after_results_simp <;> rfl

theorem ops2_v34 (V : Valuation τ sig (Elt F)) :
    StableHlo.after hostOps2 V (Proc.devRef .tc main_v34) = truncf .bf16 (V (Proc.devRef .tc main_arg14)) bitsLt_bf16_f32 := by
  after_results_simp <;> rfl

theorem ops2_v35 (V : Valuation τ sig (Elt F)) :
    StableHlo.after hostOps2 V (Proc.devRef .tc main_v35) = truncf .bf16 (V (Proc.devRef .tc main_arg6)) bitsLt_bf16_f32 := by
  after_results_simp <;> rfl

end Stretches

/-! ## The chain's links: what a stretch or a region does not write stays -/

/-- The valuations between the five stretches before region 1. -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev W6 (c : Dev nD) : Valuation τ sig (Elt F) := StableHlo.after hostOps1_3 (W5 m c)
theorem W7_def (c : Dev nD) : W7 m c = StableHlo.after hostOps1_4 (W6 m c) := rfl

theorem W1_of (c : Dev nD) {r : Ref sig .tc} (h : r ∉ hostOps0_W) : W1 m c (Proc.devRef .tc r) = m (c, Proc.devRef .tc r) :=
  StableHlo.after_of_writes_sub hostOps0 _ hostOps0_writes h
theorem W2_ne (c : Dev nD) {r : Ref sig .tc} (h : r ≠ main_v5) : W2 m c (Proc.devRef .tc r) = W1 m c (Proc.devRef .tc r) :=
  Function.update_of_ne (StableHlo.devRef_ne_of_ne h : (Proc.devRef .tc r : DevRef τ sig) ≠ Proc.devRef .tc main_v5) _ _
theorem W2_v5 (c : Dev nD) : W2 m c (Proc.devRef .tc main_v5) = o2 m c := Function.update_self ..
theorem W3_of (c : Dev nD) {r : Ref sig .tc} (h : r ∉ hostOps1_W) : W3 m c (Proc.devRef .tc r) = W2 m c (Proc.devRef .tc r) :=
  StableHlo.after_of_writes_sub hostOps1 _ hostOps1_writes h
theorem W4_of (c : Dev nD) {r : Ref sig .tc} (h : r ∉ hostOps1_1_W) : W4 m c (Proc.devRef .tc r) = W3 m c (Proc.devRef .tc r) :=
  StableHlo.after_of_writes_sub hostOps1_1 _ hostOps1_1_writes h
theorem W5_of (c : Dev nD) {r : Ref sig .tc} (h : r ∉ hostOps1_2_W) : W5 m c (Proc.devRef .tc r) = W4 m c (Proc.devRef .tc r) :=
  StableHlo.after_of_writes_sub hostOps1_2 _ hostOps1_2_writes h
theorem W6_of (c : Dev nD) {r : Ref sig .tc} (h : r ∉ hostOps1_3_W) : W6 m c (Proc.devRef .tc r) = W5 m c (Proc.devRef .tc r) :=
  StableHlo.after_of_writes_sub hostOps1_3 _ hostOps1_3_writes h
theorem W7_of (c : Dev nD) {r : Ref sig .tc} (h : r ∉ hostOps1_4_W) : W7 m c (Proc.devRef .tc r) = W6 m c (Proc.devRef .tc r) :=
  StableHlo.after_of_writes_sub hostOps1_4 _ hostOps1_4_writes h
theorem W8_ne (c : Dev nD) {r : Ref sig .tc} (h0 : r ≠ main_v16_0) (h1 : r ≠ main_v16_1) :
    W8 m c (Proc.devRef .tc r) = W7 m c (Proc.devRef .tc r) :=
  (Function.update_of_ne (StableHlo.devRef_ne_of_ne h1 : (Proc.devRef .tc r : DevRef τ sig) ≠ Proc.devRef .tc main_v16_1) _ _).trans
    (Function.update_of_ne (StableHlo.devRef_ne_of_ne h0 : (Proc.devRef .tc r : DevRef τ sig) ≠ Proc.devRef .tc main_v16_0) _ _)
theorem W8_v16_1 (c : Dev nD) : W8 m c (Proc.devRef .tc main_v16_1) = o8_1 m c := Function.update_self ..
theorem W8_v16_0 (c : Dev nD) : W8 m c (Proc.devRef .tc main_v16_0) = o8_0 m c :=
  (Function.update_of_ne (StableHlo.devRef_ne_of_ne (by decide) : (Proc.devRef .tc main_v16_0 : DevRef τ sig) ≠ Proc.devRef .tc main_v16_1) _ _).trans
    (Function.update_self ..)
theorem W9_of (c : Dev nD) {r : Ref sig .tc} (h : r ∉ hostOps2_W) : W9 m c (Proc.devRef .tc r) = W8 m c (Proc.devRef .tc r) :=
  StableHlo.after_of_writes_sub hostOps2 _ hostOps2_writes h
theorem W10_ne (c : Dev nD) {r : Ref sig .tc} (h : r ≠ main_v36) : W10 m c (Proc.devRef .tc r) = W9 m c (Proc.devRef .tc r) :=
  Function.update_of_ne (StableHlo.devRef_ne_of_ne h : (Proc.devRef .tc r : DevRef τ sig) ≠ Proc.devRef .tc main_v36) _ _

/-- A buffer that nothing before region 1 writes but the first stretch: it holds what the first stretch left. -/
theorem W6_W1 (c : Dev nD) {r : Ref sig .tc} (h5 : r ≠ main_v5) (h1 : r ∉ hostOps1_W) (h2 : r ∉ hostOps1_1_W) (h3 : r ∉ hostOps1_2_W)
    (h4 : r ∉ hostOps1_3_W) : W6 m c (Proc.devRef .tc r) = W1 m c (Proc.devRef .tc r) :=
  (W6_of m c h4).trans ((W5_of m c h3).trans ((W4_of m c h2).trans ((W3_of m c h1).trans (W2_ne m c h5))))
theorem W7_W1 (c : Dev nD) {r : Ref sig .tc} (h5 : r ≠ main_v5) (h1 : r ∉ hostOps1_W) (h2 : r ∉ hostOps1_1_W) (h3 : r ∉ hostOps1_2_W)
    (h4 : r ∉ hostOps1_3_W) (h6 : r ∉ hostOps1_4_W) : W7 m c (Proc.devRef .tc r) = W1 m c (Proc.devRef .tc r) :=
  (W7_of m c h6).trans (W6_W1 m c h5 h1 h2 h3 h4)
theorem W9_W1 (c : Dev nD) {r : Ref sig .tc} (h5 : r ≠ main_v5) (h1 : r ∉ hostOps1_W) (h2 : r ∉ hostOps1_1_W) (h3 : r ∉ hostOps1_2_W)
    (h4 : r ∉ hostOps1_3_W) (h6 : r ∉ hostOps1_4_W) (h7 : r ≠ main_v16_0) (h8 : r ≠ main_v16_1) (h9 : r ∉ hostOps2_W) :
    W9 m c (Proc.devRef .tc r) = W1 m c (Proc.devRef .tc r) :=
  (W9_of m c h9).trans ((W8_ne m c h7 h8).trans (W7_W1 m c h5 h1 h2 h3 h4 h6))

/-! ## Before region 0 -/

theorem W1_v1 (c : Dev nD) :
    W1 m c main_v1 = shapeCast S1200000 (extractStridedSlice S1x1200000 ![0, 0] (m (c, Proc.devRef .tc main_arg3)) slices_S2x1200000_S1x1200000_0_0) shapeCasts_S1x1200000_S1200000 :=
  ops0_v1 _
theorem W1_v3 (c : Dev nD) :
    W1 m c main_v3 = shapeCast S1200000 (extractStridedSlice S1x1200000 ![1, 0] (m (c, Proc.devRef .tc main_arg3)) slices_S2x1200000_S1x1200000_1_0) shapeCasts_S1x1200000_S1200000 :=
  ops0_v3 _
theorem W1_v4 (c : Dev nD) : W1 m c main_v4 = truncf .bf16 (m (c, Proc.devRef .tc main_arg4)) bitsLt_bf16_f32 := ops0_v4 _
theorem W1_arg0 (c : Dev nD) : W1 m c main_arg0 = m (c, Proc.devRef .tc main_arg0) := W1_of m c (by decide)
theorem W1_arg5 (c : Dev nD) : W1 m c main_arg5 = m (c, Proc.devRef .tc main_arg5) := W1_of m c (by decide)

/-! ## Before region 1 -/

theorem W7_v6 (c : Dev nD) :
    W7 m c main_v6 = select (broadcastInDim S1200000x64 ![0] bcast_S1200000_S1200000x64_0 (inRange (W1 m c main_v1)))
      (Host.gather gather_S100000x64_S1200000x1_S1200000x64_1_0_n_n_0_1_164 (o2 m c) (wrapCol (W1 m c main_v1)))
      (broadcastInDim S1200000x64 ![] bcast_S_S1200000x64 (constant S_ .f32 0x7FC00000#32)) := by
  refine (W7_of m c (by decide)).trans ((W6_of m c (by decide)).trans ((W5_of m c (by decide)).trans ((W4_of m c (by decide)).trans ?_)))
  refine (take0 (W2 m c)).trans ?_
  rw [W2_v5, W2_ne m c (by decide : main_v1 ≠ main_v5)]

theorem W7_v7 (c : Dev nD) :
    W7 m c main_v7 = select (broadcastInDim S1200000x64 ![0] bcast_S1200000_S1200000x64_0 (inRange (W1 m c main_v3)))
      (Host.gather gather_S100000x64_S1200000x1_S1200000x64_1_0_n_n_0_1_164 (o2 m c) (wrapCol (W1 m c main_v3)))
      (broadcastInDim S1200000x64 ![] bcast_S_S1200000x64 (constant S_ .f32 0x7FC00000#32)) := by
  refine (W7_of m c (by decide)).trans ((W6_of m c (by decide)).trans ((W5_of m c (by decide)).trans ?_))
  refine (take1 (W3 m c)).trans ?_
  rw [W3_of m c (by decide : main_v5 ∉ hostOps1_W), W2_v5, W3_of m c (by decide : main_v3 ∉ hostOps1_W), W2_ne m c (by decide : main_v3 ≠ main_v5)]

theorem W7_v8 (c : Dev nD) :
    W7 m c main_v8 = select (broadcastInDim S1200000x3 ![0] bcast_S1200000_S1200000x3_0 (inRange (W1 m c main_v1)))
      (Host.gather gather_S100000x3_S1200000x1_S1200000x3_1_0_n_n_0_1_13 (m (c, Proc.devRef .tc main_arg2)) (wrapCol (W1 m c main_v1)))
      (broadcastInDim S1200000x3 ![] bcast_S_S1200000x3 (constant S_ .f32 0x7FC00000#32)) := by
  refine (W7_of m c (by decide)).trans ((W6_of m c (by decide)).trans ?_)
  refine (take2 (W4 m c)).trans ?_
  rw [W4_of m c (by decide : main_v1 ∉ hostOps1_1_W), W3_of m c (by decide : main_v1 ∉ hostOps1_W), W2_ne m c (by decide : main_v1 ≠ main_v5),
    W4_of m c (by decide : main_arg2 ∉ hostOps1_1_W), W3_of m c (by decide : main_arg2 ∉ hostOps1_W), W2_ne m c (by decide : main_arg2 ≠ main_v5),
    W1_of m c (by decide : main_arg2 ∉ hostOps0_W)]

theorem W7_v9 (c : Dev nD) :
    W7 m c main_v9 = select (broadcastInDim S1200000x3 ![0] bcast_S1200000_S1200000x3_0 (inRange (W1 m c main_v3)))
      (Host.gather gather_S100000x3_S1200000x1_S1200000x3_1_0_n_n_0_1_13 (m (c, Proc.devRef .tc main_arg2)) (wrapCol (W1 m c main_v3)))
      (broadcastInDim S1200000x3 ![] bcast_S_S1200000x3 (constant S_ .f32 0x7FC00000#32)) := by
  refine (W7_of m c (by decide)).trans ?_
  refine (take3 (W5 m c)).trans ?_
  rw [W5_of m c (by decide : main_v3 ∉ hostOps1_2_W), W4_of m c (by decide : main_v3 ∉ hostOps1_1_W), W3_of m c (by decide : main_v3 ∉ hostOps1_W), W2_ne m c (by decide : main_v3 ≠ main_v5),
    W5_of m c (by decide : main_arg2 ∉ hostOps1_2_W), W4_of m c (by decide : main_arg2 ∉ hostOps1_1_W), W3_of m c (by decide : main_arg2 ∉ hostOps1_W), W2_ne m c (by decide : main_arg2 ≠ main_v5),
    W1_of m c (by decide : main_arg2 ∉ hostOps0_W)]

theorem W7_v10 (c : Dev nD) : W7 m c main_v10 = subf (W7 m c main_v8) (W7 m c main_v9) := by
  rw [W7_of m c (by decide : main_v8 ∉ hostOps1_4_W), W7_of m c (by decide : main_v9 ∉ hostOps1_4_W)]
  exact ops14_v10 (W6 m c)

theorem W7_v11 (c : Dev nD) :
    W7 m c main_v11 = concatenate S1200000x147 1 [⟨S1200000x64, W7 m c main_v6⟩, ⟨S1200000x64, W7 m c main_v7⟩,
        ⟨S1200000x3, W7 m c main_v10⟩, ⟨S1200000x16, m (c, Proc.devRef .tc main_arg1)⟩]
        concatenates_S1200000x64_S1200000x64_S1200000x3_S1200000x16_S1200000x147_d1 := by
  rw [W7_v10, W7_of m c (by decide : main_v6 ∉ hostOps1_4_W), W7_of m c (by decide : main_v7 ∉ hostOps1_4_W),
    W7_of m c (by decide : main_v8 ∉ hostOps1_4_W), W7_of m c (by decide : main_v9 ∉ hostOps1_4_W),
    ← W1_of m c (by decide : main_arg1 ∉ hostOps0_W),
    ← W6_W1 m c (by decide : main_arg1 ≠ main_v5) (by decide) (by decide) (by decide) (by decide)]
  exact ops14_v11 (W6 m c)

theorem W7_v12 (c : Dev nD) : W7 m c main_v12 = truncf .bf16 (m (c, Proc.devRef .tc main_arg8)) bitsLt_bf16_f32 := by
  rw [← W1_of m c (by decide : main_arg8 ∉ hostOps0_W), ← W6_W1 m c (by decide : main_arg8 ≠ main_v5) (by decide) (by decide) (by decide) (by decide)]
  exact ops14_v12 (W6 m c)

theorem W7_v13 (c : Dev nD) : W7 m c main_v13 = truncf .bf16 (m (c, Proc.devRef .tc main_arg10)) bitsLt_bf16_f32 := by
  rw [← W1_of m c (by decide : main_arg10 ∉ hostOps0_W), ← W6_W1 m c (by decide : main_arg10 ≠ main_v5) (by decide) (by decide) (by decide) (by decide)]
  exact ops14_v13 (W6 m c)

theorem W7_v14 (c : Dev nD) : W7 m c main_v14 = truncf .bf16 (m (c, Proc.devRef .tc main_arg16)) bitsLt_bf16_f32 := by
  rw [← W1_of m c (by decide : main_arg16 ∉ hostOps0_W), ← W6_W1 m c (by decide : main_arg16 ≠ main_v5) (by decide) (by decide) (by decide) (by decide)]
  exact ops14_v14 (W6 m c)

theorem W7_v15 (c : Dev nD) : W7 m c main_v15 = truncf .bf16 (m (c, Proc.devRef .tc main_arg18)) bitsLt_bf16_f32 := by
  rw [← W1_of m c (by decide : main_arg18 ∉ hostOps0_W), ← W6_W1 m c (by decide : main_arg18 ≠ main_v5) (by decide) (by decide) (by decide) (by decide)]
  exact ops14_v15 (W6 m c)

theorem W7_arg9 (c : Dev nD) : W7 m c main_arg9 = m (c, Proc.devRef .tc main_arg9) :=
  (W7_W1 m c (by decide) (by decide) (by decide) (by decide) (by decide) (by decide)).trans (W1_of m c (by decide))

theorem W7_arg11 (c : Dev nD) : W7 m c main_arg11 = m (c, Proc.devRef .tc main_arg11) :=
  (W7_W1 m c (by decide) (by decide) (by decide) (by decide) (by decide) (by decide)).trans (W1_of m c (by decide))

theorem W7_arg17 (c : Dev nD) : W7 m c main_arg17 = m (c, Proc.devRef .tc main_arg17) :=
  (W7_W1 m c (by decide) (by decide) (by decide) (by decide) (by decide) (by decide)).trans (W1_of m c (by decide))

theorem W7_arg19 (c : Dev nD) : W7 m c main_arg19 = m (c, Proc.devRef .tc main_arg19) :=
  (W7_W1 m c (by decide) (by decide) (by decide) (by decide) (by decide) (by decide)).trans (W1_of m c (by decide))

/-! ## Before region 2 -/

/-- The edges' row numbers are still there. -/
theorem W8_v1 (c : Dev nD) : W8 m c (Proc.devRef .tc main_v1) = W1 m c main_v1 :=
  (W8_ne m c (by decide) (by decide)).trans (W7_W1 m c (by decide) (by decide) (by decide) (by decide) (by decide) (by decide))

theorem W9_v19 (c : Dev nD) :
    W9 m c main_v19 = Host.scatterAdd scatter_S100000x3_S1200000x1_S1200000x3_1_0_0_1
      (broadcastInDim S100000x3 ![] bcast_S_S100000x3 (constant S_ .f32 0x00000000#32))
      (broadcastInDim S1200000x1 ![0] bcast_S1200000_S1200000x1_0 (W1 m c main_v1)) (o8_1 m c) := by
  refine (ops2_v19 (W8 m c)).trans ?_
  rw [W8_v1, W8_v16_1]

theorem W9_v23 (c : Dev nD) :
    W9 m c main_v23 = Host.scatterAdd scatter_S100000_S1200000x1_S1200000_n_0_0_1
      (broadcastInDim S100000 ![] bcast_S_S100000 (constant S_ .f32 0x00000000#32))
      (broadcastInDim S1200000x1 ![0] bcast_S1200000_S1200000x1_0 (W1 m c main_v1))
      (broadcastInDim S1200000 ![] bcast_S_S1200000 (constant S_ .f32 0x3F800000#32)) := by
  refine (ops2_v23 (W8 m c)).trans ?_
  rw [W8_v1]

theorem W9_v32 (c : Dev nD) :
    W9 m c main_v32 = Host.scatterAdd scatter_S100000x64_S1200000x1_S1200000x64_1_0_0_1
      (broadcastInDim S100000x64 ![] bcast_S_S100000x64 (constant S_ .f32 0x00000000#32))
      (broadcastInDim S1200000x1 ![0] bcast_S1200000_S1200000x1_0 (W1 m c main_v1)) (o8_0 m c) := by
  refine (ops2_v32 (W8 m c)).trans ?_
  rw [W8_v1, W8_v16_0]

/-- A buffer nothing writes holds the launch contents before region 2 too. -/
theorem W8_launch (c : Dev nD) {r : Ref sig .tc} (h0 : r ∉ hostOps0_W) (h5 : r ≠ main_v5) (h1 : r ∉ hostOps1_W) (h2 : r ∉ hostOps1_1_W)
    (h3 : r ∉ hostOps1_2_W) (h4 : r ∉ hostOps1_3_W) (h6 : r ∉ hostOps1_4_W) (h7 : r ≠ main_v16_0) (h8 : r ≠ main_v16_1) :
    W8 m c (Proc.devRef .tc r) = m (c, Proc.devRef .tc r) :=
  (W8_ne m c h7 h8).trans ((W7_W1 m c h5 h1 h2 h3 h4 h6).trans (W1_of m c h0))

theorem W9_v29 (c : Dev nD) :
    W9 m c main_v29 = addf (m (c, Proc.devRef .tc main_arg2))
      (Host.divf (W9 m c main_v19)
        (broadcastInDim S100000x3 ![0, 1] bcast_S100000x1_S100000x3_0_1
          (broadcastInDim S100000x1 ![0] bcast_S100000_S100000x1_0
            (maximumf (W9 m c main_v23) (broadcastInDim S100000 ![] bcast_S_S100000 (constant S_ .f32 0x3F800000#32)))))) := by
  refine (ops2_v29 (W8 m c)).trans ?_
  rw [W8_launch m c (r := main_arg2) (by decide) (by decide) (by decide) (by decide) (by decide) (by decide) (by decide) (by decide) (by decide)]

theorem W9_v33 (c : Dev nD) : W9 m c main_v33 = truncf .bf16 (m (c, Proc.devRef .tc main_arg12)) bitsLt_bf16_f32 := by
  refine (ops2_v33 (W8 m c)).trans ?_
  rw [W8_launch m c (r := main_arg12) (by decide) (by decide) (by decide) (by decide) (by decide) (by decide) (by decide) (by decide) (by decide)]

theorem W9_v34 (c : Dev nD) : W9 m c main_v34 = truncf .bf16 (m (c, Proc.devRef .tc main_arg14)) bitsLt_bf16_f32 := by
  refine (ops2_v34 (W8 m c)).trans ?_
  rw [W8_launch m c (r := main_arg14) (by decide) (by decide) (by decide) (by decide) (by decide) (by decide) (by decide) (by decide) (by decide)]

theorem W9_v35 (c : Dev nD) : W9 m c main_v35 = truncf .bf16 (m (c, Proc.devRef .tc main_arg6)) bitsLt_bf16_f32 := by
  refine (ops2_v35 (W8 m c)).trans ?_
  rw [W8_launch m c (r := main_arg6) (by decide) (by decide) (by decide) (by decide) (by decide) (by decide) (by decide) (by decide) (by decide)]

theorem W9_v5 (c : Dev nD) : W9 m c main_v5 = o2 m c :=
  (W9_of m c (by decide)).trans ((W8_ne m c (by decide) (by decide)).trans ((W7_of m c (by decide)).trans ((W6_of m c (by decide)).trans
    ((W5_of m c (by decide)).trans ((W4_of m c (by decide)).trans ((W3_of m c (by decide)).trans (W2_v5 m c)))))))

theorem W9_arg13 (c : Dev nD) : W9 m c main_arg13 = m (c, Proc.devRef .tc main_arg13) :=
  (W9_of m c (by decide)).trans (W8_launch m c (by decide) (by decide) (by decide) (by decide) (by decide) (by decide) (by decide) (by decide) (by decide))

theorem W9_arg15 (c : Dev nD) : W9 m c main_arg15 = m (c, Proc.devRef .tc main_arg15) :=
  (W9_of m c (by decide)).trans (W8_launch m c (by decide) (by decide) (by decide) (by decide) (by decide) (by decide) (by decide) (by decide) (by decide))

theorem W9_arg7 (c : Dev nD) : W9 m c main_arg7 = m (c, Proc.devRef .tc main_arg7) :=
  (W9_of m c (by decide)).trans (W8_launch m c (by decide) (by decide) (by decide) (by decide) (by decide) (by decide) (by decide) (by decide) (by decide))

/-! ## After region 2 -/

theorem W10_v29 (c : Dev nD) : W10 m c main_v29 = W9 m c main_v29 := W10_ne m c (by decide)

end Cert.KernelIdeal.Hand

end
-- ==== Proof.KI.Value.lean ====
/-
  THE KERNEL'S TWO RESULTS ARE THE LAYER OF THE SPECIFICATION, at the extended reals: the array region 2 leaves is the
  output features, and the coordinates array the last host stretch leaves is the new coordinates, as functions of the
  twenty argument arrays. Each region's array is read as its row-wise value of the arrays it finds; each array it finds
  is a host operation of earlier ones; under the precondition the masked takes are plain takes; and the conversions of
  the weights to the shorter float format are identities at the extended reals.
-/
import proofs.«428612_j50654844289863_1_alg».proof.Proof.KI.Chain
import proofs.«428612_j50654844289863_1_alg».proof.Proof.KI.Value0
import proofs.«428612_j50654844289863_1_alg».proof.Proof.KI.Value1
import proofs.«428612_j50654844289863_1_alg».proof.Proof.KI.Value2
import proofs.«428612_j50654844289863_1_alg».proof.Proof.KI.ValueGlue
import proofs.«428612_j50654844289863_1_alg».proof.Proof.SpecAll
import proofs.«428612_j50654844289863_1_alg».proof.Proof.KI.HostVals
set_option maxRecDepth 16384

noncomputable section

namespace Cert.KernelIdeal.Hand

open Cert.KernelIdeal Cert.KernelIdeal.Gen
open Idealize.ShloMosaic Idealize.ShloMosaic.TcCoe Idealize.ShloMosaic.RowOps
open Idealize.SL.Sem

variable (m : (ℓ : Loc nD τ sig) → Buf (Elt Ideal) ℓ)

/-! ## The hidden state, the node numbers, the takes -/

/-- Region 0 leaves the hidden state of the argument arrays. -/
theorem o2_eq (c : Dev nD) : o2 m c = Cert.Egnn.hid (m (c, Proc.devRef .tc main_arg0)) (m (c, Proc.devRef .tc main_arg4)) (m (c, Proc.devRef .tc main_arg5)) := by
  unfold o2
  rw [arr0_3]
  dsimp only [atTc]
  rw [W1_arg0, W1_arg5, W1_v4]
  rfl

/-- The edges' first node numbers are the first row of the index array, -/
theorem row_eq (c : Dev nD) : W1 m c main_v1 = Cert.Egnn.rowIdx (m (c, Proc.devRef .tc main_arg3)) := (W1_v1 m c).trans rfl
/-- and their second the second. -/
theorem col_eq (c : Dev nD) : W1 m c main_v3 = Cert.Egnn.colIdx (m (c, Proc.devRef .tc main_arg3)) := (W1_v3 m c).trans rfl

/-- Under the precondition every entry of the index array is in range. -/
theorem ei_lt (hpre : Cert.Pre_KernelIdeal m) (c : Dev nD) :
    ∀ j, ((m (c, Proc.devRef .tc main_arg3) : IVec S2x1200000 32) j).toNat < 100000 := ei_range m hpre c

/-- The rows of the hidden state at the edges' first nodes, -/
theorem v6_eq (hpre : Cert.Pre_KernelIdeal m) (c : Dev nD) : W7 m c main_v6 = Cert.Egnn.take64 (Cert.Egnn.hid (m (c, Proc.devRef .tc main_arg0)) (m (c, Proc.devRef .tc main_arg4)) (m (c, Proc.devRef .tc main_arg5))) (Cert.Egnn.rowIdx (m (c, Proc.devRef .tc main_arg3))) := by
  rw [W7_v6, row_eq, o2_eq]
  exact take64_of_mask _ _ (rowIdx_range _ (ei_lt m hpre c))
/-- at their second nodes, -/
theorem v7_eq (hpre : Cert.Pre_KernelIdeal m) (c : Dev nD) : W7 m c main_v7 = Cert.Egnn.take64 (Cert.Egnn.hid (m (c, Proc.devRef .tc main_arg0)) (m (c, Proc.devRef .tc main_arg4)) (m (c, Proc.devRef .tc main_arg5))) (Cert.Egnn.colIdx (m (c, Proc.devRef .tc main_arg3))) := by
  rw [W7_v7, col_eq, o2_eq]
  exact take64_of_mask _ _ (colIdx_range _ (ei_lt m hpre c))
/-- the coordinates at their first nodes, -/
theorem v8_eq (hpre : Cert.Pre_KernelIdeal m) (c : Dev nD) : W7 m c main_v8 = Cert.Egnn.take3 (m (c, Proc.devRef .tc main_arg2)) (Cert.Egnn.rowIdx (m (c, Proc.devRef .tc main_arg3))) := by
  rw [W7_v8, row_eq]
  exact take3_of_mask _ _ (rowIdx_range _ (ei_lt m hpre c))
/-- and at their second. -/
theorem v9_eq (hpre : Cert.Pre_KernelIdeal m) (c : Dev nD) : W7 m c main_v9 = Cert.Egnn.take3 (m (c, Proc.devRef .tc main_arg2)) (Cert.Egnn.colIdx (m (c, Proc.devRef .tc main_arg3))) := by
  rw [W7_v9, col_eq]
  exact take3_of_mask _ _ (colIdx_range _ (ei_lt m hpre c))

/-- The packed rows region 1 finds: the two takes of the hidden state, the coordinate difference, the attributes. -/
theorem v11_eq (hpre : Cert.Pre_KernelIdeal m) (c : Dev nD) :
    W7 m c main_v11 = concatenate S1200000x147 1
      [⟨S1200000x64, Cert.Egnn.take64 (Cert.Egnn.hid (m (c, Proc.devRef .tc main_arg0)) (m (c, Proc.devRef .tc main_arg4)) (m (c, Proc.devRef .tc main_arg5))) (Cert.Egnn.rowIdx (m (c, Proc.devRef .tc main_arg3)))⟩, ⟨S1200000x64, Cert.Egnn.take64 (Cert.Egnn.hid (m (c, Proc.devRef .tc main_arg0)) (m (c, Proc.devRef .tc main_arg4)) (m (c, Proc.devRef .tc main_arg5))) (Cert.Egnn.colIdx (m (c, Proc.devRef .tc main_arg3)))⟩,
        ⟨S1200000x3, Cert.Egnn.diff (m (c, Proc.devRef .tc main_arg2)) (Cert.Egnn.rowIdx (m (c, Proc.devRef .tc main_arg3))) (Cert.Egnn.colIdx (m (c, Proc.devRef .tc main_arg3)))⟩, ⟨S1200000x16, (m (c, Proc.devRef .tc main_arg1))⟩]
      concatenates_S1200000x64_S1200000x64_S1200000x3_S1200000x16_S1200000x147_d1 := by
  rw [W7_v11, W7_v10, v6_eq m hpre, v7_eq m hpre, v8_eq m hpre, v9_eq m hpre]
  rfl

/-! ## The edge region's two arrays -/

/-- Region 1 leaves every edge's message, -/
theorem o8_0_eq (hpre : Cert.Pre_KernelIdeal m) (c : Dev nD) : o8_0 m c = Cert.Egnn.msgsAll (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg8)) (m (c, Proc.devRef .tc main_arg9)) (m (c, Proc.devRef .tc main_arg10)) (m (c, Proc.devRef .tc main_arg11)) := by
  unfold o8_0
  rw [arr1_9]
  dsimp only [atTc]
  rw [W7_v12, W7_arg9, W7_v13, W7_arg11, v11_eq m hpre, truncf_bf16_id, truncf_bf16_id, k_msgs]
  rfl

/-- and every edge's coordinate shift. -/
theorem o8_1_eq (hpre : Cert.Pre_KernelIdeal m) (c : Dev nD) :
    o8_1 m c = Cert.Egnn.shifts (m (c, Proc.devRef .tc main_arg16)) (m (c, Proc.devRef .tc main_arg17)) (m (c, Proc.devRef .tc main_arg18)) (m (c, Proc.devRef .tc main_arg19)) (Cert.Egnn.msgsAll (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg8)) (m (c, Proc.devRef .tc main_arg9)) (m (c, Proc.devRef .tc main_arg10)) (m (c, Proc.devRef .tc main_arg11))) (Cert.Egnn.diff (m (c, Proc.devRef .tc main_arg2)) (Cert.Egnn.rowIdx (m (c, Proc.devRef .tc main_arg3))) (Cert.Egnn.colIdx (m (c, Proc.devRef .tc main_arg3)))) := by
  unfold o8_1
  rw [arr1_10]
  dsimp only [atTc]
  rw [W7_v14, W7_arg17, W7_v15, W7_arg19, W7_v12, W7_arg9, W7_v13, W7_arg11, v11_eq m hpre, truncf_bf16_id, truncf_bf16_id,
    truncf_bf16_id, truncf_bf16_id, k_shifts]
  rfl

/-! ## The two results -/

/-- THE OUTPUT FEATURES the kernel's run leaves are the specification's, of the argument arrays. -/
theorem kernel_out (hpre : Cert.Pre_KernelIdeal m) (c : Dev nD) :
    W10 m c main_v36 = Cert.Egnn.outAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  have h10 : W10 m c main_v36 = o10 m c := by
    show Function.update (W9 m c) main_v36 (o10 m c) main_v36 = _
    exact Function.update_self ..
  rw [h10]
  unfold o10
  rw [arr2_8]
  dsimp only [atTc]
  rw [W9_v33, W9_arg13, W9_v34, W9_arg15, W9_v35, W9_arg7, W9_v5, W9_v32, row_eq, o2_eq, o8_0_eq m hpre, truncf_bf16_id,
    truncf_bf16_id, truncf_bf16_id, k_agg, k_out]
  rfl

/-- THE NEW COORDINATES the kernel's run leaves are the specification's, of the argument arrays. -/
theorem kernel_coords (hpre : Cert.Pre_KernelIdeal m) (c : Dev nD) :
    W10 m c main_v29 = Cert.Egnn.coordsAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg16)) (m ((c.tc : Thread nD τ).loc main_arg17)) (m ((c.tc : Thread nD τ).loc main_arg18)) (m ((c.tc : Thread nD τ).loc main_arg19)) := by
  rw [W10_v29, W9_v29, W9_v19, W9_v23, row_eq, o8_1_eq m hpre, k_coords]
  rfl

end Cert.KernelIdeal.Hand

end
-- ==== Proof.RefSide.lean ====
/-
  THE REFERENCE computes the layer of Spec.lean: its run's two results, as terms of the argument arrays, are
  `Cert.Egnn.outFeat …` and `Cert.Egnn.coordsNew …`.

  The composed term of each result is rewritten bottom-up with whole-array identities: a matrix product followed by a
  bias broadcast in two steps (and a maximum with a broadcast zero) is a row-wise affine map (with its positive part);
  matrices side by side are rows side by side; the sum of squares along the three columns is the squared length of a
  row; a product with a broadcast column scales every row. The gathers, the subtraction of the gathered coordinates,
  the accumulating scatters, the quotient and the final sum are the specification's own operations and stay as they are.
-/
import proofs.«428612_j50654844289863_1_alg».proof.Defs
import proofs.«428612_j50654844289863_1_alg».proof.Proof.Gen.ReferenceIdeal.Run
import proofs.«428612_j50654844289863_1_alg».proof.Proof.Spec
import proofs.«428612_j50654844289863_1_alg».proof.Proof.SpecAll
import proofs.«428612_j50654844289863_1_alg».proof.Proof.LibRowDense
import proofs.«428612_j50654844289863_1_alg».proof.Proof.LibRowLayout
import proofs.«428612_j50654844289863_1_alg».proof.Proof.LibRowCat4
import proofs.«428612_j50654844289863_1_alg».proof.Proof.LibRowEdge

noncomputable section
namespace Cert.ReferenceIdeal.RefSide
open Cert.ReferenceIdeal Cert.ReferenceIdeal.Gen Idealize.ShloMosaic Idealize.ShloMosaic.RowOps Idealize.ShloMosaic.TcCoe Idealize.SL.Sem Idealize.ShloMosaic.StableHlo

/-! ## The printed records and layers, over any arrays -/

/-- Every printed matrix product is rows times columns. -/
theorem rc_32 : IsRowsCols dot_S100000x32_S32x64_S100000x64_1_0_0_1_n_n := ⟨rfl, rfl, rfl, rfl, rfl, rfl, rfl, rfl⟩
theorem rc_145 : IsRowsCols dot_S1200000x145_S145x64_S1200000x64_1_0_0_1_n_n := ⟨rfl, rfl, rfl, rfl, rfl, rfl, rfl, rfl⟩
theorem rc_e64 : IsRowsCols dot_S1200000x64_S64x64_S1200000x64_1_0_0_1_n_n := ⟨rfl, rfl, rfl, rfl, rfl, rfl, rfl, rfl⟩
theorem rc_e1 : IsRowsCols dot_S1200000x64_S64x1_S1200000x1_1_0_0_1_n_n := ⟨rfl, rfl, rfl, rfl, rfl, rfl, rfl, rfl⟩
theorem rc_128 : IsRowsCols dot_S100000x128_S128x64_S100000x64_1_0_0_1_n_n := ⟨rfl, rfl, rfl, rfl, rfl, rfl, rfl, rfl⟩
theorem rc_n64 : IsRowsCols dot_S100000x64_S64x64_S100000x64_1_0_0_1_n_n := ⟨rfl, rfl, rfl, rfl, rfl, rfl, rfl, rfl⟩

/-- The hidden state. -/
theorem l_hid (x : Mat 100000 32) (Win : Mat 32 64) (bin : Arr 64) :
    addf (Host.dotGeneral dot_S100000x32_S32x64_S100000x64_1_0_0_1_n_n none x Win)
      (broadcastInDim S100000x64 ![0, 1] bcast_S1x64_S100000x64_0_1 (broadcastInDim S1x64 ![1] bcast_S64_S1x64_1 bin))
    = Cert.Egnn.hid x Win bin :=
  hdense _ rc_32 x Win bin _ _

/-- The node numbers read the way jnp reads them, as a column. -/
theorem l_wrap (idx : IVec Cert.Egnn.sE 32) :
    broadcastInDim S1200000x1 ![0] bcast_S1200000_S1200000x1_0
      (select (cmpi .slt idx (broadcastInDim S1200000 ![] bcast_S_S1200000 (constantI S_ 32 0#32)))
        (addi idx (broadcastInDim S1200000 ![] bcast_S_S1200000 (constantI S_ 32 100000#32))) idx)
    = Cert.Egnn.wrapCol idx := rfl

/-- The node numbers as a column, as they are. -/
theorem l_ascol (idx : IVec Cert.Egnn.sE 32) :
    broadcastInDim S1200000x1 ![0] bcast_S1200000_S1200000x1_0 idx = Cert.Egnn.asCol idx := rfl

/-- The printed gathers read whole rows. -/
theorem l_take64 (H : Mat 100000 64) (idx : IVec Cert.Egnn.sE 32) :
    Host.gather gather_S100000x64_S1200000x1_S1200000x64_1_0_n_n_0_1_164 H (Cert.Egnn.wrapCol idx) = Cert.Egnn.take64 H idx := rfl
theorem l_take3 (co : Mat 100000 3) (idx : IVec Cert.Egnn.sE 32) :
    Host.gather gather_S100000x3_S1200000x1_S1200000x3_1_0_n_n_0_1_13 co (Cert.Egnn.wrapCol idx) = Cert.Egnn.take3 co idx := rfl

/-- The coordinate difference. -/
theorem l_diff (co : Mat 100000 3) (r c : IVec Cert.Egnn.sE 32) :
    subf (Cert.Egnn.take3 co r) (Cert.Egnn.take3 co c) = Cert.Egnn.diff co r c := rfl

/-- Every edge's message: four matrices side by side through two layers with their positive parts. -/
theorem l_msgs (We1 : Mat 145 64) (be1 : Arr 64) (We2 : Mat 64 64) (be2 : Arr 64)
    (G1 G2 : Mat 1200000 64) (D : Mat 1200000 3) (ea : Mat 1200000 16) :
    maximumf (addf (Host.dotGeneral dot_S1200000x64_S64x64_S1200000x64_1_0_0_1_n_n none
        (maximumf (addf (Host.dotGeneral dot_S1200000x145_S145x64_S1200000x64_1_0_0_1_n_n none
            (concatenate S1200000x145 1 [⟨S1200000x64, G1⟩, ⟨S1200000x64, G2⟩,
              ⟨S1200000x1, broadcastInDim S1200000x1 ![0] bcast_S1200000_S1200000x1_0
                (Host.reduceAdd (mulf D D) (constant S_ .f32 0x00000000#32) reducesTo_S1200000x3_S1200000_d1 h_S_)⟩,
              ⟨S1200000x16, ea⟩]
              concatenates_S1200000x64_S1200000x64_S1200000x1_S1200000x16_S1200000x145_d1) We1)
          (broadcastInDim S1200000x64 ![0, 1] bcast_S1x64_S1200000x64_0_1 (broadcastInDim S1x64 ![1] bcast_S64_S1x64_1 be1)))
          (broadcastInDim S1200000x64 ![] bcast_S_S1200000x64 (constant S_ .f32 0x00000000#32))) We2)
        (broadcastInDim S1200000x64 ![0, 1] bcast_S1x64_S1200000x64_0_1 (broadcastInDim S1x64 ![1] bcast_S64_S1x64_1 be2)))
      (broadcastInDim S1200000x64 ![] bcast_S_S1200000x64 (constant S_ .f32 0x00000000#32))
    = rows4 (Cert.Egnn.msgRow We1 be1 We2 be2) G1 G2 D ea := by
  rw [hsqLen D, concat4_rows, hdense_relu _ rc_145, hdense_relu _ rc_e64]
  rfl

/-- Every edge's coordinate shift: two layers on the message, the one number scaling the difference. -/
theorem l_shift (Wc1 : Mat 64 64) (bc1 : Arr 64) (Wc2 : Mat 64 1) (bc2 : Arr 1) (M : Mat 1200000 64) (D : Mat 1200000 3) :
    mulf D (broadcastInDim S1200000x3 ![0, 1] bcast_S1200000x1_S1200000x3_0_1
      (addf (Host.dotGeneral dot_S1200000x64_S64x1_S1200000x1_1_0_0_1_n_n none
        (maximumf (addf (Host.dotGeneral dot_S1200000x64_S64x64_S1200000x64_1_0_0_1_n_n none M Wc1)
          (broadcastInDim S1200000x64 ![0, 1] bcast_S1x64_S1200000x64_0_1 (broadcastInDim S1x64 ![1] bcast_S64_S1x64_1 bc1)))
          (broadcastInDim S1200000x64 ![] bcast_S_S1200000x64 (constant S_ .f32 0x00000000#32))) Wc2)
        (broadcastInDim S1200000x1 ![0, 1] bcast_S1x1_S1200000x1_0_1 (broadcastInDim S1x1 ![1] bcast_S1_S1x1_1 bc2))))
    = Cert.Egnn.shifts Wc1 bc1 Wc2 bc2 M D := by
  rw [hdense_relu _ rc_e64, hdense _ rc_e1, hscale]
  rfl

/-- The node update: two matrices side by side through three layers. -/
theorem l_out (Wn1 : Mat 128 64) (bn1 : Arr 64) (Wn2 : Mat 64 64) (bn2 : Arr 64) (Wout : Mat 64 64) (bout : Arr 64)
    (H A : Mat 100000 64) :
    addf (Host.dotGeneral dot_S100000x64_S64x64_S100000x64_1_0_0_1_n_n none
      (addf (Host.dotGeneral dot_S100000x64_S64x64_S100000x64_1_0_0_1_n_n none
        (maximumf (addf (Host.dotGeneral dot_S100000x128_S128x64_S100000x64_1_0_0_1_n_n none
            (concatenate S100000x128 1 [⟨S100000x64, H⟩, ⟨S100000x64, A⟩] concatenates_S100000x64_S100000x64_S100000x128_d1) Wn1)
          (broadcastInDim S100000x64 ![0, 1] bcast_S1x64_S100000x64_0_1 (broadcastInDim S1x64 ![1] bcast_S64_S1x64_1 bn1)))
          (broadcastInDim S100000x64 ![] bcast_S_S100000x64 (constant S_ .f32 0x00000000#32))) Wn2)
        (broadcastInDim S100000x64 ![0, 1] bcast_S1x64_S100000x64_0_1 (broadcastInDim S1x64 ![1] bcast_S64_S1x64_1 bn2))) Wout)
      (broadcastInDim S100000x64 ![0, 1] bcast_S1x64_S100000x64_0_1 (broadcastInDim S1x64 ![1] bcast_S64_S1x64_1 bout))
    = Cert.Egnn.outFeat Wn1 bn1 Wn2 bn2 Wout bout H A := by
  rw [concat2_rows, hdense_relu _ rc_128, hdense _ rc_n64, hdense _ rc_n64]
  rfl

/-! ## The reference's run, in row form -/

/-- The launch memory at the extended reals. -/
abbrev Mem := (ℓ : Loc nD τ sig) → Buf (Elt Ideal) ℓ

/-- The argument arrays of a device. -/
abbrev xOf (m : Mem) (c : Dev nD) : Mat 100000 32 := m ((c.tc : Thread nD τ).loc main_arg0)
abbrev eaOf (m : Mem) (c : Dev nD) : Mat 1200000 16 := m ((c.tc : Thread nD τ).loc main_arg1)
abbrev coOf (m : Mem) (c : Dev nD) : Mat 100000 3 := m ((c.tc : Thread nD τ).loc main_arg2)
abbrev eiOf (m : Mem) (c : Dev nD) : IVec S2x1200000 32 := m ((c.tc : Thread nD τ).loc main_arg3)
abbrev WinOf (m : Mem) (c : Dev nD) : Mat 32 64 := m ((c.tc : Thread nD τ).loc main_arg4)
abbrev binOf (m : Mem) (c : Dev nD) : Arr 64 := m ((c.tc : Thread nD τ).loc main_arg5)
abbrev WoutOf (m : Mem) (c : Dev nD) : Mat 64 64 := m ((c.tc : Thread nD τ).loc main_arg6)
abbrev boutOf (m : Mem) (c : Dev nD) : Arr 64 := m ((c.tc : Thread nD τ).loc main_arg7)
abbrev We1Of (m : Mem) (c : Dev nD) : Mat 145 64 := m ((c.tc : Thread nD τ).loc main_arg8)
abbrev be1Of (m : Mem) (c : Dev nD) : Arr 64 := m ((c.tc : Thread nD τ).loc main_arg9)
abbrev We2Of (m : Mem) (c : Dev nD) : Mat 64 64 := m ((c.tc : Thread nD τ).loc main_arg10)
abbrev be2Of (m : Mem) (c : Dev nD) : Arr 64 := m ((c.tc : Thread nD τ).loc main_arg11)
abbrev Wn1Of (m : Mem) (c : Dev nD) : Mat 128 64 := m ((c.tc : Thread nD τ).loc main_arg12)
abbrev bn1Of (m : Mem) (c : Dev nD) : Arr 64 := m ((c.tc : Thread nD τ).loc main_arg13)
abbrev Wn2Of (m : Mem) (c : Dev nD) : Mat 64 64 := m ((c.tc : Thread nD τ).loc main_arg14)
abbrev bn2Of (m : Mem) (c : Dev nD) : Arr 64 := m ((c.tc : Thread nD τ).loc main_arg15)
abbrev Wc1Of (m : Mem) (c : Dev nD) : Mat 64 64 := m ((c.tc : Thread nD τ).loc main_arg16)
abbrev bc1Of (m : Mem) (c : Dev nD) : Arr 64 := m ((c.tc : Thread nD τ).loc main_arg17)
abbrev Wc2Of (m : Mem) (c : Dev nD) : Mat 64 1 := m ((c.tc : Thread nD τ).loc main_arg18)
abbrev bc2Of (m : Mem) (c : Dev nD) : Arr 1 := m ((c.tc : Thread nD τ).loc main_arg19)

/-- The edges' first and second node numbers: the two rows of the index array. -/
def rowOf (m : Mem) (c : Dev nD) : IVec Cert.Egnn.sE 32 :=
  shapeCast _ (extractStridedSlice S1x1200000 ![0, 0] (m ((c.tc : Thread nD τ).loc main_arg3)) slices_S2x1200000_S1x1200000_0_0)
    shapeCasts_S1x1200000_S1200000
def colOf (m : Mem) (c : Dev nD) : IVec Cert.Egnn.sE 32 :=
  shapeCast _ (extractStridedSlice S1x1200000 ![1, 0] (m ((c.tc : Thread nD τ).loc main_arg3)) slices_S2x1200000_S1x1200000_1_0)
    shapeCasts_S1x1200000_S1200000

/-- The hidden state, the coordinate differences and the messages of a device's arrays. -/
def hidOf (m : Mem) (c : Dev nD) : Mat 100000 64 := Cert.Egnn.hid (xOf m c) (WinOf m c) (binOf m c)
def diffOf (m : Mem) (c : Dev nD) : Mat 1200000 3 := Cert.Egnn.diff (coOf m c) (rowOf m c) (colOf m c)
def msgsOf (m : Mem) (c : Dev nD) : Mat 1200000 64 :=
  Cert.Egnn.msgs (We1Of m c) (be1Of m c) (We2Of m c) (be2Of m c) (hidOf m c) (coOf m c) (eaOf m c) (rowOf m c) (colOf m c)

/-- The message matrix over the gathered rows is the specification's. -/
theorem l_M (We1 : Mat 145 64) (be1 : Arr 64) (We2 : Mat 64 64) (be2 : Arr 64) (H : Mat 100000 64) (co : Mat 100000 3)
    (ea : Mat 1200000 16) (r cl : IVec Cert.Egnn.sE 32) :
    rows4 (Cert.Egnn.msgRow We1 be1 We2 be2) (Cert.Egnn.take64 H r) (Cert.Egnn.take64 H cl) (Cert.Egnn.diff co r cl) ea
    = Cert.Egnn.msgs We1 be1 We2 be2 H co ea r cl := rfl

set_option maxRecDepth 8192 in
/-- THE OUTPUT FEATURES of the reference's run are the specification's. -/
theorem ref_out (m : Mem) (c : Dev nD) :
    Value.res_out0 (F := Ideal) m c
    = Cert.Egnn.outFeat (Wn1Of m c) (bn1Of m c) (Wn2Of m c) (bn2Of m c) (WoutOf m c) (boutOf m c) (hidOf m c)
        (Cert.Egnn.aggM (rowOf m c) (msgsOf m c)) := by
  unfold Value.res_out0 Value.res_main_v91 msgsOf hidOf rowOf colOf xOf eaOf coOf WinOf binOf WoutOf boutOf We1Of be1Of We2Of be2Of Wn1Of bn1Of Wn2Of bn2Of
  rw [l_hid]
  generalize Cert.Egnn.hid _ _ _ = H
  generalize shapeCast S1200000 (extractStridedSlice S1x1200000 ![0, 0] (m ((c.tc : Thread nD τ).loc main_arg3)) slices_S2x1200000_S1x1200000_0_0) shapeCasts_S1x1200000_S1200000 = r
  generalize shapeCast S1200000 (extractStridedSlice S1x1200000 ![1, 0] (m ((c.tc : Thread nD τ).loc main_arg3)) slices_S2x1200000_S1x1200000_1_0) shapeCasts_S1x1200000_S1200000 = cl
  rw [l_wrap, l_wrap, l_take64, l_take64, l_take3, l_take3, l_diff, l_ascol, l_msgs, l_M]
  generalize Cert.Egnn.msgs _ _ _ _ _ _ _ _ _ = M
  rw [l_out]
  rfl

set_option maxRecDepth 8192 in
/-- THE NEW COORDINATES of the reference's run are the specification's. -/
theorem ref_coords (m : Mem) (c : Dev nD) :
    Value.res_out1 (F := Ideal) m c
    = Cert.Egnn.coordsNew (coOf m c) (rowOf m c)
        (Cert.Egnn.shifts (Wc1Of m c) (bc1Of m c) (Wc2Of m c) (bc2Of m c) (msgsOf m c) (diffOf m c)) := by
  unfold Value.res_out1 Value.res_main_v74 msgsOf diffOf hidOf rowOf colOf xOf eaOf coOf WinOf binOf We1Of be1Of We2Of be2Of Wc1Of bc1Of Wc2Of bc2Of
  rw [l_hid]
  generalize Cert.Egnn.hid _ _ _ = H
  generalize shapeCast S1200000 (extractStridedSlice S1x1200000 ![0, 0] (m ((c.tc : Thread nD τ).loc main_arg3)) slices_S2x1200000_S1x1200000_0_0) shapeCasts_S1x1200000_S1200000 = r
  generalize shapeCast S1200000 (extractStridedSlice S1x1200000 ![1, 0] (m ((c.tc : Thread nD τ).loc main_arg3)) slices_S2x1200000_S1x1200000_1_0) shapeCasts_S1x1200000_S1200000 = cl
  rw [l_wrap, l_wrap, l_take64, l_take64, l_take3, l_take3, l_diff, l_ascol, l_msgs, l_M]
  generalize Cert.Egnn.msgs _ _ _ _ _ _ _ _ _ = M
  generalize Cert.Egnn.diff _ _ _ = D
  rw [l_shift]
  rfl

/-! ## The same, as functions of the twenty argument arrays -/

/-- The output features of the reference's run, from the argument arrays. -/
theorem ref_out_all (m : Mem) (c : Dev nD) :
    Value.res_out0 (F := Ideal) m c
    = Cert.Egnn.outAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  (ref_out m c).trans rfl

/-- The new coordinates of the reference's run, from the argument arrays. -/
theorem ref_coords_all (m : Mem) (c : Dev nD) :
    Value.res_out1 (F := Ideal) m c
    = Cert.Egnn.coordsAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9))
        (m ((c.tc : Thread nD τ).loc main_arg10)) (m ((c.tc : Thread nD τ).loc main_arg11)) (m ((c.tc : Thread nD τ).loc main_arg16)) (m ((c.tc : Thread nD τ).loc main_arg17)) (m ((c.tc : Thread nD τ).loc main_arg18)) (m ((c.tc : Thread nD τ).loc main_arg19)) :=
  (ref_coords m c).trans rfl

end Cert.ReferenceIdeal.RefSide

end
-- ==== Proof.Claims.lean ====
/-
  THE FIVE CLAIMS. The two kernel programs' frames are the conditional frame at the chain of buffer contents (one text
  for both: it is generic in the float instance). The reference's frame is its run with the results dropped. Nothing
  was rewritten by the idealization, so there is nothing to preserve. For the equivalence over the extended reals: the
  kernel program's run ends with its two result buffers at the chain's last contents, which are the layer's output
  features and new coordinates as functions of the argument arrays (under the precondition that every edge's two node
  numbers are node numbers, which makes the kernel's masked row reads the plain ones); the reference's run ends at the
  same two functions of its own argument arrays; and the argument arrays agree.
-/
import proofs.«428612_j50654844289863_1_alg».proof.Defs
import proofs.«428612_j50654844289863_1_alg».proof.Proof.Gen.Kernel
import proofs.«428612_j50654844289863_1_alg».proof.Proof.Gen.KernelIdeal
import proofs.«428612_j50654844289863_1_alg».proof.Proof.Gen.ReferenceIdeal
import proofs.«428612_j50654844289863_1_alg».proof.Proof.Gen.Pre_finite_inputs
import proofs.«428612_j50654844289863_1_alg».proof.Proof.Gen.ReferenceIdeal.Run
import proofs.«428612_j50654844289863_1_alg».proof.Proof.K.Run
import proofs.«428612_j50654844289863_1_alg».proof.Proof.KI.Run
import proofs.«428612_j50654844289863_1_alg».proof.Proof.KI.RunVals
import proofs.«428612_j50654844289863_1_alg».proof.Proof.KI.Value
import proofs.«428612_j50654844289863_1_alg».proof.Proof.RefSide

noncomputable section

namespace Cert.Proof.Parts

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both runs end at the same two functions of argument arrays that agree. -/
theorem algebraic : Cert.algebraic_KernelIdeal_ReferenceIdeal := by
  intro m ρ m' ρ' hpre hagree
  refine ⟨fun c => Cert.KernelIdeal.Hand.W10 m c Cert.KernelIdeal.main_v36,
    fun c => Cert.KernelIdeal.Hand.W10 m c Cert.KernelIdeal.main_v29, Cert.KernelIdeal.Hand.run_vals m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17, h18, h19⟩ := hagree c
    refine (Cert.ReferenceIdeal.RefSide.ref_out_all m' c).trans ?_
    rw [h0, h1, h2, h3, h4, h5, h6, h7, h8, h9, h10, h11, h12, h13, h14, h15]
    exact (Cert.KernelIdeal.Hand.kernel_out m hpre c).symm
  · obtain ⟨h0, h1, h2, h3, h4, h5, h6, h7, h8, h9, h10, h11, h12, h13, h14, h15, h16, h17, h18, h19⟩ := hagree c
    refine (Cert.ReferenceIdeal.RefSide.ref_coords_all m' c).trans ?_
    rw [h0, h1, h2, h3, h4, h5, h8, h9, h10, h11, h16, h17, h18, h19]
    exact (Cert.KernelIdeal.Hand.kernel_coords m hpre c).symm

end Cert.Proof.Parts

end
-- ==== Proof.lean ====
/-
  Equivalence over the extended reals of a Pallas implementation of one layer of an E(n)-equivariant graph network
  (three kernels: the input embedding, the edge and coordinate model, the node model; the gathers and scatters between
  them on the host) against its jnp reference, under the precondition that every float input is finite and every entry of
  the edge index is a node number.

  At the ideal instance a change of float format is the identity, so the kernels' bf16 operands are the reference's
  f32 ones; a matrix product into a zero accumulator is the host's product; the kernels act row by row on blocks of rows,
  and a row-wise map of a block is the block of the row-wise map. The kernel packs four pieces per edge into one row and
  cuts them back out; the squared length of the coordinate difference is taken inside the kernel where the reference
  takes it on the host. The kernel program reads rows with a masked take whose mask is all true when the node numbers are
  in range; the reference's plain gather then reads the same rows. The sums into nodes and the one quotient are the same
  host operations on both sides. No law used needs finiteness: sums and products are only regrouped.
-/
import proofs.«428612_j50654844289863_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Parts.frame_k, Parts.frame_ki, Parts.frame_ri, trivial, Parts.algebraic⟩

end Cert.Proof

end
